-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x1 : Shape := ⟨2, ![8000000, 1]⟩
abbrev S8000000 : Shape := ⟨1, ![8000000]⟩
abbrev S8000000x3 : Shape := ⟨2, ![8000000, 3]⟩
abbrev S1 : Shape := ⟨1, ![1]⟩
abbrev S_ : Shape := ⟨0, ![]⟩

class Facts : Prop where
  bcast_S_S8000000x1 : S_.BroadcastsInDim S8000000x1 (![] : Fin 0 → Fin S8000000x1.rank)
  reducesTo_S8000000x1_S_d0_1 : S8000000x1.ReducesTo [0, 1] S_
  h_S_ : 0 < S_.numel
  bcast_S_S8000000x3 : S_.BroadcastsInDim S8000000x3 (![] : Fin 0 → Fin S8000000x3.rank)
  reducesTo_S8000000x3_S_d0_1 : S8000000x3.ReducesTo [0, 1] S_
  bcast_S_S1 : S_.BroadcastsInDim S1 (![] : Fin 0 → Fin S1.rank)
  reducesTo_S1_S_d0 : S1.ReducesTo [0] S_
  bcast_S_S8000000 : S_.BroadcastsInDim S8000000 (![] : Fin 0 → Fin S8000000.rank)
  reducesTo_S8000000_S_d0 : S8000000.ReducesTo [0] S_

variable [Facts]

def fn_part1 {F : FTy → Type} [FloatOps F] (main_arg1 : IVec S8000000 32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S8000000 32 := broadcastInDim S8000000 ![] bcast_S_S8000000 main_c_8
  let main_v25 : IVec S8000000 1 := cmpi .sge main_arg1 main_v24
  let main_c_9 : IVec S_ 1 := constantI S_ 1 1#1
  let main_v26 : IVec S_ 1 := (fun x v => Host.reduce IntOp.andi x v reducesTo_S8000000_S_d0 h_S_) main_v25 main_c_9
  let main_v27 : IVec S_ 1 := andi main_v23 main_v26
  let main_c_10 : IVec S_ 32 := constantI S_ 32 100000#32
  let main_v28 : IVec S8000000 32 := broadcastInDim S8000000 ![] bcast_S_S8000000 main_c_10
  let main_v29 : IVec S8000000 1 := cmpi .slt main_arg1 main_v28
  let main_c_11 : IVec S_ 1 := constantI S_ 1 1#1
  let main_v30 : IVec S_ 1 := (fun x v => Host.reduce IntOp.andi x v reducesTo_S8000000_S_d0 h_S_) main_v29 main_c_11
  let main_v31 : IVec S_ 1 := andi main_v27 main_v30
  main_v31

def fn {F : FTy → Type} [FloatOps F] (main_arg0 : FVec F S8000000x1 .f32) (main_arg1 : IVec S8000000 32) (main_arg2 : FVec F S8000000x3 .f32) (main_arg3 : FVec F S1 .f32) (main_arg4 : FVec F S1 .f32) (main_arg5 : FVec F S1 .f32) : IVec S_ 1 :=
  let main_v0 : FVec F S8000000x1 .f32 := Host.absf main_arg0
  let main_cst : FVec F S_ .f32 := constant S_ .f32 0x7F800000#32
  let main_v1 : FVec F S8000000x1 .f32 := broadcastInDim S8000000x1 ![] bcast_S_S8000000x1 main_cst
  let main_v2 : IVec S8000000x1 1 := cmpf .olt main_v0 main_v1
  let main_c : IVec S_ 1 := constantI S_ 1 1#1
  let main_v3 : IVec S_ 1 := (fun x v => Host.reduce IntOp.andi x v reducesTo_S8000000x1_S_d0_1 h_S_) main_v2 main_c
  let main_v4 : FVec F S8000000x3 .f32 := Host.absf main_arg2
  let main_cst_0 : FVec F S_ .f32 := constant S_ .f32 0x7F800000#32
  let main_v5 : FVec F S8000000x3 .f32 := broadcastInDim S8000000x3 ![] bcast_S_S8000000x3 main_cst_0
  let main_v6 : IVec S8000000x3 1 := cmpf .olt main_v4 main_v5
  let main_c_1 : IVec S_ 1 := constantI S_ 1 1#1
  let main_v7 : IVec S_ 1 := (fun x v => Host.reduce IntOp.andi x v reducesTo_S8000000x3_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg5 main_v13 main_v16
-- ==== Kernel.lean ====
abbrev S8000000x1 : Shape := ⟨2, ![8000000, 1]⟩
abbrev S8000000 : Shape := ⟨1, ![8000000]⟩
abbrev S8000000x3 : Shape := ⟨2, ![8000000, 3]⟩
abbrev S1 : Shape := ⟨1, ![1]⟩
abbrev S_ : Shape := ⟨0, ![]⟩
abbrev S8000000x4 : Shape := ⟨2, ![8000000, 4]⟩
abbrev S100000x4 : Shape := ⟨2, ![100000, 4]⟩
abbrev S100000x3 : Shape := ⟨2, ![100000, 3]⟩
abbrev S100000x1 : Shape := ⟨2, ![100000, 1]⟩
abbrev S100000 : Shape := ⟨1, ![100000]⟩
abbrev S3 : Shape := ⟨1, ![3]⟩
abbrev S1x3 : Shape := ⟨2, ![1, 3]⟩
abbrev S3x100000 : Shape := ⟨2, ![3, 100000]⟩
abbrev S1x1 : Shape := ⟨2, ![1, 1]⟩
abbrev S3x8000000 : Shape := ⟨2, ![3, 8000000]⟩
abbrev S3x262144 : Shape := ⟨2, ![3, 262144]⟩
abbrev S262144 : Shape := ⟨1, ![262144]⟩
abbrev S1x262144 : Shape := ⟨2, ![1, 262144]⟩

abbrev nBuf : Space → Nat
  | .hbm => 70
  | .vmem => 6
  | .smem => 0
  | _ => 0

abbrev bufTy : (tb : Table) → Fin (tcTables nBuf tb) → BufTy
  | .hbm, ⟨0, _⟩ => ⟨S8000000x1, .f32⟩
  | .hbm, ⟨1, _⟩ => ⟨S8000000, .i32⟩
  | .hbm, ⟨2, _⟩ => ⟨S8000000x3, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8000000, .i32⟩
  | .hbm, ⟨10, _⟩ => ⟨S8000000, .i32⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S_, .f32⟩
  | .hbm, ⟨15, _⟩ => ⟨S8000000x1, .f32⟩
  | .hbm, ⟨16, _⟩ => ⟨S8000000x4, .f32⟩
  | .hbm, ⟨17, _⟩ => ⟨S_, .f32⟩
  | .hbm, ⟨18, _⟩ => ⟨S100000x4, .f32⟩
  | .hbm, ⟨19, _⟩ => ⟨S8000000x1, .i32⟩
  | .hbm, ⟨20, _⟩ => ⟨S100000x4, .f32⟩
  | .hbm, ⟨21, _⟩ => ⟨S100000x3, .f32⟩
  | .hbm, ⟨22, _⟩ => ⟨S100000x1, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x3, .f32⟩
  | .hbm, ⟨33, _⟩ => ⟨S100000x3, .f32⟩
  | .hbm, ⟨34, _⟩ => ⟨S_, .f32⟩
  | .hbm, ⟨35, _⟩ => ⟨S_, .f32⟩
  | .hbm, ⟨36, _⟩ => ⟨S100000x3, .i1⟩
  | .hbm, ⟨37, _⟩ => ⟨S100000x3, .f32⟩
  | .hbm, ⟨38, _⟩ => ⟨S100000x3, .f32⟩
  | .hbm, ⟨39, _⟩ => ⟨S3, .f32⟩
  | .hbm, ⟨40, _⟩ => ⟨S1x3, .f32⟩
  | .hbm, ⟨41, _⟩ => ⟨S100000x3, .f32⟩
  | .hbm, ⟨42, _⟩ => ⟨S100000x3, .f32⟩
  | .hbm, ⟨43, _⟩ => ⟨S3x100000, .f32⟩
  | .hbm, ⟨44, _⟩ => ⟨S_, .i32⟩
  | .hbm, ⟨45, _⟩ => ⟨S8000000, .i32⟩
  | .hbm, ⟨46, _⟩ => ⟨S8000000, .i1⟩
  | .hbm, ⟨47, _⟩ => ⟨S_, .i32⟩
  | .hbm, ⟨48, _⟩ => ⟨S8000000, .i32⟩
  | .hbm, ⟨49, _⟩ => ⟨S8000000, .i32⟩
  | .hbm, ⟨50, _⟩ => ⟨S8000000, .i32⟩
  | .hbm, ⟨51, _⟩ => ⟨S8000000x1, .i32⟩
  | .hbm, ⟨52, _⟩ => ⟨S1, .i32⟩
  | .hbm, ⟨53, _⟩ => ⟨S_, .i32⟩
  | .hbm, ⟨54, _⟩ => ⟨S8000000x1, .i32⟩
  | .hbm, ⟨55, _⟩ => ⟨S8000000x1, .i1⟩
  | .hbm, ⟨56, _⟩ => ⟨S1x1, .i32⟩
  | .hbm, ⟨57, _⟩ => ⟨S8000000x1, .i32⟩
  | .hbm, ⟨58, _⟩ => ⟨S8000000x1, .i1⟩
  | .hbm, ⟨59, _⟩ => ⟨S8000000x1, .i1⟩
  | .hbm, ⟨60, _⟩ => ⟨S_, .i1⟩
  | .hbm, ⟨61, _⟩ => ⟨S8000000, .i1⟩
  | .hbm, ⟨62, _⟩ => ⟨S3x8000000, .f32⟩
  | .hbm, ⟨63, _⟩ => ⟨S3x8000000, .i1⟩
  | .hbm, ⟨64, _⟩ => ⟨S_, .f32⟩
  | .hbm, ⟨65, _⟩ => ⟨S3x8000000, .f32⟩
  | .hbm, ⟨66, _⟩ => ⟨S3x8000000, .f32⟩
  | .hbm, ⟨67, _⟩ => ⟨S8000000, .f32⟩
  | .hbm, ⟨68, _⟩ => ⟨S8000000, .f32⟩
  | .hbm, ⟨69, _⟩ => ⟨S8000000x1, .f32⟩
  | .local _ .vmem, ⟨0, _⟩ => ⟨S3x262144, .f32⟩
  | .local _ .vmem, ⟨1, _⟩ => ⟨S3x262144, .f32⟩
  | .local _ .vmem, ⟨2, _⟩ => ⟨S262144, .f32⟩
  | .local _ .vmem, ⟨3, _⟩ => ⟨S262144, .f32⟩
  | .local _ .vmem, ⟨4, _⟩ => ⟨S262144, .f32⟩
  | .local _ .vmem, ⟨5, _⟩ => ⟨S262144, .f32⟩
  | _, _ => ⟨S8000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S3x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8000000 : S_.BroadcastsInDim S8000000 (![] : Fin 0 → Fin S8000000.rank)
  bcast_S_S8000000x1 : S_.BroadcastsInDim S8000000x1 (![] : Fin 0 → Fin S8000000x1.rank)
  concatenates_S8000000x3_S8000000x1_S8000000x4_d1 : Shape.Concatenates [S8000000x3, S8000000x1] S8000000x4 1
  bcast_S_S100000x4 : S_.BroadcastsInDim S100000x4 (![] : Fin 0 → Fin S100000x4.rank)
  bcast_S8000000_S8000000x1_0 : S8000000.BroadcastsInDim S8000000x1 (![0] : Fin 1 → Fin S8000000x1.rank)
  slices_S100000x4_S100000x3_0_0 : S100000x4.Slices ![0, 0] S100000x3
  slices_S100000x4_S100000x1_0_3 : S100000x4.Slices ![0, 3] S100000x1
  shapeCasts_S100000x1_S100000 : S100000x1.ShapeCasts S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000 : S_.BroadcastsInDim S100000 (![] : Fin 0 → Fin S100000.rank)
  bcast_S100000x1_S100000x3_0_1 : S100000x1.BroadcastsInDim S100000x3 (![0, 1] : Fin 2 → Fin S100000x3.rank)
  bcast_S_S100000x3 : S_.BroadcastsInDim S100000x3 (![] : Fin 0 → Fin S100000x3.rank)
  concatenates_S1_S1_S1_S3_d0 : Shape.Concatenates [S1, S1, S1] S3 0
  shapeCasts_S3_S1x3 : S3.ShapeCasts S1x3
  bcast_S1x3_S100000x3_0_1 : S1x3.BroadcastsInDim S100000x3 (![0, 1] : Fin 2 → Fin S100000x3.rank)
  transposes_S100000x3_S3x100000_1_0 : S100000x3.Transposes [1, 0] S3x100000
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S3x8000000_1 : S8000000.BroadcastsInDim S3x8000000 (![1] : Fin 1 → Fin S3x8000000.rank)
  bcast_S_S3x8000000 : S_.BroadcastsInDim S3x8000000 (![] : Fin 0 → Fin S3x8000000.rank)
  shapeCasts_S8000000x1_S8000000 : S8000000x1.ShapeCasts S8000000
  inb_S262144_S262144_0 : ∀ a, (![0] : Fin 1 → Nat) a + S262144.size a ≤ S262144.size a
  h_S262144 : 0 < S262144.numel
  shapeCasts_S262144_S262144 : S262144.ShapeCasts S262144
  inb_S3x262144_S1x262144_0_0 : ∀ a, (![0, 0] : Fin 2 → Nat) a + S1x262144.size a ≤ S3x262144.size a
  h_S1x262144 : 0 < S1x262144.numel
  shapeCasts_S1x262144_S262144 : S1x262144.ShapeCasts S262144
  inb_S3x262144_S1x262144_1_0 : ∀ a, (![1, 0] : Fin 2 → Nat) a + S1x262144.size a ≤ S3x262144.size a
  inb_S3x262144_S1x262144_2_0 : ∀ a, (![2, 0] : Fin 2 → Nat) a + S1x262144.size a ≤ S3x262144.size a
  shapeCasts_S8000000_S8000000x1 : S8000000.ShapeCasts S8000000x1
  scatter_S100000x4_S8000000x1_S8000000x4_1_0_0_1_wf : ScatterDims.WF S100000x4 S8000000x1 S8000000x4 [1] [0] [0] 1
  gather_S3x100000_S8000000x1_S3x8000000_0_1_n_n_1_1_31_wf : GatherDims.WF S3x100000 S8000000x1 S3x8000000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x262144.size a < S3x8000000.size a
  hwx0_0 : ∀ i : grid0.Coords, EltTy.bits .f32 = 32 ∨ (Rect.unit (s := S3x8000000) (fun a => cc0_transform_0 i a * S3x262144.size a) (fun a => (Pipeline.Clip.of (cc0_transform_0 i a) (S3x262144.size a) (S3x8000000.size a)).extent (S3x262144.size a)) fun a => Pipeline.Clip.inb (Pipeline.Clip.ok_of (hstart0_0 i a))).WholeWords (EltTy.packing .f32)
  hwxs0_0 : ∀ i : grid0.Coords, EltTy.bits .f32 = 32 ∨ (Rect.unit (s := S3x262144) (fun _ => 0) (fun a => (Pipeline.Clip.of (cc0_transform_0 i a) (S3x262144.size a) (S3x8000000.size a)).extent (S3x262144.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S262144.size a < S8000000.size a
  hwx0_1 : ∀ i : grid0.Coords, EltTy.bits .f32 = 32 ∨ (Rect.unit (s := S8000000) (fun a => cc0_transform_1 i a * S262144.size a) (fun a => (Pipeline.Clip.of (cc0_transform_1 i a) (S262144.size a) (S8000000.size a)).extent (S262144.size a)) fun a => Pipeline.Clip.inb (Pipeline.Clip.ok_of (hstart0_1 i a))).WholeWords (EltTy.packing .f32)
  hwxs0_1 : ∀ i : grid0.Coords, EltTy.bits .f32 = 32 ∨ (Rect.unit (s := S262144) (fun _ => 0) (fun a => (Pipeline.Clip.of (cc0_transform_1 i a) (S262144.size a) (S8000000.size a)).extent (S262144.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S262144.size a < S8000000.size a
  hwx0_2 : ∀ i : grid0.Coords, EltTy.bits .f32 = 32 ∨ (Rect.unit (s := S8000000) (fun a => cc0_transform_2 i a * S262144.size a) (fun a => (Pipeline.Clip.of (cc0_transform_2 i a) (S262144.size a) (S8000000.size a)).extent (S262144.size a)) fun a => Pipeline.Clip.inb (Pipeline.Clip.ok_of (hstart0_2 i a))).WholeWords (EltTy.packing .f32)
  hwxs0_2 : ∀ i : grid0.Coords, EltTy.bits .f32 = 32 ∨ (Rect.unit (s := S262144) (fun _ => 0) (fun a => (Pipeline.Clip.of (cc0_transform_2 i a) (S262144.size a) (S8000000.size a)).extent (S262144.size a)) fun a => (Nat.zero_add _).trans_le (Pipeline.Clip.extent_le (Pipeline.Clip.ok_of (hstart0_2 i a)))).WholeWords (EltTy.packing .f32)

variable [Facts₀]

def scatter_S100000x4_S8000000x1_S8000000x4_1_0_0_1 : ScatterDims S100000x4 S8000000x1 S8000000x4 where
  updateWindowDims := [1]
  insertedWindowDims := [0]
  scatterDimsToOperandDims := [0]
  indexVectorDim := 1
  wf := scatter_S100000x4_S8000000x1_S8000000x4_1_0_0_1_wf
def gather_S3x100000_S8000000x1_S3x8000000_0_1_n_n_1_1_31 : GatherDims S3x100000 S8000000x1 S3x8000000 where
  offsetDims := [0]
  collapsedSliceDims := [1]
  operandBatchingDims := []
  startIndicesBatchingDims := []
  startIndexMap := [1]
  indexVectorDim := 1
  sliceSizes := ![3, 1]
  wf := gather_S3x100000_S8000000x1_S3x8000000_0_1_n_n_1_1_31_wf

abbrev win0_0 : Pipeline.Window sig grid0 :=
  Pipeline.Window.ofSpecClip (Memref.whole main_v23) S3x262144.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v24) S262144.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v25) S262144.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x1 : Shape := ⟨2, ![8000000, 1]⟩
abbrev S8000000 : Shape := ⟨1, ![8000000]⟩
abbrev S8000000x3 : Shape := ⟨2, ![8000000, 3]⟩
abbrev S1 : Shape := ⟨1, ![1]⟩
abbrev S_ : Shape := ⟨0, ![]⟩
abbrev S100000x3 : Shape := ⟨2, ![100000, 3]⟩
abbrev S100000 : Shape := ⟨1, ![100000]⟩
abbrev S100000x1 : Shape := ⟨2, ![100000, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8000000x1, .f32⟩
  | .hbm, ⟨1, _⟩ => ⟨S8000000, .i32⟩
  | .hbm, ⟨2, _⟩ => ⟨S8000000x3, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S_, .f32⟩
  | .hbm, ⟨7, _⟩ => ⟨S100000x3, .f32⟩
  | .hbm, ⟨8, _⟩ => ⟨S8000000x1, .i32⟩
  | .hbm, ⟨9, _⟩ => ⟨S100000x3, .f32⟩
  | .hbm, ⟨10, _⟩ => ⟨S_, .f32⟩
  | .hbm, ⟨11, _⟩ => ⟨S8000000, .f32⟩
  | .hbm, ⟨12, _⟩ => ⟨S_, .f32⟩
  | .hbm, ⟨13, _⟩ => ⟨S100000, .f32⟩
  | .hbm, ⟨14, _⟩ => ⟨S8000000x1, .i32⟩
  | .hbm, ⟨15, _⟩ => ⟨S100000, .f32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x3, .f32⟩
  | .hbm, ⟨25, _⟩ => ⟨S100000x3, .f32⟩
  | .hbm, ⟨26, _⟩ => ⟨S_, .f32⟩
  | .hbm, ⟨27, _⟩ => ⟨S_, .f32⟩
  | .hbm, ⟨28, _⟩ => ⟨S100000x3, .i1⟩
  | .hbm, ⟨29, _⟩ => ⟨S100000x3, .f32⟩
  | .hbm, ⟨30, _⟩ => ⟨S100000x3, .f32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i32⟩
  | .hbm, ⟨37, _⟩ => ⟨S8000000, .i32⟩
  | .hbm, ⟨38, _⟩ => ⟨S8000000x1, .i32⟩
  | .hbm, ⟨39, _⟩ => ⟨S8000000x3, .f32⟩
  | .hbm, ⟨40, _⟩ => ⟨S8000000x1, .f32⟩
  | .hbm, ⟨41, _⟩ => ⟨S8000000x1, .f32⟩
  | .hbm, ⟨42, _⟩ => ⟨S8000000x1, .f32⟩
  | .hbm, ⟨43, _⟩ => ⟨S1x1, .f32⟩
  | .hbm, ⟨44, _⟩ => ⟨S8000000x1, .f32⟩
  | .hbm, ⟨45, _⟩ => ⟨S8000000x1, .f32⟩
  | .hbm, ⟨46, _⟩ => ⟨S1x1, .f32⟩
  | .hbm, ⟨47, _⟩ => ⟨S8000000x1, .f32⟩
  | .hbm, ⟨48, _⟩ => ⟨S8000000x1, .f32⟩
  | .hbm, ⟨49, _⟩ => ⟨S_, .f32⟩
  | .hbm, ⟨50, _⟩ => ⟨S8000000x1, .f32⟩
  | .hbm, ⟨51, _⟩ => ⟨S8000000x1, .f32⟩
  | .hbm, ⟨52, _⟩ => ⟨S1x1, .f32⟩
  | .hbm, ⟨53, _⟩ => ⟨S8000000x1, .f32⟩
  | .hbm, ⟨54, _⟩ => ⟨S8000000x1, .f32⟩
  | .hbm, ⟨55, _⟩ => ⟨S8000000x1, .f32⟩
  | .hbm, ⟨56, _⟩ => ⟨S8000000x1, .f32⟩
  | .hbm, ⟨57, _⟩ => ⟨S8000000x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8000000x1, .f32⟩
  | .hbm, ⟨62, _⟩ => ⟨S8000000x1, .f32⟩
  | .hbm, ⟨63, _⟩ => ⟨S_, .f32⟩
  | .hbm, ⟨64, _⟩ => ⟨S8000000x1, .f32⟩
  | .hbm, ⟨65, _⟩ => ⟨S8000000x1, .f32⟩
  | .hbm, ⟨66, _⟩ => ⟨S8000000x1, .f32⟩
  | .hbm, ⟨67, _⟩ => ⟨S_, .f32⟩
  | .hbm, ⟨68, _⟩ => ⟨S8000000x1, .f32⟩
  | .hbm, ⟨69, _⟩ => ⟨S8000000x1, .f32⟩
  | .hbm, ⟨70, _⟩ => ⟨S8000000x1, .f32⟩
  | _, _ => ⟨S8000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  bcast_S_S100000x3 : S_.BroadcastsInDim S100000x3 (![] : Fin 0 → Fin S100000x3.rank)
  bcast_S8000000_S8000000x1_0 : S8000000.BroadcastsInDim S8000000x1 (![0] : Fin 1 → Fin S8000000x1.rank)
  bcast_S_S8000000 : S_.BroadcastsInDim S8000000 (![] : Fin 0 → Fin S8000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  slices_S8000000x3_S8000000x1_0_0 : S8000000x3.Slices ![0, 0] S8000000x1
  slices_S8000000x3_S8000000x1_0_1 : S8000000x3.Slices ![0, 1] S8000000x1
  slices_S8000000x3_S8000000x1_0_2 : S8000000x3.Slices ![0, 2] S8000000x1
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  bcast_S_S8000000x1 : S_.BroadcastsInDim S8000000x1 (![] : Fin 0 → Fin S8000000x1.rank)
  scatter_S100000x3_S8000000x1_S8000000x3_1_0_0_1_wf : ScatterDims.WF S100000x3 S8000000x1 S8000000x3 [1] [0] [0] 1
  scatter_S100000_S8000000x1_S8000000_n_0_0_1_wf : ScatterDims.WF S100000 S8000000x1 S8000000 [] [0] [0] 1
  gather_S100000x3_S8000000x1_S8000000x3_1_0_n_n_0_1_13_wf : GatherDims.WF S100000x3 S8000000x1 S8000000x3 [1] [0] [] [0] [] 1 ![1, 3]

variable [Facts₀]

def scatter_S100000x3_S8000000x1_S8000000x3_1_0_0_1 : ScatterDims S100000x3 S8000000x1 S8000000x3 where
  updateWindowDims := [1]
  insertedWindowDims := [0]
  scatterDimsToOperandDims := [0]
  indexVectorDim := 1
  wf := scatter_S100000x3_S8000000x1_S8000000x3_1_0_0_1_wf
def scatter_S100000_S8000000x1_S8000000_n_0_0_1 : ScatterDims S100000 S8000000x1 S8000000 where
  updateWindowDims := []
  insertedWindowDims := [0]
  scatterDimsToOperandDims := [0]
  indexVectorDim := 1
  wf := scatter_S100000_S8000000x1_S8000000_n_0_0_1_wf
def gather_S100000x3_S8000000x1_S8000000x3_1_0_n_n_0_1_13 : GatherDims S100000x3 S8000000x1 S8000000x3 where
  offsetDims := [1]
  collapsedSliceDims := [0]
  operandBatchingDims := []
  startIndicesBatchingDims := []
  startIndexMap := [0]
  indexVectorDim := 1
  sliceSizes := ![1, 3]
  wf := gather_S100000x3_S8000000x1_S8000000x3_1_0_n_n_0_1_13_wf

class Facts : Prop extends Facts₀ where

variable [Facts]
-- ==== Proof.FrameKit.lean ====
/-
  The host side of the kernel program's run. Its entry function is seven stretches of host operations (the two bounds
  0 and 99999; the group words clipped between them; the measurements with a column of ones accumulated into a
  [100000, 4] table and the sums divided by the counts; the means kept where the count is positive, zero elsewhere;
  the three offsets joined, added to the means, and the table transposed to [3, 100000]; its columns gathered at the
  group words; the abscissae reshaped to a vector), then the one
  region, then one more operation: the reshape of the region's result vector to a column.

  Here: the buffer contents when the region is entered (`V0`, `V`: the fold of the seven stretches over the launch
  memory); the entry function reduced to the region continued by the last reshape (`hmain`); the three facts the run
  around the region asks of that reshape (`sfx_sub`, `sfx_fresh`, `sfx_keeps`: it touches unscoped buffers only,
  allocates nothing, and writes none of the region's three arrays); the six arguments unchanged when the region is
  entered (`V_main_argK`) and after the last reshape (`W_main_argK`), no operation ever writing an argument; the
  column the last reshape leaves (`W_main_v26`: the result array after its last write-back, cast to [8000000, 1]);
  and the run's post read at those seven references (`frame_post`). Every statement is for any float instance.
-/
import proofs.«424391_j71622874628175_3_alg».proof.Proof.Gen.KernelIdeal.Launch
import proofs.«424391_j71622874628175_3_alg».proof.Proof.Gen.KernelIdeal.Points
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable (m : (ℓ : Loc nD τ sig) → Buf (Elt F) ℓ) (ρ : Dev nD → PrngReg)

/-! ## The entry function around the region -/

/-- Core `c`'s buffer contents when the region is entered: the seven stretches of host operations, in order, folded
    over the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a reference of the core. -/
abbrev V (c : Dev nD) (b : Ref sig .tc) : Buf (Elt F) ((c : Thread nD τ).loc b) := V0 m c (Proc.devRef .tc b)

/-- No operation of a stretch allocates: each writes a buffer the program names, at contents it computes. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the seven stretches, the region, and the last reshape: holding the unscoped buffers at the
    launch memory it reduces to the region continued by that reshape, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩
    main_chain

/-! ## The reshape after the region -/

/-- The last reshape touches unscoped buffers only, and with nothing prefetched every unscoped buffer is an array of the
    region or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := List.mem_singleton.mp hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl : ops = hostOps1 := List.mem_singleton.mp hops
  exact (List.forall_iff_forall_mem.mp hostOps1_fresh) op hop

/-- It writes the column [8000000, 1], which is none of the region's arrays (the gathered table, the abscissa vector,
    the result vector). -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := List.mem_singleton.mp hops
  obtain rfl : op = StableHlo.reshape main_v25 main_v26 rfl shapeCasts_S8000000_S8000000x1 := List.mem_singleton.mp hop
  intro w
  fin_cases w <;> simp only [StableHlo.reshape_writes, Finset.mem_singleton] <;> exact StableHlo.devRef_ne_of_ne (by decide)

/-! ## The arguments when the region is entered -/

/-- Argument 0 when the region is entered is argument 0 at the launch: each of the 62 operations before the region
    writes its own result buffer, and none of those is an argument. -/
theorem V_main_arg0 (c : Dev nD) : V m c main_arg0 = m ((c : Thread nD τ).loc main_arg0) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 1 when the region is entered is argument 1 at the launch: each of the 62 operations before the region
    writes its own result buffer, and none of those is an argument. -/
theorem V_main_arg1 (c : Dev nD) : V m c main_arg1 = m ((c : Thread nD τ).loc main_arg1) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 2 when the region is entered is argument 2 at the launch: each of the 62 operations before the region
    writes its own result buffer, and none of those is an argument. -/
theorem V_main_arg2 (c : Dev nD) : V m c main_arg2 = m ((c : Thread nD τ).loc main_arg2) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 3 when the region is entered is argument 3 at the launch: each of the 62 operations before the region
    writes its own result buffer, and none of those is an argument. -/
theorem V_main_arg3 (c : Dev nD) : V m c main_arg3 = m ((c : Thread nD τ).loc main_arg3) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 4 when the region is entered is argument 4 at the launch: each of the 62 operations before the region
    writes its own result buffer, and none of those is an argument. -/
theorem V_main_arg4 (c : Dev nD) : V m c main_arg4 = m ((c : Thread nD τ).loc main_arg4) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 5 when the region is entered is argument 5 at the launch: each of the 62 operations before the region
    writes its own result buffer, and none of those is an argument. -/
theorem V_main_arg5 (c : Dev nD) : V m c main_arg5 = m ((c : Thread nD τ).loc main_arg5) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-! ## The buffers after the last reshape -/

/-- A buffer that is neither the column the last reshape writes nor an array of the region holds after the reshape what
    it held when the region was entered: the region's exit contents differ from the entry contents at the arrays only,
    and the reshape writes the column only. -/
theorem W_of_bypass (dats : (p : Fin 1) → (c : Dev nD) → Pipeline.Dat τ (Elt F) Unit ℕ (UR sig nD τ) ℕ (cfgs p) c) (c : Dev nD) (b : Ref sig .tc) (hb : b ≠ main_v26) (ha : ∀ w, Pipeline.arrRef spec0 w ≠ b) :
    Pipeline.afterTail₀ cfgs dats 0 (V0 m) [hostOps1] c b = V m c b := by
  unfold Pipeline.afterTail₀
  refine (StableHlo.after_of_forall_not_mem _ _ ?_).trans (Pipeline.withArrays_of_ne spec0 c (V0 m c) _ b ha)
  intro op hop
  obtain rfl : op = StableHlo.reshape main_v25 main_v26 rfl shapeCasts_S8000000_S8000000x1 := List.mem_singleton.mp hop
  simp only [StableHlo.reshape_writes, Finset.mem_singleton]
  exact StableHlo.devRef_ne_of_ne hb

/-- Argument 0 after the last reshape is argument 0 at the launch. -/
theorem W_main_arg0 (dats : (p : Fin 1) → (c : Dev nD) → Pipeline.Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_bypass m dats c main_arg0 (by decide) (by decide)).trans (V_main_arg0 m c)

/-- Argument 1 after the last reshape is argument 1 at the launch. -/
theorem W_main_arg1 (dats : (p : Fin 1) → (c : Dev nD) → Pipeline.Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)

/-- Argument 2 after the last reshape is argument 2 at the launch. -/
theorem W_main_arg2 (dats : (p : Fin 1) → (c : Dev nD) → Pipeline.Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)

/-- Argument 3 after the last reshape is argument 3 at the launch. -/
theorem W_main_arg3 (dats : (p : Fin 1) → (c : Dev nD) → Pipeline.Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)

/-- Argument 4 after the last reshape is argument 4 at the launch. -/
theorem W_main_arg4 (dats : (p : Fin 1) → (c : Dev nD) → Pipeline.Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_bypass m dats c main_arg4 (by decide) (by decide)).trans (V_main_arg4 m c)

/-- Argument 5 after the last reshape is argument 5 at the launch. -/
theorem W_main_arg5 (dats : (p : Fin 1) → (c : Dev nD) → Pipeline.Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_bypass m dats c main_arg5 (by decide) (by decide)).trans (V_main_arg5 m c)

/-- The column the last reshape leaves: the region's result vector after its last write-back, cast to [8000000, 1]. The
    reshape reads the result vector at the region's exit, where it is the array of the third window. -/
theorem W_main_v26 (dats : (p : Fin 1) → (c : Dev nD) → Pipeline.Dat τ (Elt F) Unit ℕ (UR sig nD τ) ℕ (cfgs p) c) (c : Dev nD) :
    Pipeline.afterTail₀ cfgs dats 0 (V0 m) [hostOps1] c main_v26
      = shapeCast S8000000x1 ((dats 0 c).arrAt 2 cfg0.N) shapeCasts_S8000000_S8000000x1 := by
  unfold Pipeline.afterTail₀
  show StableHlo.after hostOps1 _ (Proc.devRef .tc main_v26) = _
  after_results
  exact congrArg (fun A => shapeCast S8000000x1 A shapeCasts_S8000000_S8000000x1)
    (Pipeline.withArrays_arr spec0 launch0.win.arr_inj c (V0 m c) (fun w => (dats 0 c).arrAt w cfg0.N) 2)

/-! ## The run's post at the result column and the arguments -/

/-- What a final state of the run around the region holds at the seven buffers the claim speaks of. None of them is an
    array of the region, so each is read by the post's clause on the bypassing buffers: the result column at the cast
    of the result array after its last write-back, each argument at its launch contents. -/
theorem frame_post (dats : (p : Fin 1) → (c : Dev nD) → Pipeline.Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_v26)
        = shapeCast S8000000x1 ((dats 0 c).arrAt 2 cfg0.N) shapeCasts_S8000000_S8000000x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_v26 (Pipeline.mem_restRefs_of main_v26 (by decide) (by decide))).trans (W_main_v26 m dats c),
   ((h c).2 main_arg0 (Pipeline.mem_restRefs_of main_arg0 (by decide) (by decide))).trans (W_main_arg0 m dats c),
   ((h c).2 main_arg1 (Pipeline.mem_restRefs_of main_arg1 (by decide) (by decide))).trans (W_main_arg1 m dats c),
   ((h c).2 main_arg2 (Pipeline.mem_restRefs_of main_arg2 (by decide) (by decide))).trans (W_main_arg2 m dats c),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c)⟩

end Cert.KernelIdeal.Hand

end
-- ==== Proof.Spec.lean ====
/-
  The logistic growth curve over group means, as both programs compute it.

  Rows `n < 8000000` carry an abscissa `x n`, a group number `Z n` and three measurements `M (n, k)`. For a group `q`
  the table entry `B (q, k)` is the mean of measurement `k` over the rows of the group (`0` for a group with no row):
  the sum of the rows' measurements over the count of the rows, the count taken at least one. With three offsets
  `β₁ β₂ β₃` the row's result is

      (B (Z n, 0) + β₁) / (1 + exp (clip (−(x n − (B (Z n, 1) + β₂)) / max (B (Z n, 2) + β₃, 0.1), −50, 50))).

  This module names the pieces both programs share, for any float instance: one row of the curve (`lane`), the
  curve over a table of three long rows (`curve`), a group's mean from its sum and its count (`gmean`), and, over the
  extended reals, the sum of a per-row quantity over the rows of one group (`segsum`).
-/
import Idealize.ShloMosaic.PureOps.Ideal
import Idealize.ShloMosaic.Lib.ValueIdx

noncomputable section

namespace Cert.Growth

open Idealize.ShloMosaic Idealize.ShloMosaic.ValueIdx

variable {F : FTy → Type} [FloatOps F]

/-- One row of the curve from the row's abscissa `x` and its three table entries with the offsets already added:
    `z0 / (1 + exp (min 50 (max (−50) (0 − (x − z1) / max z2 0.1))))`. The five literals are the programs' own f32 words
    for `1`, `50`, `−50`, `0` and `0.1`. -/
def lane (x z0 z1 z2 : F .f32) : F .f32 :=
  FloatOps.divf z0 (FloatOps.addf (FloatOps.ofBits .f32 0x3F800000#32)
    (FloatOps.exp (FloatOps.minimumf (FloatOps.ofBits .f32 0x42480000#32)
      (FloatOps.maximumf (FloatOps.ofBits .f32 0xC2480000#32)
        (FloatOps.subf (FloatOps.ofBits .f32 0x00000000#32)
          (FloatOps.divf (FloatOps.subf x z1) (FloatOps.maximumf z2 (FloatOps.ofBits .f32 0x3DCCCCCD#32))))))))

/-- The curve over a table `z` of three rows of length 8000000 and a vector `x`: entry `n` is `lane` of `x n` and
    column `n` of the table. -/
def curve (z : FVec F ⟨2, ![3, 8000000]⟩ .f32) (x : FVec F ⟨1, ![8000000]⟩ .f32) : FVec F ⟨1, ![8000000]⟩ .f32 :=
  fun i => lane (x i)
    (z (ix2 (n0 := 3) (n1 := 8000000) 0 ⟨(i 0).val, (i 0).isLt⟩))
    (z (ix2 (n0 := 3) (n1 := 8000000) 1 ⟨(i 0).val, (i 0).isLt⟩))
    (z (ix2 (n0 := 3) (n1 := 8000000) 2 ⟨(i 0).val, (i 0).isLt⟩))

/-- A group's mean from its sum `s` and its count `cnt`: `s / max cnt 1` where the count is positive, else `0`
    (the programs' own words for `0` and `1`; the quotient is the host's). -/
def gmean (s cnt : F .f32) : F .f32 :=
  Scalar.select (FloatOps.cmpf .ogt cnt (FloatOps.ofBits .f32 0x00000000#32))
    (FloatOps.hostDivf s (FloatOps.maximumf cnt (FloatOps.ofBits .f32 0x3F800000#32)))
    (FloatOps.ofBits .f32 0x00000000#32)

/-- The rows of group `q`: the row numbers whose group word, read as a signed integer, is `q`. -/
def rowsOf (Z : IVec ⟨1, ![8000000]⟩ 32) (q : Fin 100000) : Finset (Fin 8000000) :=
  Finset.univ.filter fun n => (Z (ix1 n)).toInt = (q.val : Int)

/-- The sum of a per-row quantity `f` over the rows of group `q`, as an accumulation into a table of zeros leaves
    it: the zero word's value plus the sum. -/
def segsum (Z : IVec ⟨1, ![8000000]⟩ 32) (f : Fin 8000000 → EReal) (q : Fin 100000) : EReal :=
  Ideal.ofBits .f32 0x00000000#32 + ∑ n ∈ rowsOf Z q, f n

/-- Every group word lies in `[0, 100000)` read signed: the domain on which both programs index their tables in range. -/
def InRange (Z : IVec ⟨1, ![8000000]⟩ 32) : Prop :=
  ∀ n : Fin 8000000, 0 ≤ (Z (ix1 n)).toInt ∧ (Z (ix1 n)).toInt < 100000

/-- The group of row `n` as a table row number, on that domain. -/
def groupOf (Z : IVec ⟨1, ![8000000]⟩ 32) (hZ : InRange Z) (n : Fin 8000000) : Fin 100000 :=
  ⟨(Z (ix1 n)).toInt.toNat, by have := hZ n; omega⟩

theorem groupOf_val (Z : IVec ⟨1, ![8000000]⟩ 32) (hZ : InRange Z) (n : Fin 8000000) :
    ((groupOf Z hZ n).val : Int) = (Z (ix1 n)).toInt := by
  have := hZ n; unfold groupOf; simp only; omega

end Cert.Growth

end
-- ==== Proof.WinArith.lean ====
/-
  The arithmetic of the three windows of the one pallas_call. The grid has 31 points; the table window (window 0)
  walks a [3, 8000000] array in blocks [3, 262144] at block index (0, t), the abscissa window (window 1) and the
  result window (window 2) walk [8000000] arrays in blocks [262144] at block index t. Since
  8000000 = 30 · 262144 + 135680, the block at point 30 overhangs the arrays and its transfers are cut to the
  first 135680 lanes; at every point the number of lanes moved is min 262144 (8000000 − 262144 t).

  Here, for a symbolic point t: the block indices and the cut sizes in closed form (decided once over the grid);
  what a block reads off an array, index by index (lane y of the block at t is lane 262144 t + y of the array);
  which indices of the result array the block at t holds, and that the 31 blocks cover it; and which coordinates of
  a full block a cut transfer moves (the first min 262144 (8000000 − 262144 t) lanes, the same for all three windows).
-/
import proofs.«424391_j71622874628175_3_alg».proof.Proof.Gen.KernelIdeal.Launch
import proofs.«424391_j71622874628175_3_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Cert.KernelIdeal.Facts₀ Idealize.ShloMosaic Idealize.ShloMosaic.TcCoe
open Idealize.SL Idealize.SL.Sem
open Idealize.ShloMosaic.ValueIdx

variable {F : FTy → Type} [FloatOps F]

/-! ## The grid's points, the block indices and the cut sizes -/

/-- A point of the grid is below 31. -/
theorem point_lt (t : Fin cfg0.N) : t.val < 31 := lt_of_lt_of_eq t.isLt N_0

/-- The result window's block index at point t is t. -/
theorem index2 : ∀ t : Fin cfg0.N, win0_2.index t 0 = t.val :=
  (by decide +kernel : ∀ t : Fin grid0.N, win0_2.index t 0 = t.val)

/-- The abscissa window's block index at point t is t. -/
theorem index1 : ∀ t : Fin cfg0.N, win0_1.index t 0 = t.val :=
  (by decide +kernel : ∀ t : Fin grid0.N, win0_1.index t 0 = t.val)

/-- The table window's block index at point t is (0, t): all three rows, the t-th block of lanes. -/
theorem index0 : ∀ t : Fin cfg0.N, win0_0.index t 0 = 0 ∧ win0_0.index t 1 = t.val :=
  (by decide +kernel : ∀ t : Fin grid0.N, win0_0.index t 0 = 0 ∧ win0_0.index t 1 = t.val)

/-- The result window's transfer at point t moves min 262144 (8000000 − 262144 t) lanes. -/
theorem xsize2 : ∀ t : Fin cfg0.N, win0_2.xsize (grid0.coords t) 0 = min 262144 (8000000 - t.val * 262144) :=
  (by decide +kernel : ∀ t : Fin grid0.N, win0_2.xsize (grid0.coords t) 0 = min 262144 (8000000 - t.val * 262144))

/-- The abscissa window's transfer at point t moves as many. -/
theorem xsize1 : ∀ t : Fin cfg0.N, win0_1.xsize (grid0.coords t) 0 = min 262144 (8000000 - t.val * 262144) :=
  (by decide +kernel : ∀ t : Fin grid0.N, win0_1.xsize (grid0.coords t) 0 = min 262144 (8000000 - t.val * 262144))

/-- The table window's transfer at point t moves all three rows and as many lanes. -/
theorem xsize0 : ∀ t : Fin cfg0.N, win0_0.xsize (grid0.coords t) 0 = 3
    ∧ win0_0.xsize (grid0.coords t) 1 = min 262144 (8000000 - t.val * 262144) :=
  (by decide +kernel : ∀ t : Fin grid0.N, win0_0.xsize (grid0.coords t) 0 = 3
    ∧ win0_0.xsize (grid0.coords t) 1 = min 262144 (8000000 - t.val * 262144))

/-- The three windows cut their lanes alike. -/
theorem xsize_lanes (t : Fin cfg0.N) :
    win0_0.xsize (grid0.coords t) 1 = win0_2.xsize (grid0.coords t) 0
      ∧ win0_1.xsize (grid0.coords t) 0 = win0_2.xsize (grid0.coords t) 0 :=
  ⟨(xsize0 t).2.trans (xsize2 t).symm, (xsize1 t).trans (xsize2 t).symm⟩

/-! ## What a block reads off its array -/

/-- Lane y of the result window's block at t is a lane of the array: 262144 t + y < 8000000. -/
theorem lane_lt2 (t : Fin cfg0.N) (y : (win0_2.xblock (grid0.coords t)).Idx) : t.val * 262144 + (y 0).val < 8000000 := by
  have ht := point_lt t
  have hy : (y 0).val < win0_2.xsize (grid0.coords t) 0 := (y 0).isLt
  rw [xsize2 t] at hy
  omega

/-- The result window's block at t reads lane 262144 t + y of the array at its lane y
    (an element of a block sits at block index · block size + its own coordinate). -/
theorem read_blk2 (G : Vec F S8000000 .f32) (t : Fin cfg0.N) (y : (win0_2.xblock (grid0.coords t)).Idx) :
    (win0_2.blk t).view.read (Elt F) G y = G (ix1 ⟨t.val * 262144 + (y 0).val, lane_lt2 t y⟩) := by
  show G ((win0_2.rect t).emb y) = _
  refine congrArg G (funext fun a => Fin.ext ?_)
  match a with
  | ⟨0, _⟩ =>
    show ((win0_2.rect t).emb y 0 : Nat) = t.val * 262144 + (y 0).val
    rw [Pipeline.Window.rect_emb_val, index2 t]
    rfl

/-- Lane y of the abscissa window's block at t is a lane of the array. -/
theorem lane_lt1 (t : Fin cfg0.N) (y : (win0_1.xblock (grid0.coords t)).Idx) : t.val * 262144 + (y 0).val < 8000000 := by
  have ht := point_lt t
  have hy : (y 0).val < win0_1.xsize (grid0.coords t) 0 := (y 0).isLt
  rw [xsize1 t] at hy
  omega

/-- The abscissa window's block at t reads lane 262144 t + y of the array at its lane y. -/
theorem read_blk1 (X : Vec F S8000000 .f32) (t : Fin cfg0.N) (y : (win0_1.xblock (grid0.coords t)).Idx) :
    (win0_1.blk t).view.read (Elt F) X y = X (ix1 ⟨t.val * 262144 + (y 0).val, lane_lt1 t y⟩) := by
  show X ((win0_1.rect t).emb y) = _
  refine congrArg X (funext fun a => Fin.ext ?_)
  match a with
  | ⟨0, _⟩ =>
    show ((win0_1.rect t).emb y 0 : Nat) = t.val * 262144 + (y 0).val
    rw [Pipeline.Window.rect_emb_val, index1 t]
    rfl

/-- A row of the table window's block is one of the table's three rows. -/
theorem row_lt0 (t : Fin cfg0.N) (y : (win0_0.xblock (grid0.coords t)).Idx) : (y 0).val < 3 := by
  have hy : (y 0).val < win0_0.xsize (grid0.coords t) 0 := (y 0).isLt
  rw [(xsize0 t).1] at hy
  exact hy

/-- Lane y of the table window's block at t is a lane of the table. -/
theorem lane_lt0 (t : Fin cfg0.N) (y : (win0_0.xblock (grid0.coords t)).Idx) : t.val * 262144 + (y 1).val < 8000000 := by
  have ht := point_lt t
  have hy : (y 1).val < win0_0.xsize (grid0.coords t) 1 := (y 1).isLt
  rw [(xsize0 t).2] at hy
  omega

/-- The table window's block at t reads, at its row r and lane y, row r and lane 262144 t + y of the table. -/
theorem read_blk0 (A : Vec F S3x8000000 .f32) (t : Fin cfg0.N) (y : (win0_0.xblock (grid0.coords t)).Idx) :
    (win0_0.blk t).view.read (Elt F) A y
      = A (ix2 ⟨(y 0).val, row_lt0 t y⟩ ⟨t.val * 262144 + (y 1).val, lane_lt0 t y⟩) := by
  show A ((win0_0.rect t).emb y) = _
  refine congrArg A (funext fun a => Fin.ext ?_)
  match a with
  | ⟨0, _⟩ =>
    show ((win0_0.rect t).emb y 0 : Nat) = (y 0).val
    rw [Pipeline.Window.rect_emb_val, (index0 t).1]
    rw [Nat.zero_mul, Nat.zero_add]
  | ⟨1, _⟩ =>
    show ((win0_0.rect t).emb y 1 : Nat) = t.val * 262144 + (y 1).val
    rw [Pipeline.Window.rect_emb_val, (index0 t).2]
    rfl

/-! ## The result array's indices, block by block -/

/-- A lane of the result array is in the block at t iff it is one of the
    min 262144 (8000000 − 262144 t) lanes from 262144 t on. -/
theorem mem_blk2 (t : Fin cfg0.N) (i : S8000000.Idx) :
    i ∈ (win0_2.blk t).view.set
      ↔ t.val * 262144 ≤ (i 0).val ∧ (i 0).val < t.val * 262144 + min 262144 (8000000 - t.val * 262144) := by
  show i ∈ ((View.whole main_v25).slice (win0_2.rect t)).set ↔ _
  rw [View.set_slice_whole, Rect.mem_set_unit]
  constructor
  · intro h
    have h0 : win0_2.index t 0 * 262144 ≤ (i 0).val
        ∧ (i 0).val < win0_2.index t 0 * 262144 + win0_2.xsize (grid0.coords t) 0 := h 0
    rw [index2 t, xsize2 t] at h0
    exact h0
  · intro h a
    match a with
    | ⟨0, _⟩ =>
      show win0_2.index t 0 * 262144 ≤ (i 0).val
        ∧ (i 0).val < win0_2.index t 0 * 262144 + win0_2.xsize (grid0.coords t) 0
      rw [index2 t, xsize2 t]
      exact h

/-- Every lane n of the result array is in the block some point writes back: the point n / 262144 (below 31
    since n < 8000000), whose block holds lanes 262144 (n / 262144) up to the array's end or the next block. -/
theorem cover2 : ∀ i : S8000000.Idx,
    ∃ t : Fin cfg0.N, (cfg0.win 2).flush t = true ∧ i ∈ ((cfg0.win 2).blk t).view.set := by
  intro i
  have hi : (i 0).val < 8000000 := (i 0).isLt
  have hq : (i 0).val / 262144 < cfg0.N := lt_of_lt_of_eq (by omega : (i 0).val / 262144 < 31) N_0.symm
  refine ⟨⟨(i 0).val / 262144, hq⟩, flush0_2 _, ?_⟩
  show i ∈ (win0_2.blk ⟨(i 0).val / 262144, hq⟩).view.set
  rw [mem_blk2]
  show (i 0).val / 262144 * 262144 ≤ (i 0).val
    ∧ (i 0).val < (i 0).val / 262144 * 262144 + min 262144 (8000000 - (i 0).val / 262144 * 262144)
  omega

/-! ## Which coordinates of a full block a cut transfer moves -/

/-- The result window's transfer at t moves lane j of the block iff j < min 262144 (8000000 − 262144 t). -/
theorem moved2_iff (t : Fin cfg0.N) (j : S262144.Idx) :
    win0_2.moved (grid0.coords t) j = true ↔ (j 0).val < min 262144 (8000000 - t.val * 262144) := by
  rw [Pipeline.Window.moved_iff]
  constructor
  · intro h
    have h0 : (j 0).val < win0_2.xsize (grid0.coords t) 0 := h 0
    rw [xsize2 t] at h0
    exact h0
  · intro h a
    match a with
    | ⟨0, _⟩ =>
      show (j 0).val < win0_2.xsize (grid0.coords t) 0
      rw [xsize2 t]
      exact h

/-- The abscissa window's transfer at t moves lane j of the block iff j < min 262144 (8000000 − 262144 t). -/
theorem moved1_iff (t : Fin cfg0.N) (j : S262144.Idx) :
    win0_1.moved (grid0.coords t) j = true ↔ (j 0).val < min 262144 (8000000 - t.val * 262144) := by
  rw [Pipeline.Window.moved_iff]
  constructor
  · intro h
    have h0 : (j 0).val < win0_1.xsize (grid0.coords t) 0 := h 0
    rw [xsize1 t] at h0
    exact h0
  · intro h a
    match a with
    | ⟨0, _⟩ =>
      show (j 0).val < win0_1.xsize (grid0.coords t) 0
      rw [xsize1 t]
      exact h

/-- The table window's transfer at t moves the block's coordinate (r, j) iff j < min 262144 (8000000 − 262144 t):
    every row is moved, the lanes are cut. -/
theorem moved0_iff (t : Fin cfg0.N) (j : S3x262144.Idx) :
    win0_0.moved (grid0.coords t) j = true ↔ (j 1).val < min 262144 (8000000 - t.val * 262144) := by
  rw [Pipeline.Window.moved_iff]
  constructor
  · intro h
    have h1 : (j 1).val < win0_0.xsize (grid0.coords t) 1 := h 1
    rw [(xsize0 t).2] at h1
    exact h1
  · intro h a
    match a with
    | ⟨0, _⟩ =>
      show (j 0).val < win0_0.xsize (grid0.coords t) 0
      rw [(xsize0 t).1]
      exact (j 0).isLt
    | ⟨1, _⟩ =>
      show (j 1).val < win0_0.xsize (grid0.coords t) 1
      rw [(xsize0 t).2]
      exact h

/-- The abscissa and the result windows move the same lanes. -/
theorem moved1_eq_moved2 (t : Fin cfg0.N) (j : S262144.Idx) :
    win0_1.moved (grid0.coords t) j = win0_2.moved (grid0.coords t) j :=
  Bool.eq_iff_iff.mpr ((moved1_iff t j).trans (moved2_iff t j).symm)

/-- The table window moves a coordinate iff the result window moves its lane. -/
theorem moved0_eq_moved2 (t : Fin cfg0.N) (j : S3x262144.Idx) (k : S262144.Idx) (h : (j 1).val = (k 0).val) :
    win0_0.moved (grid0.coords t) j = win0_2.moved (grid0.coords t) k :=
  Bool.eq_iff_iff.mpr ((moved0_iff t j).trans (h ▸ (moved2_iff t k).symm))

/-! ## A fetched block at a moved coordinate, and a written-back block at its own -/

/-- A lane of a cut block is a lane of the full block. -/
theorem lane_lt_blk2 (t : Fin cfg0.N) (y : (win0_2.xblock (grid0.coords t)).Idx) : (y 0).val < 262144 := by
  have hy : (y 0).val < win0_2.xsize (grid0.coords t) 0 := (y 0).isLt
  rw [xsize2 t] at hy
  omega

/-- A lane of a cut block is among the lanes moved at the point. -/
theorem lane_lt_cut2 (t : Fin cfg0.N) (y : (win0_2.xblock (grid0.coords t)).Idx) :
    (y 0).val < min 262144 (8000000 - t.val * 262144) := by
  have hy : (y 0).val < win0_2.xsize (grid0.coords t) 0 := (y 0).isLt
  rw [xsize2 t] at hy
  exact hy

/-- The full block's index of a lane of the result window's cut block: the same lane. -/
theorem xinj2_eq (t : Fin cfg0.N) (y : (win0_2.xblock (grid0.coords t)).Idx) :
    win0_2.xinj (grid0.coords t) y = (ix1 ⟨(y 0).val, lane_lt_blk2 t y⟩ : S262144.Idx) := by
  funext a
  match a with
  | ⟨0, _⟩ => rfl

/-- What a write-back of the result window at t takes from the staging buffer's contents Y: lane y of Y at lane y. -/
theorem cut2_apply {α : Type} (Y : S262144.Idx → α) (t : Fin cfg0.N) (y : (win0_2.xblock (grid0.coords t)).Idx) :
    win0_2.cut (grid0.coords t) Y y = Y (ix1 ⟨(y 0).val, lane_lt_blk2 t y⟩) :=
  congrArg Y (xinj2_eq t y)

/-- The abscissa window's staging buffer after the fetch at t, at a lane k the transfer moves, holds lane
    262144 t + k of the array (whatever the buffer held before). -/
theorem fill_read1 (X : Vec F S8000000 .f32) (t : Fin cfg0.N) (d : S262144.Idx → Elt F .f32) (k : S262144.Idx)
    (l : Nat) (hl : (k 0).val = l) (h : l < min 262144 (8000000 - t.val * 262144)) (hlt : t.val * 262144 + l < 8000000) :
    win0_1.fill (grid0.coords t) d ((win0_1.blk t).view.read (Elt F) X) k = X (ix1 ⟨t.val * 262144 + l, hlt⟩) := by
  subst hl
  unfold Pipeline.Window.fill
  rw [dif_pos ((moved1_iff t k).mpr h), read_blk1]

/-- The table window's staging buffer after the fetch at t, at a row r and a lane l the transfer moves, holds
    row r, lane 262144 t + l of the table (whatever the buffer held before). -/
theorem fill_read0 (A : Vec F S3x8000000 .f32) (t : Fin cfg0.N) (d : S3x262144.Idx → Elt F .f32) (j : S3x262144.Idx)
    (r : Fin 3) (l : Nat) (hr : (j 0).val = r.val) (hl : (j 1).val = l)
    (h : l < min 262144 (8000000 - t.val * 262144)) (hlt : t.val * 262144 + l < 8000000) :
    win0_0.fill (grid0.coords t) d ((win0_0.blk t).view.read (Elt F) A) j = A (ix2 r ⟨t.val * 262144 + l, hlt⟩) := by
  subst hl
  unfold Pipeline.Window.fill
  rw [dif_pos ((moved0_iff t j).mpr h), read_blk0]
  refine congrArg A (funext fun a => ?_)
  match a with
  | ⟨0, _⟩ => exact Fin.ext hr
  | ⟨1, _⟩ => rfl

end Cert.KernelIdeal.Hand

end
-- ==== Proof.BodyK.lean ====
/-
  The one kernel launch of the growth program: its body and the data its frame is proved with.

  At grid point `t` the body is handed a block of the table of three long rows (3 by 262144 lanes, the lanes
  `t * 262144 ..` of the table), the same lanes of the abscissa vector, and a block to write. It loads the abscissa
  block whole and the table block row by row, computes one row of the curve in every lane, and stores the block of
  results whole. The last point's blocks hang over the end of the arrays: there a transfer moves only the lanes inside
  the array, and what the rest of a staging block holds is not stated by anyone.

  This module reads the body's arithmetic lane by lane (`pay_lane`), proves the body's triple over whole staging
  blocks (`sound_kernel`), names what it leaves in the output block (`outOf`) and reads that lane by lane
  (`outOf_lane`), and gives the launch's proof data (`dats`): after the body each input block is the array's block
  and the output block is the block of ONE function of the whole arrays, the curve over the table and the abscissas.
  The arrays as the launch finds them are a parameter `VV`, never opened here.
-/
import proofs.«424391_j71622874628175_3_alg».proof.Proof.Gen.KernelIdeal.Launch
import proofs.«424391_j71622874628175_3_alg».proof.Proof.Gen.KernelIdeal.Points
import proofs.«424391_j71622874628175_3_alg».proof.Proof.Gen.KernelIdeal.Skeleton
import proofs.«424391_j71622874628175_3_alg».proof.Proof.Spec
import proofs.«424391_j71622874628175_3_alg».proof.Proof.WinArith
import Idealize.ShloMosaic.Lib.Pipeline.FrameBody
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-! ## The body's arithmetic, one lane at a time -/

/-- A row of the table block viewed as a vector: lane `j` of the [1, 262144] load is lane `j` of the cast. -/
theorem cast_row (v : Vec F S1x262144 .f32) (j : Fin 262144) :
    shapeCast S262144 v shapeCasts_S1x262144_S262144 (ValueIdx.ix1 j) = v (ValueIdx.ix2 0 j) := by
  refine shapeCast_apply v shapeCasts_S1x262144_S262144 (ValueIdx.ix1 j) (ValueIdx.ix2 0 j) ?_
  rw [Shape.rowMajor_val_two, Shape.rowMajor_val_one]
  show 0 * 262144 + j.val = j.val
  omega

/-- The stored value in lane `j` is the curve's row of the four loads' lane `j`: every operation of the body is
    lanewise, the constants are broadcast, and the casts keep the lane. -/
theorem pay_lane (v0 : Vec F S262144 .f32) (v2 v4 v6 : Vec F S1x262144 .f32) (j : Fin 262144) :
    k0_pay1 v0 v2 v4 v6 (ValueIdx.ix1 j)
      = Cert.Growth.lane (v0 (ValueIdx.ix1 j)) (v2 (ValueIdx.ix2 0 j)) (v4 (ValueIdx.ix2 0 j)) (v6 (ValueIdx.ix2 0 j)) := by
  unfold k0_pay1 Cert.Growth.lane
  show FloatOps.divf (shapeCast S262144 v2 shapeCasts_S1x262144_S262144 (ValueIdx.ix1 j))
      (FloatOps.addf (Scalar.ofBits .f32 0x3F800000#32)
        (FloatOps.exp (FloatOps.minimumf (Scalar.ofBits .f32 0x42480000#32)
          (FloatOps.maximumf (Scalar.ofBits .f32 0xC2480000#32)
            (FloatOps.subf (Scalar.ofBits .f32 0x00000000#32)
              (FloatOps.divf
                (FloatOps.subf (shapeCast S262144 v0 shapeCasts_S262144_S262144 (ValueIdx.ix1 j))
                  (shapeCast S262144 v4 shapeCasts_S1x262144_S262144 (ValueIdx.ix1 j)))
                (FloatOps.maximumf (shapeCast S262144 v6 shapeCasts_S1x262144_S262144 (ValueIdx.ix1 j))
                  (Scalar.ofBits .f32 0x3DCCCCCD#32)))))))) = _
  rw [cast_row v2 j, cast_row v4 j, cast_row v6 j, shapeCast_self v0 shapeCasts_S262144_S262144]

/-! ## The body's accesses and what it leaves -/

/-- The whole abscissa block, which is also the whole output block: offset 0, all 262144 lanes. -/
abbrev rLane : Rect S262144 := Rect.unit (s := S262144) ![0] S262144.size inb_S262144_S262144_0
/-- Row `k` of the table block: offset `(k, 0)`, one row of 262144 lanes. -/
abbrev rRow0 : Rect S3x262144 := Rect.unit (s := S3x262144) ![0, 0] S1x262144.size inb_S3x262144_S1x262144_0_0
abbrev rRow1 : Rect S3x262144 := Rect.unit (s := S3x262144) ![1, 0] S1x262144.size inb_S3x262144_S1x262144_1_0
abbrev rRow2 : Rect S3x262144 := Rect.unit (s := S3x262144) ![2, 0] S1x262144.size inb_S3x262144_S1x262144_2_0

/-- The output block after the body, from the table block `x0` and the abscissa block `x1`: its one whole store
    of the body's arithmetic over the four loads. -/
def outOf (x0 : Vec F S3x262144 .f32) (x1 : Vec F S262144 .f32) : Vec F S262144 .f32 :=
  View.canon [⟨rLane, k0_pay1 (View.ld x1 rLane) (View.ld x0 rRow0) (View.ld x0 rRow1) (View.ld x0 rRow2)⟩]

theorem lane_zero : (![0] : Fin 1 → Nat) = fun _ => 0 := funext fun a => by
  match a with | ⟨0, _⟩ => rfl

/-- The one store covers the block. -/
theorem cover_lane (p0 : Vec F S262144 .f32) (y : S262144.Idx) :
    ∃ pc ∈ ([⟨rLane, p0⟩] : List (View.Piece (Elt F) S262144 .f32)), y ∈ pc.1.set :=
  ⟨_, List.mem_singleton_self _, View.mem_set_unit_zero lane_zero inb_S262144_S262144_0 y⟩

/-! ## The body's triple -/

set_option maxHeartbeats 1000000 in
/-- The body on whole staging blocks, the table's at `x0`, the abscissas' at `x1` and the output's at anything, ends
    with the first two as they were and the output's at `outOf x0 x1`. (It loads the output block once before the
    store; nothing reads that load.) -/
theorem sound_kernel (c : Dev nD) (E : Set ℕ) (i : grid0.Coords)
    (arg1 : Memref sig .tc .vmem S3x262144 .f32) (harg1 : arg1.IsWhole)
    (arg2 : Memref sig .tc .vmem S262144 .f32) (harg2 : arg2.IsWhole)
    (arg3 : Memref sig .tc .vmem S262144 .f32) (harg3 : arg3.IsWhole)
    (x0 : Vec F S3x262144 .f32) (x1 : Vec F S262144 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outOf x0 x1)) -∗ K ⟨⟩))
      ⊢ wp frame (wpE (defs₀ (F := F)) Variants.none c none) E (cc0__growth_kernel i arg1 harg1 arg2 harg2 arg3 harg3) K := by
  simp only [cc0__growth_kernel_eq_skeleton]; unfold cc0__growth_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_lane _)

/-! ## The output block, one lane at a time -/

/-- Lane `j` of the load of row `k` of the table block is the block's entry `(k, j)`. -/
theorem row0_idx (j : Fin 262144) : rRow0.idx (ValueIdx.ix2 (n0 := 1) (n1 := 262144) 0 j) = ValueIdx.ix2 (n0 := 3) (n1 := 262144) 0 j :=
  funext fun a => Fin.ext (by match a with | ⟨0, _⟩ => rfl | ⟨1, _⟩ => (show 0 + 1 * j.val = j.val; omega))
theorem row1_idx (j : Fin 262144) : rRow1.idx (ValueIdx.ix2 (n0 := 1) (n1 := 262144) 0 j) = ValueIdx.ix2 (n0 := 3) (n1 := 262144) 1 j :=
  funext fun a => Fin.ext (by match a with | ⟨0, _⟩ => rfl | ⟨1, _⟩ => (show 0 + 1 * j.val = j.val; omega))
theorem row2_idx (j : Fin 262144) : rRow2.idx (ValueIdx.ix2 (n0 := 1) (n1 := 262144) 0 j) = ValueIdx.ix2 (n0 := 3) (n1 := 262144) 2 j :=
  funext fun a => Fin.ext (by match a with | ⟨0, _⟩ => rfl | ⟨1, _⟩ => (show 0 + 1 * j.val = j.val; omega))

/-- Lane `j` of the output block is the curve's row of lane `j` of the abscissa block and column `j` of the table
    block. -/
theorem outOf_lane (x0 : Vec F S3x262144 .f32) (x1 : Vec F S262144 .f32) (j : Fin 262144) :
    outOf x0 x1 (ValueIdx.ix1 j)
      = Cert.Growth.lane (x1 (ValueIdx.ix1 j)) (x0 (ValueIdx.ix2 0 j)) (x0 (ValueIdx.ix2 1 j)) (x0 (ValueIdx.ix2 2 j)) := by
  unfold outOf
  rw [View.canon_unit_zero (S := S262144) lane_zero, pay_lane, View.ld_unit_zero (S := S262144) lane_zero]
  show Cert.Growth.lane (x1 (ValueIdx.ix1 j)) (x0 (rRow0.idx (ValueIdx.ix2 0 j))) (x0 (rRow1.idx (ValueIdx.ix2 0 j)))
      (x0 (rRow2.idx (ValueIdx.ix2 0 j))) = _
  rw [row0_idx, row1_idx, row2_idx]

/-! ## A fetched block at a lane the transfer moved

A staging block just fetched holds the array's block on the lanes the transfer moved and anything elsewhere. At a
moved lane `j` of the block at point `t` it therefore holds the array's lane `262144 t + j`. -/

/-- The abscissa block. -/
theorem fetchedX_at (X : Vec F S8000000 .f32) (t : Fin cfg0.N) (d : S262144.Idx → Elt F .f32) (j : Fin 262144)
    (hj : j.val < min 262144 (8000000 - t.val * 262144)) (hn : t.val * 262144 + j.val < 8000000) :
    win0_1.fill (grid0.coords t) d ((win0_1.blk t).view.read (Elt F) X) (ValueIdx.ix1 j)
      = X (ValueIdx.ix1 ⟨t.val * 262144 + j.val, hn⟩) := by
  unfold Window.fill
  rw [dif_pos ((moved1_iff t (ValueIdx.ix1 j)).mpr hj), read_blk1]
  rfl

/-- The table block, row `k`. -/
theorem fetchedZ_at (A : Vec F S3x8000000 .f32) (t : Fin cfg0.N) (d : S3x262144.Idx → Elt F .f32) (k : Fin 3) (j : Fin 262144)
    (hj : j.val < min 262144 (8000000 - t.val * 262144)) (hn : t.val * 262144 + j.val < 8000000) :
    win0_0.fill (grid0.coords t) d ((win0_0.blk t).view.read (Elt F) A) (ValueIdx.ix2 k j)
      = A (ValueIdx.ix2 k ⟨t.val * 262144 + j.val, hn⟩) := by
  unfold Window.fill
  rw [dif_pos ((moved0_iff t (ValueIdx.ix2 k j)).mpr hj), read_blk0]
  rfl

/-- What the body leaves in the output block from two fetched blocks, on the lanes the write-back moves: the block
    at `t` of the curve over the whole table `A` and the whole abscissa vector `X`. Lane `j` of the output is the
    curve's row of lane `j` of the two blocks, which (the lane being moved) are lane `262144 t + j` of the arrays. -/
theorem out_cut (A : Vec F S3x8000000 .f32) (X : Vec F S8000000 .f32) (t : Fin cfg0.N)
    (d0 : S3x262144.Idx → Elt F .f32) (d1 : S262144.Idx → Elt F .f32) :
    win0_2.cut (grid0.coords t)
        (outOf (win0_0.fill (grid0.coords t) d0 ((win0_0.blk t).view.read (Elt F) A))
          (win0_1.fill (grid0.coords t) d1 ((win0_1.blk t).view.read (Elt F) X)))
      = (win0_2.blk t).view.read (Elt F) (Cert.Growth.curve A X) := by
  funext y
  have hy : (y 0).val < min 262144 (8000000 - t.val * 262144) := by
    have h : (y 0).val < win0_2.xsize (grid0.coords t) 0 := (y 0).isLt
    rw [xsize2 t] at h; exact h
  have hj : (y 0).val < 262144 := by omega
  have hn := lane_lt2 t y
  show outOf _ _ (win0_2.xinj (grid0.coords t) y) = _
  rw [show win0_2.xinj (grid0.coords t) y = ValueIdx.ix1 ⟨(y 0).val, hj⟩ from
    funext fun a => by match a with | ⟨0, _⟩ => rfl]
  rw [outOf_lane, fetchedX_at X t d1 ⟨(y 0).val, hj⟩ hy hn, fetchedZ_at A t d0 0 ⟨(y 0).val, hj⟩ hy hn,
    fetchedZ_at A t d0 1 ⟨(y 0).val, hj⟩ hy hn, fetchedZ_at A t d0 2 ⟨(y 0).val, hj⟩ hy hn, read_blk2]
  rfl

/-! ## The launch's proof data -/

section Data

variable (VV : (c : Dev nD) → (b : Ref sig .tc) → Buf (Elt F) ((c : Thread nD τ).loc b))

/-- The proof data of the launch on core `c`, over the arrays `VV c` as the launch finds them: after the body at point
    `t` the table's and the abscissas' staging blocks hold the arrays' blocks at `t`, and the output's holds the block
    at `t` of the curve over the whole table and the whole abscissa vector, each filled out past the arrays' end by the
    zero word (which nothing reads); the invariant is that of a body that touches nothing but its blocks, nothing is
    owed, the shares are full. -/
def dats (_ : Fin 1) (c : Dev nD) : Dat τ (Elt F) Unit ℕ (UR sig nD τ) ℕ cfg0 c where
  A w := VV c (Pipeline.arrRef spec0 w)
  after w t := match w with
    | ⟨0, _⟩ => win0_0.fill (grid0.coords t) (fun _ => FloatOps.ofBits .f32 0#32)
        ((win0_0.blk t).view.read (Elt F) (VV c main_v23))
    | ⟨1, _⟩ => win0_1.fill (grid0.coords t) (fun _ => FloatOps.ofBits .f32 0#32)
        ((win0_1.blk t).view.read (Elt F) (VV c main_v24))
    | ⟨2, _⟩ => win0_2.fill (grid0.coords t) (fun _ => FloatOps.ofBits .f32 0#32)
        ((win0_2.blk t).view.read (Elt F) (Cert.Growth.curve (VV c main_v23) (VV c main_v24)))
  Φ _ := Pipeline.ΦA spec0 c
  q _ := fullShare
  owed _ := 0

/-- The proof data's arrays are the given contents. -/
theorem A_eq (c : Dev nD) (w : Fin cfg0.W) : (dats VV 0 c).A w = VV c (Pipeline.arrRef spec0 w) := by
  dsimp only [dats]

theorem after_0 (c : Dev nD) (t : Fin cfg0.N) : (dats VV 0 c).after 0 t
    = win0_0.fill (grid0.coords t) (fun _ => FloatOps.ofBits .f32 0#32) ((win0_0.blk t).view.read (Elt F) (VV c main_v23)) := by
  dsimp only [dats]
theorem after_1 (c : Dev nD) (t : Fin cfg0.N) : (dats VV 0 c).after 1 t
    = win0_1.fill (grid0.coords t) (fun _ => FloatOps.ofBits .f32 0#32) ((win0_1.blk t).view.read (Elt F) (VV c main_v24)) := by
  dsimp only [dats]
theorem after_2 (c : Dev nD) (t : Fin cfg0.N) : (dats VV 0 c).after 2 t
    = win0_2.fill (grid0.coords t) (fun _ => FloatOps.ofBits .f32 0#32)
        ((win0_2.blk t).view.read (Elt F) (Cert.Growth.curve (VV c main_v23) (VV c main_v24))) := by
  dsimp only [dats]

/-! ## What the body finds in each staging block -/

/-- The table's block was just fetched (every point fetches it): the array's block on the lanes moved, `d` elsewhere. -/
theorem before_0 (c : Dev nD) (t : Fin cfg0.N) (d) : (dats VV 0 c).before (0 : Fin 3) t d
    = win0_0.fill (grid0.coords t) d ((win0_0.blk t).view.read (Elt F) (VV c main_v23)) := by
  rw [Dat.before_fetched _ (0 : Fin 3) t (fetch0_0 t)]
  unfold Dat.fetched Dat.blockOf
  rw [A_eq]
/-- The abscissas' block likewise. -/
theorem before_1 (c : Dev nD) (t : Fin cfg0.N) (d) : (dats VV 0 c).before (1 : Fin 3) t d
    = win0_1.fill (grid0.coords t) d ((win0_1.blk t).view.read (Elt F) (VV c main_v24)) := by
  rw [Dat.before_fetched _ (1 : Fin 3) t (fetch0_1 t)]
  unfold Dat.fetched Dat.blockOf
  rw [A_eq]
/-- The output's block holds anything: it is the first point, or the point before wrote its block back. -/
theorem before_2 (c : Dev nD) (t : Fin cfg0.N) (d) : (dats VV 0 c).before (2 : Fin 3) t d = d := by
  refine (dats VV 0 c).before_out_reset (2 : Fin 3) rfl t ?_ d
  by_cases ht : t.val = 0
  · exact .inl ht
  · exact .inr ⟨ht, flush0_2 _⟩

/-! ## The body obligation -/

/-- The obligation at every point. The two input blocks arrive just fetched and the output block at
    anything, so the body's triple applies; it hands the inputs back as they came, which on the moved lanes are the
    arrays' blocks, and the output at `outOf` of the two fetched blocks, which on the moved lanes is the block of the
    curve over the whole arrays (`out_cut`). That is all the obligation of a window with overhanging blocks asks. -/
theorem body_obligation (c : Dev nD) :
    BodyObligationLoose (dats VV 0 c) (defs₀ (F := F)) Variants.none () Set.univ := fun t => by
  rw [bigSep_W0, bigSep_W0]
  simp only
  rw [show (dats VV 0 c).Φ t.succ = (dats VV 0 c).Φ t.castSucc from rfl,
    show (dats VV 0 c).owesAt () t.succ = (dats VV 0 c).owesAt () t.castSucc from rfl]
  iintro ⟨HΦ, Ho, ⟨%d0, H0⟩, ⟨%d1, H1⟩, ⟨%d2, H2⟩⟩
  rw [before_0 VV c t d0, before_1 VV c t d1, before_2 VV c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 ((win0_0.blk t).view.read (Elt F) (VV c main_v23)))
    (win0_1.fill (grid0.coords t) d1 ((win0_1.blk t).view.read (Elt F) (VV c main_v24))) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) ((dats VV 0 c).after 0 t)))
    rw [after_0, Window.cut_fill]
  isplitl [H1]
  · iexists d1
    change _ ⊢ owns (c : Thread nD τ) (win0_1.stage (cfg0.slots t 1)) fullShare
      (win0_1.fill (grid0.coords t) d1 (win0_1.cut (grid0.coords t) ((dats VV 0 c).after 1 t)))
    rw [after_1, Window.cut_fill]
  · iexists outOf (win0_0.fill (grid0.coords t) d0 ((win0_0.blk t).view.read (Elt F) (VV c main_v23)))
      (win0_1.fill (grid0.coords t) d1 ((win0_1.blk t).view.read (Elt F) (VV c main_v24)))
    change _ ⊢ owns (c : Thread nD τ) (win0_2.stage (cfg0.slots t 2)) fullShare
      (win0_2.fill (grid0.coords t)
        (outOf (win0_0.fill (grid0.coords t) d0 ((win0_0.blk t).view.read (Elt F) (VV c main_v23)))
          (win0_1.fill (grid0.coords t) d1 ((win0_1.blk t).view.read (Elt F) (VV c main_v24))))
        (win0_2.cut (grid0.coords t) ((dats VV 0 c).after 2 t)))
    rw [after_2, Window.cut_fill, ← out_cut (VV c main_v23) (VV c main_v24) t d0 d1, Window.fill_cut]

/-! ## The output array after the launch -/

/-- Every point writes back the block of the curve over the whole arrays, and the 31 blocks cover the output array:
    after the launch it holds the curve. -/
theorem final_out (c : Dev nD) :
    (dats VV 0 c).arrAt 2 cfg0.N = Cert.Growth.curve (VV c main_v23) (VV c main_v24) :=
  (dats VV 0 c).arrAt_eq_of_cover (2 : Fin 3) (Cert.Growth.curve (VV c main_v23) (VV c main_v24))
    (fun t _ => by
      show win0_2.cut (grid0.coords t) ((dats VV 0 c).after 2 t) = _
      rw [after_2, Window.cut_fill])
    cover2

end Data

end Cert.KernelIdeal.Hand

end
-- ==== Proof.RunK.lean ====
/-
  The kernel program's run, for every float instance: from any memory with zero counters every weakly fair
  execution of @main ends with the result array at the growth curve of the two arrays the pallas_call consumes —
  the table of group means with the offsets added, gathered per row into three long rows, and the abscissae as a
  vector — reshaped to one column, and with the six argument arrays as they were.

  The host operations before and after the one region are run by the library's theorem for a region between two
  stretches of host lines; the region's proof data and body obligation are those of the lanewise body, whose output
  blocks are blocks of one whole-array function (the curve), so the result array ends at that function.
-/
import proofs.«424391_j71622874628175_3_alg».proof.Proof.FrameKit
import proofs.«424391_j71622874628175_3_alg».proof.Proof.BodyK

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run to the library's post: every array of the pipeline at what the proof data computes, every other unscoped
    buffer as the host lines after the region leave it. -/
theorem run_main : θ_run defs (onTc (τ := τ) (main (F := F))) (s₀ m ρ)
    (Pipeline.FramePost cfgs (dats (V m)) 0 (Pipeline.afterTail₀ cfgs (dats (V m)) 0 (V0 m) [hostOps1])) :=
  Pipeline.θ_run_frame_around cfgs (dats (V m)) (0 : Fin 1) launch0 defs₀ Variants.none m ρ main
    (hbody := body_obligation (V m)) (hshare := fun c => (dats (V m) 0 c).share_full fun _ => rfl)
    (howed := fun _ _ => rfl) (V₀ := V0 m) (opss := [hostOps1]) (hsub := sfx_sub) (hfresh := sfx_fresh) (hkeep := sfx_keeps)
    (hmain := hmain m Variants.none) (hA := A_eq (V m)) (hΦ := fun _ _ => rfl)

/-- The run read at the result and the arguments: the result is the curve of the region's two input arrays as one
    column; the arguments end as launched. -/
theorem run_value : θ_run defs (onTc (τ := τ) (main (F := F))) ⟨m, fun _ => 0, ρ⟩ (fun r => ∀ c : Dev nD,
      r.2.mem ((c.tc : Thread nD τ).loc main_v26)
          = shapeCast S8000000x1 (Cert.Growth.curve (V m c main_v23) (V m c main_v24)) shapeCasts_S8000000_S8000000x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have hp := frame_post m (dats (V m)) r h c
    rw [final_out (V m) c] at hp
    exact hp) (run_main m ρ)

end Cert.KernelIdeal.Hand

end
-- ==== Proof.FrameKitB.lean ====
/-
  The host side of the kernel program's run. Its entry function is seven stretches of host operations (the two bounds
  0 and 99999; the group words clipped between them; the measurements with a column of ones accumulated into a
  [100000, 4] table and the sums divided by the counts; the means kept where the count is positive, zero elsewhere;
  the three offsets joined, added to the means, and the table transposed to [3, 100000]; its columns gathered at the
  group words; the abscissae reshaped to a vector), then the one
  region, then one more operation: the reshape of the region's result vector to a column.

  Here: the buffer contents when the region is entered (`V0`, `V`: the fold of the seven stretches over the launch
  memory); the entry function reduced to the region continued by the last reshape (`hmain`); the three facts the run
  around the region asks of that reshape (`sfx_sub`, `sfx_fresh`, `sfx_keeps`: it touches unscoped buffers only,
  allocates nothing, and writes none of the region's three arrays); the six arguments unchanged when the region is
  entered (`V_main_argK`) and after the last reshape (`W_main_argK`), no operation ever writing an argument; the
  column the last reshape leaves (`W_main_v26`: the result array after its last write-back, cast to [8000000, 1]);
  and the run's post read at those seven references (`frame_post`). Every statement is for any float instance.
-/
import proofs.«424391_j71622874628175_3_alg».proof.Proof.Gen.Kernel.Launch
import proofs.«424391_j71622874628175_3_alg».proof.Proof.Gen.Kernel.Points
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ) (ρ : Dev nD → PrngReg)

/-! ## The entry function around the region -/

/-- Core `c`'s buffer contents when the region is entered: the seven stretches of host operations, in order, folded
    over the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a reference of the core. -/
abbrev V (c : Dev nD) (b : Ref sig .tc) : Buf (Elt F) ((c : Thread nD τ).loc b) := V0 m c (Proc.devRef .tc b)

/-- No operation of a stretch allocates: each writes a buffer the program names, at contents it computes. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the seven stretches, the region, and the last reshape: holding the unscoped buffers at the
    launch memory it reduces to the region continued by that reshape, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩
    main_chain

/-! ## The reshape after the region -/

/-- The last reshape touches unscoped buffers only, and with nothing prefetched every unscoped buffer is an array of the
    region or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := List.mem_singleton.mp hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl : ops = hostOps1 := List.mem_singleton.mp hops
  exact (List.forall_iff_forall_mem.mp hostOps1_fresh) op hop

/-- It writes the column [8000000, 1], which is none of the region's arrays (the gathered table, the abscissa vector,
    the result vector). -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := List.mem_singleton.mp hops
  obtain rfl : op = StableHlo.reshape main_v25 main_v26 rfl shapeCasts_S8000000_S8000000x1 := List.mem_singleton.mp hop
  intro w
  fin_cases w <;> simp only [StableHlo.reshape_writes, Finset.mem_singleton] <;> exact StableHlo.devRef_ne_of_ne (by decide)

/-! ## The arguments when the region is entered -/

/-- Argument 0 when the region is entered is argument 0 at the launch: each of the 62 operations before the region
    writes its own result buffer, and none of those is an argument. -/
theorem V_main_arg0 (c : Dev nD) : V m c main_arg0 = m ((c : Thread nD τ).loc main_arg0) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 1 when the region is entered is argument 1 at the launch: each of the 62 operations before the region
    writes its own result buffer, and none of those is an argument. -/
theorem V_main_arg1 (c : Dev nD) : V m c main_arg1 = m ((c : Thread nD τ).loc main_arg1) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 2 when the region is entered is argument 2 at the launch: each of the 62 operations before the region
    writes its own result buffer, and none of those is an argument. -/
theorem V_main_arg2 (c : Dev nD) : V m c main_arg2 = m ((c : Thread nD τ).loc main_arg2) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 3 when the region is entered is argument 3 at the launch: each of the 62 operations before the region
    writes its own result buffer, and none of those is an argument. -/
theorem V_main_arg3 (c : Dev nD) : V m c main_arg3 = m ((c : Thread nD τ).loc main_arg3) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 4 when the region is entered is argument 4 at the launch: each of the 62 operations before the region
    writes its own result buffer, and none of those is an argument. -/
theorem V_main_arg4 (c : Dev nD) : V m c main_arg4 = m ((c : Thread nD τ).loc main_arg4) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Argument 5 when the region is entered is argument 5 at the launch: each of the 62 operations before the region
    writes its own result buffer, and none of those is an argument. -/
theorem V_main_arg5 (c : Dev nD) : V m c main_arg5 = m ((c : Thread nD τ).loc main_arg5) := by
  refine (StableHlo.after_of_forall_not_mem _ _ (List.forall_iff_forall_mem.mp ?_)).trans rfl
  simp only [hostOps0, hostOps0_1, hostOps0_2, hostOps0_3, hostOps0_4, hostOps0_5, hostOps0_6,
    List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-! ## The buffers after the last reshape -/

/-- A buffer that is neither the column the last reshape writes nor an array of the region holds after the reshape what
    it held when the region was entered: the region's exit contents differ from the entry contents at the arrays only,
    and the reshape writes the column only. -/
theorem W_of_bypass (dats : (p : Fin 1) → (c : Dev nD) → Pipeline.Dat τ (Elt F) Unit ℕ (UR sig nD τ) ℕ (cfgs p) c) (c : Dev nD) (b : Ref sig .tc) (hb : b ≠ main_v26) (ha : ∀ w, Pipeline.arrRef spec0 w ≠ b) :
    Pipeline.afterTail₀ cfgs dats 0 (V0 m) [hostOps1] c b = V m c b := by
  unfold Pipeline.afterTail₀
  refine (StableHlo.after_of_forall_not_mem _ _ ?_).trans (Pipeline.withArrays_of_ne spec0 c (V0 m c) _ b ha)
  intro op hop
  obtain rfl : op = StableHlo.reshape main_v25 main_v26 rfl shapeCasts_S8000000_S8000000x1 := List.mem_singleton.mp hop
  simp only [StableHlo.reshape_writes, Finset.mem_singleton]
  exact StableHlo.devRef_ne_of_ne hb

/-- Argument 0 after the last reshape is argument 0 at the launch. -/
theorem W_main_arg0 (dats : (p : Fin 1) → (c : Dev nD) → Pipeline.Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_bypass m dats c main_arg0 (by decide) (by decide)).trans (V_main_arg0 m c)

/-- Argument 1 after the last reshape is argument 1 at the launch. -/
theorem W_main_arg1 (dats : (p : Fin 1) → (c : Dev nD) → Pipeline.Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)

/-- Argument 2 after the last reshape is argument 2 at the launch. -/
theorem W_main_arg2 (dats : (p : Fin 1) → (c : Dev nD) → Pipeline.Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)

/-- Argument 3 after the last reshape is argument 3 at the launch. -/
theorem W_main_arg3 (dats : (p : Fin 1) → (c : Dev nD) → Pipeline.Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)

/-- Argument 4 after the last reshape is argument 4 at the launch. -/
theorem W_main_arg4 (dats : (p : Fin 1) → (c : Dev nD) → Pipeline.Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_bypass m dats c main_arg4 (by decide) (by decide)).trans (V_main_arg4 m c)

/-- Argument 5 after the last reshape is argument 5 at the launch. -/
theorem W_main_arg5 (dats : (p : Fin 1) → (c : Dev nD) → Pipeline.Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_bypass m dats c main_arg5 (by decide) (by decide)).trans (V_main_arg5 m c)

/-- The column the last reshape leaves: the region's result vector after its last write-back, cast to [8000000, 1]. The
    reshape reads the result vector at the region's exit, where it is the array of the third window. -/
theorem W_main_v26 (dats : (p : Fin 1) → (c : Dev nD) → Pipeline.Dat τ (Elt F) Unit ℕ (UR sig nD τ) ℕ (cfgs p) c) (c : Dev nD) :
    Pipeline.afterTail₀ cfgs dats 0 (V0 m) [hostOps1] c main_v26
      = shapeCast S8000000x1 ((dats 0 c).arrAt 2 cfg0.N) shapeCasts_S8000000_S8000000x1 := by
  unfold Pipeline.afterTail₀
  show StableHlo.after hostOps1 _ (Proc.devRef .tc main_v26) = _
  after_results
  exact congrArg (fun A => shapeCast S8000000x1 A shapeCasts_S8000000_S8000000x1)
    (Pipeline.withArrays_arr spec0 launch0.win.arr_inj c (V0 m c) (fun w => (dats 0 c).arrAt w cfg0.N) 2)

/-! ## The run's post at the result column and the arguments -/

/-- What a final state of the run around the region holds at the seven buffers the claim speaks of. None of them is an
    array of the region, so each is read by the post's clause on the bypassing buffers: the result column at the cast
    of the result array after its last write-back, each argument at its launch contents. -/
theorem frame_post (dats : (p : Fin 1) → (c : Dev nD) → Pipeline.Dat τ (Elt F) Unit ℕ (UR sig nD τ) ℕ (cfgs p) c) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_v26)
        = shapeCast S8000000x1 ((dats 0 c).arrAt 2 cfg0.N) shapeCasts_S8000000_S8000000x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_v26 (Pipeline.mem_restRefs_of main_v26 (by decide) (by decide))).trans (W_main_v26 m dats c),
   ((h c).2 main_arg0 (Pipeline.mem_restRefs_of main_arg0 (by decide) (by decide))).trans (W_main_arg0 m dats c),
   ((h c).2 main_arg1 (Pipeline.mem_restRefs_of main_arg1 (by decide) (by decide))).trans (W_main_arg1 m dats c),
   ((h c).2 main_arg2 (Pipeline.mem_restRefs_of main_arg2 (by decide) (by decide))).trans (W_main_arg2 m dats c),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c)⟩

end Cert.Kernel.Hand

end
-- ==== Proof.WinArithB.lean ====
/-
  The arithmetic of the three windows of the one pallas_call. The grid has 31 points; the table window (window 0)
  walks a [3, 8000000] array in blocks [3, 262144] at block index (0, t), the abscissa window (window 1) and the
  result window (window 2) walk [8000000] arrays in blocks [262144] at block index t. Since
  8000000 = 30 · 262144 + 135680, the block at point 30 overhangs the arrays and its transfers are cut to the
  first 135680 lanes; at every point the number of lanes moved is min 262144 (8000000 − 262144 t).

  Here, for a symbolic point t: the block indices and the cut sizes in closed form (decided once over the grid);
  what a block reads off an array, index by index (lane y of the block at t is lane 262144 t + y of the array);
  which indices of the result array the block at t holds, and that the 31 blocks cover it; and which coordinates of
  a full block a cut transfer moves (the first min 262144 (8000000 − 262144 t) lanes, the same for all three windows).
-/
import proofs.«424391_j71622874628175_3_alg».proof.Proof.Gen.Kernel.Launch
import proofs.«424391_j71622874628175_3_alg».proof.Proof.Gen.Kernel.Points
import Idealize.ShloMosaic.Lib.Pipeline.Value
import Idealize.ShloMosaic.Lib.ValueIdx

noncomputable section

namespace Cert.Kernel.Hand

open Cert.Kernel Cert.Kernel.Gen Cert.Kernel.Facts₀ Idealize.ShloMosaic Idealize.ShloMosaic.TcCoe
open Idealize.SL Idealize.SL.Sem
open Idealize.ShloMosaic.ValueIdx

variable {F : FTy → Type} [FloatOps F]

/-! ## The grid's points, the block indices and the cut sizes -/

/-- A point of the grid is below 31. -/
theorem point_lt (t : Fin cfg0.N) : t.val < 31 := lt_of_lt_of_eq t.isLt N_0

/-- The result window's block index at point t is t. -/
theorem index2 : ∀ t : Fin cfg0.N, win0_2.index t 0 = t.val :=
  (by decide +kernel : ∀ t : Fin grid0.N, win0_2.index t 0 = t.val)

/-- The abscissa window's block index at point t is t. -/
theorem index1 : ∀ t : Fin cfg0.N, win0_1.index t 0 = t.val :=
  (by decide +kernel : ∀ t : Fin grid0.N, win0_1.index t 0 = t.val)

/-- The table window's block index at point t is (0, t): all three rows, the t-th block of lanes. -/
theorem index0 : ∀ t : Fin cfg0.N, win0_0.index t 0 = 0 ∧ win0_0.index t 1 = t.val :=
  (by decide +kernel : ∀ t : Fin grid0.N, win0_0.index t 0 = 0 ∧ win0_0.index t 1 = t.val)

/-- The result window's transfer at point t moves min 262144 (8000000 − 262144 t) lanes. -/
theorem xsize2 : ∀ t : Fin cfg0.N, win0_2.xsize (grid0.coords t) 0 = min 262144 (8000000 - t.val * 262144) :=
  (by decide +kernel : ∀ t : Fin grid0.N, win0_2.xsize (grid0.coords t) 0 = min 262144 (8000000 - t.val * 262144))

/-- The abscissa window's transfer at point t moves as many. -/
theorem xsize1 : ∀ t : Fin cfg0.N, win0_1.xsize (grid0.coords t) 0 = min 262144 (8000000 - t.val * 262144) :=
  (by decide +kernel : ∀ t : Fin grid0.N, win0_1.xsize (grid0.coords t) 0 = min 262144 (8000000 - t.val * 262144))

/-- The table window's transfer at point t moves all three rows and as many lanes. -/
theorem xsize0 : ∀ t : Fin cfg0.N, win0_0.xsize (grid0.coords t) 0 = 3
    ∧ win0_0.xsize (grid0.coords t) 1 = min 262144 (8000000 - t.val * 262144) :=
  (by decide +kernel : ∀ t : Fin grid0.N, win0_0.xsize (grid0.coords t) 0 = 3
    ∧ win0_0.xsize (grid0.coords t) 1 = min 262144 (8000000 - t.val * 262144))

/-- The three windows cut their lanes alike. -/
theorem xsize_lanes (t : Fin cfg0.N) :
    win0_0.xsize (grid0.coords t) 1 = win0_2.xsize (grid0.coords t) 0
      ∧ win0_1.xsize (grid0.coords t) 0 = win0_2.xsize (grid0.coords t) 0 :=
  ⟨(xsize0 t).2.trans (xsize2 t).symm, (xsize1 t).trans (xsize2 t).symm⟩

/-! ## What a block reads off its array -/

/-- Lane y of the result window's block at t is a lane of the array: 262144 t + y < 8000000. -/
theorem lane_lt2 (t : Fin cfg0.N) (y : (win0_2.xblock (grid0.coords t)).Idx) : t.val * 262144 + (y 0).val < 8000000 := by
  have ht := point_lt t
  have hy : (y 0).val < win0_2.xsize (grid0.coords t) 0 := (y 0).isLt
  rw [xsize2 t] at hy
  omega

/-- The result window's block at t reads lane 262144 t + y of the array at its lane y
    (an element of a block sits at block index · block size + its own coordinate). -/
theorem read_blk2 (G : Vec F S8000000 .f32) (t : Fin cfg0.N) (y : (win0_2.xblock (grid0.coords t)).Idx) :
    (win0_2.blk t).view.read (Elt F) G y = G (ix1 ⟨t.val * 262144 + (y 0).val, lane_lt2 t y⟩) := by
  show G ((win0_2.rect t).emb y) = _
  refine congrArg G (funext fun a => Fin.ext ?_)
  match a with
  | ⟨0, _⟩ =>
    show ((win0_2.rect t).emb y 0 : Nat) = t.val * 262144 + (y 0).val
    rw [Pipeline.Window.rect_emb_val, index2 t]
    rfl

/-- Lane y of the abscissa window's block at t is a lane of the array. -/
theorem lane_lt1 (t : Fin cfg0.N) (y : (win0_1.xblock (grid0.coords t)).Idx) : t.val * 262144 + (y 0).val < 8000000 := by
  have ht := point_lt t
  have hy : (y 0).val < win0_1.xsize (grid0.coords t) 0 := (y 0).isLt
  rw [xsize1 t] at hy
  omega

/-- The abscissa window's block at t reads lane 262144 t + y of the array at its lane y. -/
theorem read_blk1 (X : Vec F S8000000 .f32) (t : Fin cfg0.N) (y : (win0_1.xblock (grid0.coords t)).Idx) :
    (win0_1.blk t).view.read (Elt F) X y = X (ix1 ⟨t.val * 262144 + (y 0).val, lane_lt1 t y⟩) := by
  show X ((win0_1.rect t).emb y) = _
  refine congrArg X (funext fun a => Fin.ext ?_)
  match a with
  | ⟨0, _⟩ =>
    show ((win0_1.rect t).emb y 0 : Nat) = t.val * 262144 + (y 0).val
    rw [Pipeline.Window.rect_emb_val, index1 t]
    rfl

/-- A row of the table window's block is one of the table's three rows. -/
theorem row_lt0 (t : Fin cfg0.N) (y : (win0_0.xblock (grid0.coords t)).Idx) : (y 0).val < 3 := by
  have hy : (y 0).val < win0_0.xsize (grid0.coords t) 0 := (y 0).isLt
  rw [(xsize0 t).1] at hy
  exact hy

/-- Lane y of the table window's block at t is a lane of the table. -/
theorem lane_lt0 (t : Fin cfg0.N) (y : (win0_0.xblock (grid0.coords t)).Idx) : t.val * 262144 + (y 1).val < 8000000 := by
  have ht := point_lt t
  have hy : (y 1).val < win0_0.xsize (grid0.coords t) 1 := (y 1).isLt
  rw [(xsize0 t).2] at hy
  omega

/-- The table window's block at t reads, at its row r and lane y, row r and lane 262144 t + y of the table. -/
theorem read_blk0 (A : Vec F S3x8000000 .f32) (t : Fin cfg0.N) (y : (win0_0.xblock (grid0.coords t)).Idx) :
    (win0_0.blk t).view.read (Elt F) A y
      = A (ix2 ⟨(y 0).val, row_lt0 t y⟩ ⟨t.val * 262144 + (y 1).val, lane_lt0 t y⟩) := by
  show A ((win0_0.rect t).emb y) = _
  refine congrArg A (funext fun a => Fin.ext ?_)
  match a with
  | ⟨0, _⟩ =>
    show ((win0_0.rect t).emb y 0 : Nat) = (y 0).val
    rw [Pipeline.Window.rect_emb_val, (index0 t).1]
    rw [Nat.zero_mul, Nat.zero_add]
  | ⟨1, _⟩ =>
    show ((win0_0.rect t).emb y 1 : Nat) = t.val * 262144 + (y 1).val
    rw [Pipeline.Window.rect_emb_val, (index0 t).2]
    rfl

/-! ## The result array's indices, block by block -/

/-- A lane of the result array is in the block at t iff it is one of the
    min 262144 (8000000 − 262144 t) lanes from 262144 t on. -/
theorem mem_blk2 (t : Fin cfg0.N) (i : S8000000.Idx) :
    i ∈ (win0_2.blk t).view.set
      ↔ t.val * 262144 ≤ (i 0).val ∧ (i 0).val < t.val * 262144 + min 262144 (8000000 - t.val * 262144) := by
  show i ∈ ((View.whole main_v25).slice (win0_2.rect t)).set ↔ _
  rw [View.set_slice_whole, Rect.mem_set_unit]
  constructor
  · intro h
    have h0 : win0_2.index t 0 * 262144 ≤ (i 0).val
        ∧ (i 0).val < win0_2.index t 0 * 262144 + win0_2.xsize (grid0.coords t) 0 := h 0
    rw [index2 t, xsize2 t] at h0
    exact h0
  · intro h a
    match a with
    | ⟨0, _⟩ =>
      show win0_2.index t 0 * 262144 ≤ (i 0).val
        ∧ (i 0).val < win0_2.index t 0 * 262144 + win0_2.xsize (grid0.coords t) 0
      rw [index2 t, xsize2 t]
      exact h

/-- Every lane n of the result array is in the block some point writes back: the point n / 262144 (below 31
    since n < 8000000), whose block holds lanes 262144 (n / 262144) up to the array's end or the next block. -/
theorem cover2 : ∀ i : S8000000.Idx,
    ∃ t : Fin cfg0.N, (cfg0.win 2).flush t = true ∧ i ∈ ((cfg0.win 2).blk t).view.set := by
  intro i
  have hi : (i 0).val < 8000000 := (i 0).isLt
  have hq : (i 0).val / 262144 < cfg0.N := lt_of_lt_of_eq (by omega : (i 0).val / 262144 < 31) N_0.symm
  refine ⟨⟨(i 0).val / 262144, hq⟩, flush0_2 _, ?_⟩
  show i ∈ (win0_2.blk ⟨(i 0).val / 262144, hq⟩).view.set
  rw [mem_blk2]
  show (i 0).val / 262144 * 262144 ≤ (i 0).val
    ∧ (i 0).val < (i 0).val / 262144 * 262144 + min 262144 (8000000 - (i 0).val / 262144 * 262144)
  omega

/-! ## Which coordinates of a full block a cut transfer moves -/

/-- The result window's transfer at t moves lane j of the block iff j < min 262144 (8000000 − 262144 t). -/
theorem moved2_iff (t : Fin cfg0.N) (j : S262144.Idx) :
    win0_2.moved (grid0.coords t) j = true ↔ (j 0).val < min 262144 (8000000 - t.val * 262144) := by
  rw [Pipeline.Window.moved_iff]
  constructor
  · intro h
    have h0 : (j 0).val < win0_2.xsize (grid0.coords t) 0 := h 0
    rw [xsize2 t] at h0
    exact h0
  · intro h a
    match a with
    | ⟨0, _⟩ =>
      show (j 0).val < win0_2.xsize (grid0.coords t) 0
      rw [xsize2 t]
      exact h

/-- The abscissa window's transfer at t moves lane j of the block iff j < min 262144 (8000000 − 262144 t). -/
theorem moved1_iff (t : Fin cfg0.N) (j : S262144.Idx) :
    win0_1.moved (grid0.coords t) j = true ↔ (j 0).val < min 262144 (8000000 - t.val * 262144) := by
  rw [Pipeline.Window.moved_iff]
  constructor
  · intro h
    have h0 : (j 0).val < win0_1.xsize (grid0.coords t) 0 := h 0
    rw [xsize1 t] at h0
    exact h0
  · intro h a
    match a with
    | ⟨0, _⟩ =>
      show (j 0).val < win0_1.xsize (grid0.coords t) 0
      rw [xsize1 t]
      exact h

/-- The table window's transfer at t moves the block's coordinate (r, j) iff j < min 262144 (8000000 − 262144 t):
    every row is moved, the lanes are cut. -/
theorem moved0_iff (t : Fin cfg0.N) (j : S3x262144.Idx) :
    win0_0.moved (grid0.coords t) j = true ↔ (j 1).val < min 262144 (8000000 - t.val * 262144) := by
  rw [Pipeline.Window.moved_iff]
  constructor
  · intro h
    have h1 : (j 1).val < win0_0.xsize (grid0.coords t) 1 := h 1
    rw [(xsize0 t).2] at h1
    exact h1
  · intro h a
    match a with
    | ⟨0, _⟩ =>
      show (j 0).val < win0_0.xsize (grid0.coords t) 0
      rw [(xsize0 t).1]
      exact (j 0).isLt
    | ⟨1, _⟩ =>
      show (j 1).val < win0_0.xsize (grid0.coords t) 1
      rw [(xsize0 t).2]
      exact h

/-- The abscissa and the result windows move the same lanes. -/
theorem moved1_eq_moved2 (t : Fin cfg0.N) (j : S262144.Idx) :
    win0_1.moved (grid0.coords t) j = win0_2.moved (grid0.coords t) j :=
  Bool.eq_iff_iff.mpr ((moved1_iff t j).trans (moved2_iff t j).symm)

/-- The table window moves a coordinate iff the result window moves its lane. -/
theorem moved0_eq_moved2 (t : Fin cfg0.N) (j : S3x262144.Idx) (k : S262144.Idx) (h : (j 1).val = (k 0).val) :
    win0_0.moved (grid0.coords t) j = win0_2.moved (grid0.coords t) k :=
  Bool.eq_iff_iff.mpr ((moved0_iff t j).trans (h ▸ (moved2_iff t k).symm))

/-! ## A fetched block at a moved coordinate, and a written-back block at its own -/

/-- A lane of a cut block is a lane of the full block. -/
theorem lane_lt_blk2 (t : Fin cfg0.N) (y : (win0_2.xblock (grid0.coords t)).Idx) : (y 0).val < 262144 := by
  have hy : (y 0).val < win0_2.xsize (grid0.coords t) 0 := (y 0).isLt
  rw [xsize2 t] at hy
  omega

/-- A lane of a cut block is among the lanes moved at the point. -/
theorem lane_lt_cut2 (t : Fin cfg0.N) (y : (win0_2.xblock (grid0.coords t)).Idx) :
    (y 0).val < min 262144 (8000000 - t.val * 262144) := by
  have hy : (y 0).val < win0_2.xsize (grid0.coords t) 0 := (y 0).isLt
  rw [xsize2 t] at hy
  exact hy

/-- The full block's index of a lane of the result window's cut block: the same lane. -/
theorem xinj2_eq (t : Fin cfg0.N) (y : (win0_2.xblock (grid0.coords t)).Idx) :
    win0_2.xinj (grid0.coords t) y = (ix1 ⟨(y 0).val, lane_lt_blk2 t y⟩ : S262144.Idx) := by
  funext a
  match a with
  | ⟨0, _⟩ => rfl

/-- What a write-back of the result window at t takes from the staging buffer's contents Y: lane y of Y at lane y. -/
theorem cut2_apply {α : Type} (Y : S262144.Idx → α) (t : Fin cfg0.N) (y : (win0_2.xblock (grid0.coords t)).Idx) :
    win0_2.cut (grid0.coords t) Y y = Y (ix1 ⟨(y 0).val, lane_lt_blk2 t y⟩) :=
  congrArg Y (xinj2_eq t y)

/-- The abscissa window's staging buffer after the fetch at t, at a lane k the transfer moves, holds lane
    262144 t + k of the array (whatever the buffer held before). -/
theorem fill_read1 (X : Vec F S8000000 .f32) (t : Fin cfg0.N) (d : S262144.Idx → Elt F .f32) (k : S262144.Idx)
    (l : Nat) (hl : (k 0).val = l) (h : l < min 262144 (8000000 - t.val * 262144)) (hlt : t.val * 262144 + l < 8000000) :
    win0_1.fill (grid0.coords t) d ((win0_1.blk t).view.read (Elt F) X) k = X (ix1 ⟨t.val * 262144 + l, hlt⟩) := by
  subst hl
  unfold Pipeline.Window.fill
  rw [dif_pos ((moved1_iff t k).mpr h), read_blk1]

/-- The table window's staging buffer after the fetch at t, at a row r and a lane l the transfer moves, holds
    row r, lane 262144 t + l of the table (whatever the buffer held before). -/
theorem fill_read0 (A : Vec F S3x8000000 .f32) (t : Fin cfg0.N) (d : S3x262144.Idx → Elt F .f32) (j : S3x262144.Idx)
    (r : Fin 3) (l : Nat) (hr : (j 0).val = r.val) (hl : (j 1).val = l)
    (h : l < min 262144 (8000000 - t.val * 262144)) (hlt : t.val * 262144 + l < 8000000) :
    win0_0.fill (grid0.coords t) d ((win0_0.blk t).view.read (Elt F) A) j = A (ix2 r ⟨t.val * 262144 + l, hlt⟩) := by
  subst hl
  unfold Pipeline.Window.fill
  rw [dif_pos ((moved0_iff t j).mpr h), read_blk0]
  refine congrArg A (funext fun a => ?_)
  match a with
  | ⟨0, _⟩ => exact Fin.ext hr
  | ⟨1, _⟩ => rfl

end Cert.Kernel.Hand

end
-- ==== Proof.BodyKB.lean ====
/-
  The one kernel launch of the growth program: its body and the data its frame is proved with.

  At grid point `t` the body is handed a block of the table of three long rows (3 by 262144 lanes, the lanes
  `t * 262144 ..` of the table), the same lanes of the abscissa vector, and a block to write. It loads the abscissa
  block whole and the table block row by row, computes one row of the curve in every lane, and stores the block of
  results whole. The last point's blocks hang over the end of the arrays: there a transfer moves only the lanes inside
  the array, and what the rest of a staging block holds is not stated by anyone.

  This module reads the body's arithmetic lane by lane (`pay_lane`), proves the body's triple over whole staging
  blocks (`sound_kernel`), names what it leaves in the output block (`outOf`) and reads that lane by lane
  (`outOf_lane`), and gives the launch's proof data (`dats`): after the body each input block is the array's block
  and the output block is the block of ONE function of the whole arrays, the curve over the table and the abscissas.
  The arrays as the launch finds them are a parameter `VV`, never opened here.
-/
import proofs.«424391_j71622874628175_3_alg».proof.Proof.Gen.Kernel.Launch
import proofs.«424391_j71622874628175_3_alg».proof.Proof.Gen.Kernel.Points
import proofs.«424391_j71622874628175_3_alg».proof.Proof.Gen.Kernel.Skeleton
import proofs.«424391_j71622874628175_3_alg».proof.Proof.Spec
import proofs.«424391_j71622874628175_3_alg».proof.Proof.WinArithB
import Idealize.ShloMosaic.Lib.Pipeline.FrameBody
import Idealize.ShloMosaic.Lib.Pipeline.Value
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-! ## The body's arithmetic, one lane at a time -/

/-- A row of the table block viewed as a vector: lane `j` of the [1, 262144] load is lane `j` of the cast. -/
theorem cast_row (v : Vec F S1x262144 .f32) (j : Fin 262144) :
    shapeCast S262144 v shapeCasts_S1x262144_S262144 (ValueIdx.ix1 j) = v (ValueIdx.ix2 0 j) := by
  refine shapeCast_apply v shapeCasts_S1x262144_S262144 (ValueIdx.ix1 j) (ValueIdx.ix2 0 j) ?_
  rw [Shape.rowMajor_val_two, Shape.rowMajor_val_one]
  show 0 * 262144 + j.val = j.val
  omega

/-- The stored value in lane `j` is the curve's row of the four loads' lane `j`: every operation of the body is
    lanewise, the constants are broadcast, and the casts keep the lane. -/
theorem pay_lane (v0 : Vec F S262144 .f32) (v2 v4 v6 : Vec F S1x262144 .f32) (j : Fin 262144) :
    k0_pay1 v0 v2 v4 v6 (ValueIdx.ix1 j)
      = Cert.Growth.lane (v0 (ValueIdx.ix1 j)) (v2 (ValueIdx.ix2 0 j)) (v4 (ValueIdx.ix2 0 j)) (v6 (ValueIdx.ix2 0 j)) := by
  unfold k0_pay1 Cert.Growth.lane
  show FloatOps.divf (shapeCast S262144 v2 shapeCasts_S1x262144_S262144 (ValueIdx.ix1 j))
      (FloatOps.addf (Scalar.ofBits .f32 0x3F800000#32)
        (FloatOps.exp (FloatOps.minimumf (Scalar.ofBits .f32 0x42480000#32)
          (FloatOps.maximumf (Scalar.ofBits .f32 0xC2480000#32)
            (FloatOps.subf (Scalar.ofBits .f32 0x00000000#32)
              (FloatOps.divf
                (FloatOps.subf (shapeCast S262144 v0 shapeCasts_S262144_S262144 (ValueIdx.ix1 j))
                  (shapeCast S262144 v4 shapeCasts_S1x262144_S262144 (ValueIdx.ix1 j)))
                (FloatOps.maximumf (shapeCast S262144 v6 shapeCasts_S1x262144_S262144 (ValueIdx.ix1 j))
                  (Scalar.ofBits .f32 0x3DCCCCCD#32)))))))) = _
  rw [cast_row v2 j, cast_row v4 j, cast_row v6 j, shapeCast_self v0 shapeCasts_S262144_S262144]

/-! ## The body's accesses and what it leaves -/

/-- The whole abscissa block, which is also the whole output block: offset 0, all 262144 lanes. -/
abbrev rLane : Rect S262144 := Rect.unit (s := S262144) ![0] S262144.size inb_S262144_S262144_0
/-- Row `k` of the table block: offset `(k, 0)`, one row of 262144 lanes. -/
abbrev rRow0 : Rect S3x262144 := Rect.unit (s := S3x262144) ![0, 0] S1x262144.size inb_S3x262144_S1x262144_0_0
abbrev rRow1 : Rect S3x262144 := Rect.unit (s := S3x262144) ![1, 0] S1x262144.size inb_S3x262144_S1x262144_1_0
abbrev rRow2 : Rect S3x262144 := Rect.unit (s := S3x262144) ![2, 0] S1x262144.size inb_S3x262144_S1x262144_2_0

/-- The output block after the body, from the table block `x0` and the abscissa block `x1`: its one whole store
    of the body's arithmetic over the four loads. -/
def outOf (x0 : Vec F S3x262144 .f32) (x1 : Vec F S262144 .f32) : Vec F S262144 .f32 :=
  View.canon [⟨rLane, k0_pay1 (View.ld x1 rLane) (View.ld x0 rRow0) (View.ld x0 rRow1) (View.ld x0 rRow2)⟩]

theorem lane_zero : (![0] : Fin 1 → Nat) = fun _ => 0 := funext fun a => by
  match a with | ⟨0, _⟩ => rfl

/-- The one store covers the block. -/
theorem cover_lane (p0 : Vec F S262144 .f32) (y : S262144.Idx) :
    ∃ pc ∈ ([⟨rLane, p0⟩] : List (View.Piece (Elt F) S262144 .f32)), y ∈ pc.1.set :=
  ⟨_, List.mem_singleton_self _, View.mem_set_unit_zero lane_zero inb_S262144_S262144_0 y⟩

/-! ## The body's triple -/

set_option maxHeartbeats 1000000 in
/-- The body on whole staging blocks, the table's at `x0`, the abscissas' at `x1` and the output's at anything, ends
    with the first two as they were and the output's at `outOf x0 x1`. (It loads the output block once before the
    store; nothing reads that load.) -/
theorem sound_kernel (c : Dev nD) (E : Set ℕ) (i : grid0.Coords)
    (arg1 : Memref sig .tc .vmem S3x262144 .f32) (harg1 : arg1.IsWhole)
    (arg2 : Memref sig .tc .vmem S262144 .f32) (harg2 : arg2.IsWhole)
    (arg3 : Memref sig .tc .vmem S262144 .f32) (harg3 : arg3.IsWhole)
    (x0 : Vec F S3x262144 .f32) (x1 : Vec F S262144 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outOf x0 x1)) -∗ K ⟨⟩))
      ⊢ wp frame (wpE (defs₀ (F := F)) Variants.none c none) E (cc0__growth_kernel i arg1 harg1 arg2 harg2 arg3 harg3) K := by
  simp only [cc0__growth_kernel_eq_skeleton]; unfold cc0__growth_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_lane _)

/-! ## The output block, one lane at a time -/

/-- Lane `j` of the load of row `k` of the table block is the block's entry `(k, j)`. -/
theorem row0_idx (j : Fin 262144) : rRow0.idx (ValueIdx.ix2 (n0 := 1) (n1 := 262144) 0 j) = ValueIdx.ix2 (n0 := 3) (n1 := 262144) 0 j :=
  funext fun a => Fin.ext (by match a with | ⟨0, _⟩ => rfl | ⟨1, _⟩ => (show 0 + 1 * j.val = j.val; omega))
theorem row1_idx (j : Fin 262144) : rRow1.idx (ValueIdx.ix2 (n0 := 1) (n1 := 262144) 0 j) = ValueIdx.ix2 (n0 := 3) (n1 := 262144) 1 j :=
  funext fun a => Fin.ext (by match a with | ⟨0, _⟩ => rfl | ⟨1, _⟩ => (show 0 + 1 * j.val = j.val; omega))
theorem row2_idx (j : Fin 262144) : rRow2.idx (ValueIdx.ix2 (n0 := 1) (n1 := 262144) 0 j) = ValueIdx.ix2 (n0 := 3) (n1 := 262144) 2 j :=
  funext fun a => Fin.ext (by match a with | ⟨0, _⟩ => rfl | ⟨1, _⟩ => (show 0 + 1 * j.val = j.val; omega))

/-- Lane `j` of the output block is the curve's row of lane `j` of the abscissa block and column `j` of the table
    block. -/
theorem outOf_lane (x0 : Vec F S3x262144 .f32) (x1 : Vec F S262144 .f32) (j : Fin 262144) :
    outOf x0 x1 (ValueIdx.ix1 j)
      = Cert.Growth.lane (x1 (ValueIdx.ix1 j)) (x0 (ValueIdx.ix2 0 j)) (x0 (ValueIdx.ix2 1 j)) (x0 (ValueIdx.ix2 2 j)) := by
  unfold outOf
  rw [View.canon_unit_zero (S := S262144) lane_zero, pay_lane, View.ld_unit_zero (S := S262144) lane_zero]
  show Cert.Growth.lane (x1 (ValueIdx.ix1 j)) (x0 (rRow0.idx (ValueIdx.ix2 0 j))) (x0 (rRow1.idx (ValueIdx.ix2 0 j)))
      (x0 (rRow2.idx (ValueIdx.ix2 0 j))) = _
  rw [row0_idx, row1_idx, row2_idx]

/-! ## A fetched block at a lane the transfer moved

A staging block just fetched holds the array's block on the lanes the transfer moved and anything elsewhere. At a
moved lane `j` of the block at point `t` it therefore holds the array's lane `262144 t + j`. -/

/-- The abscissa block. -/
theorem fetchedX_at (X : Vec F S8000000 .f32) (t : Fin cfg0.N) (d : S262144.Idx → Elt F .f32) (j : Fin 262144)
    (hj : j.val < min 262144 (8000000 - t.val * 262144)) (hn : t.val * 262144 + j.val < 8000000) :
    win0_1.fill (grid0.coords t) d ((win0_1.blk t).view.read (Elt F) X) (ValueIdx.ix1 j)
      = X (ValueIdx.ix1 ⟨t.val * 262144 + j.val, hn⟩) := by
  unfold Window.fill
  rw [dif_pos ((moved1_iff t (ValueIdx.ix1 j)).mpr hj), read_blk1]
  rfl

/-- The table block, row `k`. -/
theorem fetchedZ_at (A : Vec F S3x8000000 .f32) (t : Fin cfg0.N) (d : S3x262144.Idx → Elt F .f32) (k : Fin 3) (j : Fin 262144)
    (hj : j.val < min 262144 (8000000 - t.val * 262144)) (hn : t.val * 262144 + j.val < 8000000) :
    win0_0.fill (grid0.coords t) d ((win0_0.blk t).view.read (Elt F) A) (ValueIdx.ix2 k j)
      = A (ValueIdx.ix2 k ⟨t.val * 262144 + j.val, hn⟩) := by
  unfold Window.fill
  rw [dif_pos ((moved0_iff t (ValueIdx.ix2 k j)).mpr hj), read_blk0]
  rfl

/-- What the body leaves in the output block from two fetched blocks, on the lanes the write-back moves: the block
    at `t` of the curve over the whole table `A` and the whole abscissa vector `X`. Lane `j` of the output is the
    curve's row of lane `j` of the two blocks, which (the lane being moved) are lane `262144 t + j` of the arrays. -/
theorem out_cut (A : Vec F S3x8000000 .f32) (X : Vec F S8000000 .f32) (t : Fin cfg0.N)
    (d0 : S3x262144.Idx → Elt F .f32) (d1 : S262144.Idx → Elt F .f32) :
    win0_2.cut (grid0.coords t)
        (outOf (win0_0.fill (grid0.coords t) d0 ((win0_0.blk t).view.read (Elt F) A))
          (win0_1.fill (grid0.coords t) d1 ((win0_1.blk t).view.read (Elt F) X)))
      = (win0_2.blk t).view.read (Elt F) (Cert.Growth.curve A X) := by
  funext y
  have hy : (y 0).val < min 262144 (8000000 - t.val * 262144) := by
    have h : (y 0).val < win0_2.xsize (grid0.coords t) 0 := (y 0).isLt
    rw [xsize2 t] at h; exact h
  have hj : (y 0).val < 262144 := by omega
  have hn := lane_lt2 t y
  show outOf _ _ (win0_2.xinj (grid0.coords t) y) = _
  rw [show win0_2.xinj (grid0.coords t) y = ValueIdx.ix1 ⟨(y 0).val, hj⟩ from
    funext fun a => by match a with | ⟨0, _⟩ => rfl]
  rw [outOf_lane, fetchedX_at X t d1 ⟨(y 0).val, hj⟩ hy hn, fetchedZ_at A t d0 0 ⟨(y 0).val, hj⟩ hy hn,
    fetchedZ_at A t d0 1 ⟨(y 0).val, hj⟩ hy hn, fetchedZ_at A t d0 2 ⟨(y 0).val, hj⟩ hy hn, read_blk2]
  rfl

/-! ## The launch's proof data -/

section Data

variable (VV : (c : Dev nD) → (b : Ref sig .tc) → Buf (Elt F) ((c : Thread nD τ).loc b))

/-- The proof data of the launch on core `c`, over the arrays `VV c` as the launch finds them: after the body at point
    `t` the table's and the abscissas' staging blocks hold the arrays' blocks at `t`, and the output's holds the block
    at `t` of the curve over the whole table and the whole abscissa vector, each filled out past the arrays' end by the
    zero word (which nothing reads); the invariant is that of a body that touches nothing but its blocks, nothing is
    owed, the shares are full. -/
def dats (_ : Fin 1) (c : Dev nD) : Dat τ (Elt F) Unit ℕ (UR sig nD τ) ℕ cfg0 c where
  A w := VV c (Pipeline.arrRef spec0 w)
  after w t := match w with
    | ⟨0, _⟩ => win0_0.fill (grid0.coords t) (fun _ => FloatOps.ofBits .f32 0#32)
        ((win0_0.blk t).view.read (Elt F) (VV c main_v23))
    | ⟨1, _⟩ => win0_1.fill (grid0.coords t) (fun _ => FloatOps.ofBits .f32 0#32)
        ((win0_1.blk t).view.read (Elt F) (VV c main_v24))
    | ⟨2, _⟩ => win0_2.fill (grid0.coords t) (fun _ => FloatOps.ofBits .f32 0#32)
        ((win0_2.blk t).view.read (Elt F) (Cert.Growth.curve (VV c main_v23) (VV c main_v24)))
  Φ _ := Pipeline.ΦA spec0 c
  q _ := fullShare
  owed _ := 0

/-- The proof data's arrays are the given contents. -/
theorem A_eq (c : Dev nD) (w : Fin cfg0.W) : (dats VV 0 c).A w = VV c (Pipeline.arrRef spec0 w) := by
  dsimp only [dats]

theorem after_0 (c : Dev nD) (t : Fin cfg0.N) : (dats VV 0 c).after 0 t
    = win0_0.fill (grid0.coords t) (fun _ => FloatOps.ofBits .f32 0#32) ((win0_0.blk t).view.read (Elt F) (VV c main_v23)) := by
  dsimp only [dats]
theorem after_1 (c : Dev nD) (t : Fin cfg0.N) : (dats VV 0 c).after 1 t
    = win0_1.fill (grid0.coords t) (fun _ => FloatOps.ofBits .f32 0#32) ((win0_1.blk t).view.read (Elt F) (VV c main_v24)) := by
  dsimp only [dats]
theorem after_2 (c : Dev nD) (t : Fin cfg0.N) : (dats VV 0 c).after 2 t
    = win0_2.fill (grid0.coords t) (fun _ => FloatOps.ofBits .f32 0#32)
        ((win0_2.blk t).view.read (Elt F) (Cert.Growth.curve (VV c main_v23) (VV c main_v24))) := by
  dsimp only [dats]

/-! ## What the body finds in each staging block -/

/-- The table's block was just fetched (every point fetches it): the array's block on the lanes moved, `d` elsewhere. -/
theorem before_0 (c : Dev nD) (t : Fin cfg0.N) (d) : (dats VV 0 c).before (0 : Fin 3) t d
    = win0_0.fill (grid0.coords t) d ((win0_0.blk t).view.read (Elt F) (VV c main_v23)) := by
  rw [Dat.before_fetched _ (0 : Fin 3) t (fetch0_0 t)]
  unfold Dat.fetched Dat.blockOf
  rw [A_eq]
/-- The abscissas' block likewise. -/
theorem before_1 (c : Dev nD) (t : Fin cfg0.N) (d) : (dats VV 0 c).before (1 : Fin 3) t d
    = win0_1.fill (grid0.coords t) d ((win0_1.blk t).view.read (Elt F) (VV c main_v24)) := by
  rw [Dat.before_fetched _ (1 : Fin 3) t (fetch0_1 t)]
  unfold Dat.fetched Dat.blockOf
  rw [A_eq]
/-- The output's block holds anything: it is the first point, or the point before wrote its block back. -/
theorem before_2 (c : Dev nD) (t : Fin cfg0.N) (d) : (dats VV 0 c).before (2 : Fin 3) t d = d := by
  refine (dats VV 0 c).before_out_reset (2 : Fin 3) rfl t ?_ d
  by_cases ht : t.val = 0
  · exact .inl ht
  · exact .inr ⟨ht, flush0_2 _⟩

/-! ## The body obligation -/

/-- The obligation at every point. The two input blocks arrive just fetched and the output block at
    anything, so the body's triple applies; it hands the inputs back as they came, which on the moved lanes are the
    arrays' blocks, and the output at `outOf` of the two fetched blocks, which on the moved lanes is the block of the
    curve over the whole arrays (`out_cut`). That is all the obligation of a window with overhanging blocks asks. -/
theorem body_obligation (c : Dev nD) :
    BodyObligationLoose (dats VV 0 c) (defs₀ (F := F)) Variants.none () Set.univ := fun t => by
  rw [bigSep_W0, bigSep_W0]
  simp only
  rw [show (dats VV 0 c).Φ t.succ = (dats VV 0 c).Φ t.castSucc from rfl,
    show (dats VV 0 c).owesAt () t.succ = (dats VV 0 c).owesAt () t.castSucc from rfl]
  iintro ⟨HΦ, Ho, ⟨%d0, H0⟩, ⟨%d1, H1⟩, ⟨%d2, H2⟩⟩
  rw [before_0 VV c t d0, before_1 VV c t d1, before_2 VV c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 ((win0_0.blk t).view.read (Elt F) (VV c main_v23)))
    (win0_1.fill (grid0.coords t) d1 ((win0_1.blk t).view.read (Elt F) (VV c main_v24))) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) ((dats VV 0 c).after 0 t)))
    rw [after_0, Window.cut_fill]
  isplitl [H1]
  · iexists d1
    change _ ⊢ owns (c : Thread nD τ) (win0_1.stage (cfg0.slots t 1)) fullShare
      (win0_1.fill (grid0.coords t) d1 (win0_1.cut (grid0.coords t) ((dats VV 0 c).after 1 t)))
    rw [after_1, Window.cut_fill]
  · iexists outOf (win0_0.fill (grid0.coords t) d0 ((win0_0.blk t).view.read (Elt F) (VV c main_v23)))
      (win0_1.fill (grid0.coords t) d1 ((win0_1.blk t).view.read (Elt F) (VV c main_v24)))
    change _ ⊢ owns (c : Thread nD τ) (win0_2.stage (cfg0.slots t 2)) fullShare
      (win0_2.fill (grid0.coords t)
        (outOf (win0_0.fill (grid0.coords t) d0 ((win0_0.blk t).view.read (Elt F) (VV c main_v23)))
          (win0_1.fill (grid0.coords t) d1 ((win0_1.blk t).view.read (Elt F) (VV c main_v24))))
        (win0_2.cut (grid0.coords t) ((dats VV 0 c).after 2 t)))
    rw [after_2, Window.cut_fill, ← out_cut (VV c main_v23) (VV c main_v24) t d0 d1, Window.fill_cut]

/-! ## The output array after the launch -/

/-- Every point writes back the block of the curve over the whole arrays, and the 31 blocks cover the output array:
    after the launch it holds the curve. -/
theorem final_out (c : Dev nD) :
    (dats VV 0 c).arrAt 2 cfg0.N = Cert.Growth.curve (VV c main_v23) (VV c main_v24) :=
  (dats VV 0 c).arrAt_eq_of_cover (2 : Fin 3) (Cert.Growth.curve (VV c main_v23) (VV c main_v24))
    (fun t _ => by
      show win0_2.cut (grid0.coords t) ((dats VV 0 c).after 2 t) = _
      rw [after_2, Window.cut_fill])
    cover2

end Data

end Cert.Kernel.Hand

end
-- ==== Proof.RunKB.lean ====
/-
  The kernel program's run, for every float instance: from any memory with zero counters every weakly fair
  execution of @main ends with the result array at the growth curve of the two arrays the pallas_call consumes —
  the table of group means with the offsets added, gathered per row into three long rows, and the abscissae as a
  vector — reshaped to one column, and with the six argument arrays as they were.

  The host operations before and after the one region are run by the library's theorem for a region between two
  stretches of host lines; the region's proof data and body obligation are those of the lanewise body, whose output
  blocks are blocks of one whole-array function (the curve), so the result array ends at that function.
-/
import proofs.«424391_j71622874628175_3_alg».proof.Proof.FrameKitB
import proofs.«424391_j71622874628175_3_alg».proof.Proof.BodyKB

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run to the library's post: every array of the pipeline at what the proof data computes, every other unscoped
    buffer as the host lines after the region leave it. -/
theorem run_main : θ_run defs (onTc (τ := τ) (main (F := F))) (s₀ m ρ)
    (Pipeline.FramePost cfgs (dats (V m)) 0 (Pipeline.afterTail₀ cfgs (dats (V m)) 0 (V0 m) [hostOps1])) :=
  Pipeline.θ_run_frame_around cfgs (dats (V m)) (0 : Fin 1) launch0 defs₀ Variants.none m ρ main
    (hbody := body_obligation (V m)) (hshare := fun c => (dats (V m) 0 c).share_full fun _ => rfl)
    (howed := fun _ _ => rfl) (V₀ := V0 m) (opss := [hostOps1]) (hsub := sfx_sub) (hfresh := sfx_fresh) (hkeep := sfx_keeps)
    (hmain := hmain m Variants.none) (hA := A_eq (V m)) (hΦ := fun _ _ => rfl)

/-- The run read at the result and the arguments: the result is the curve of the region's two input arrays as one
    column; the arguments end as launched. -/
theorem run_value : θ_run defs (onTc (τ := τ) (main (F := F))) ⟨m, fun _ => 0, ρ⟩ (fun r => ∀ c : Dev nD,
      r.2.mem ((c.tc : Thread nD τ).loc main_v26)
          = shapeCast S8000000x1 (Cert.Growth.curve (V m c main_v23) (V m c main_v24)) shapeCasts_S8000000_S8000000x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have hp := frame_post m (dats (V m)) r h c
    rw [final_out (V m) c] at hp
    exact hp) (run_main m ρ)

end Cert.Kernel.Hand

end
-- ==== Proof.KDefs.lean ====
/-
  Two intermediate arrays of the kernel's host program, named so that the modules about them agree on their terms:
  the group words clipped into `[0, 99999]` (`zclip`), and the table the one accumulation leaves (`sc4`): the
  measurements with a fourth column of ones, added row by row into a [100000, 4] table of zeros at the row's clipped
  group — columns 0 to 2 the groups' sums, column 3 their counts.
-/
import proofs.«424391_j71622874628175_3_alg».proof.KernelIdeal
import proofs.«424391_j71622874628175_3_alg».proof.Proof.Spec

noncomputable section

namespace Cert.KernelIdeal.Hand

open Cert.KernelIdeal Cert.KernelIdeal.Facts₀ Idealize.ShloMosaic

variable {F : FTy → Type} [FloatOps F] [Facts]

/-- The group words clipped: `min 99999 (max 0 Z)`, signed, word by word (the converts of the two bounds are the
    identity and are written as such, as the program's run leaves them). -/
def zclip (Z : IVec S8000000 32) : IVec S8000000 32 :=
  minsi (broadcastInDim S8000000 ![] bcast_S_S8000000 (id (constantI S_ 32 99999#32)))
    (maxsi (broadcastInDim S8000000 ![] bcast_S_S8000000 (id (constantI S_ 32 0#32))) Z)

/-- The measurements with a column of ones appended: [8000000, 4]. -/
def aug (M : FVec F S8000000x3 .f32) : FVec F S8000000x4 .f32 :=
  concatenate S8000000x4 1 [⟨S8000000x3, M⟩, ⟨S8000000x1, broadcastInDim S8000000x1 ![] bcast_S_S8000000x1 (constant S_ .f32 0x3F800000#32)⟩]
    concatenates_S8000000x3_S8000000x1_S8000000x4_d1

/-- The accumulated table: `aug M` added row by row into zeros at the clipped group words. -/
def sc4 (Z : IVec S8000000 32) (M : FVec F S8000000x3 .f32) : FVec F S100000x4 .f32 :=
  Host.scatterAdd scatter_S100000x4_S8000000x1_S8000000x4_1_0_0_1
    (broadcastInDim S100000x4 ![] bcast_S_S100000x4 (constant S_ .f32 0x00000000#32))
    (broadcastInDim S8000000x1 ![0] bcast_S8000000_S8000000x1_0 (zclip Z))
    (aug M)

end Cert.KernelIdeal.Hand

end
-- ==== Proof.LibNary3.lean ====
import Idealize.ShloMosaic.Lib.StableHlo.Run

noncomputable section

namespace Idealize.ShloMosaic.StableHlo

variable {τ : Topo} {sig : RefSig} {Val : EltTy → Type}
variable {x a b y : Ref sig .tc}

/-- An operation over a LITERAL family of three references (a concatenate of three operands, written
    `nary ![x, a, b] …`) leaves at its result buffer its function applied to the three operands' contents, each read
    AT ITS OWN REFERENCE: `Fin.cons (F ↑x) (Fin.cons (F ↑a) (Fin.cons (F ↑b) _))` in place of
    `fun k => F ↑(![x, a, b] k)`. The two families agree at each of the three indices, which is all a function of a
    family can see. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.HostValK.lean ====
/-
  What the host program leaves in the two arrays the one launch consumes, as functions of the arguments.

  `zbtOf Z M β₁ β₂ β₃` is the [3, 8000000] table: row k, column n holds the k-th group mean of row n's group plus the
  k-th offset. It is composed, operation by operation, of: the accumulated table `sc4 Z M` ([100000, 4]: three sums
  and a count per group); the means `meansOf` (sum / max(count, 1) where the count is positive, else 0); the offsets
  added and the table transposed (`tableT`, [3, 100000]); the column index `gidx` (the clipped word, a negative one
  moved up by 100000) and its in-range mask `inMask`; the gather of the columns, with the quiet-NaN word where the
  mask is off (`takeOf`).
-/
import proofs.«424391_j71622874628175_3_alg».proof.Proof.KDefs
import proofs.«424391_j71622874628175_3_alg».proof.Proof.LibNary3
import proofs.«424391_j71622874628175_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Facts₀ Idealize.ShloMosaic Idealize.ShloMosaic.TcCoe
open Cert.KernelIdeal.Gen (hostOps0 hostOps0_1 hostOps0_2 hostOps0_3 hostOps0_4 hostOps0_5 hostOps0_6)
open Idealize.ShloMosaic.StableHlo

variable {F : FTy → Type} [FloatOps F]

/-! ## The composed terms -/

/-- The groups' counts as a vector: column 3 of an accumulated [100000, 4] table. -/
def cntOf (T : FVec F S100000x4 .f32) : FVec F S100000 .f32 :=
  shapeCast S100000 (extractStridedSlice S100000x1 ![0, 3] T slices_S100000x4_S100000x1_0_3) shapeCasts_S100000x1_S100000

/-- The groups' means, [100000, 3], from the accumulated table: where the count is positive the sums (columns 0 to 2)
    over `max(count, 1)`, elsewhere 0. -/
def meansOf (T : FVec F S100000x4 .f32) : FVec F S100000x3 .f32 :=
  select
    (broadcastInDim S100000x3 ![0, 1] bcast_S100000x1_S100000x3_0_1
      (cmpf .ogt (broadcastInDim S100000x1 ![0] bcast_S100000_S100000x1_0 (cntOf T))
        (broadcastInDim S100000x1 ![] bcast_S_S100000x1 (constant S_ .f32 0x00000000#32))))
    (Host.divf (extractStridedSlice S100000x3 ![0, 0] T slices_S100000x4_S100000x3_0_0)
      (broadcastInDim S100000x3 ![0, 1] bcast_S100000x1_S100000x3_0_1
        (broadcastInDim S100000x1 ![0] bcast_S100000_S100000x1_0
          (maximumf (cntOf T) (broadcastInDim S100000 ![] bcast_S_S100000 (constant S_ .f32 0x3F800000#32))))))
    (broadcastInDim S100000x3 ![] bcast_S_S100000x3 (id (constant S_ .f32 0x00000000#32)))

/-- The means with the three offsets added column by column, transposed: [3, 100000]. -/
def tableT (B : FVec F S100000x3 .f32) (b3 b4 b5 : FVec F S1 .f32) : FVec F S3x100000 .f32 :=
  transpose S3x100000 [1, 0]
    (addf B
      (broadcastInDim S100000x3 ![0, 1] bcast_S1x3_S100000x3_0_1
        (shapeCast S1x3 (concatenate S3 0 [⟨S1, b3⟩, ⟨S1, b4⟩, ⟨S1, b5⟩] concatenates_S1_S1_S1_S3_d0) shapeCasts_S3_S1x3)))
    transposes_S100000x3_S3x100000_1_0

/-- The column index, [8000000, 1], of a vector of group words: the word, a negative one moved up by 100000. -/
def gidx (z : IVec S8000000 32) : IVec S8000000x1 32 :=
  broadcastInDim S8000000x1 ![0] bcast_S8000000_S8000000x1_0
    (select (cmpi .slt z (broadcastInDim S8000000 ![] bcast_S_S8000000 (constantI S_ 32 0#32)))
      (addi z (broadcastInDim S8000000 ![] bcast_S_S8000000 (constantI S_ 32 100000#32)))
      z)

/-- The in-range mask of the column index, [8000000]: `0 ≤ index ≤ 99999`, signed, conjoined over the one index
    component. -/
def inMask (z : IVec S8000000 32) : IVec S8000000 1 :=
  Host.reduce IntOp.andi
    (andi (cmpi .sge (gidx z) (broadcastInDim S8000000x1 ![] bcast_S_S8000000x1 (constantI S_ 32 0#32)))
      (cmpi .sle (gidx z)
        (broadcastInDim S8000000x1 ![0, 1] bcast_S1x1_S8000000x1_0_1
          (broadcastInDim S1x1 ![1] bcast_S1_S1x1_1 (constantI S1 32 99999#32)))))
    (constantI S_ 1 1#1) reducesTo_S8000000x1_S8000000_d1 h_S_

/-- The columns of a [3, 100000] table taken at a vector of group words, [3, 8000000]: column n is column
    `gidx z n` of the table where that index is in range, the quiet-NaN word elsewhere. -/
def takeOf (T : FVec F S3x100000 .f32) (z : IVec S8000000 32) : FVec F S3x8000000 .f32 :=
  select (broadcastInDim S3x8000000 ![1] bcast_S8000000_S3x8000000_1 (inMask z))
    (Host.gather gather_S3x100000_S8000000x1_S3x8000000_0_1_n_n_1_1_31 T (gidx z))
    (broadcastInDim S3x8000000 ![] bcast_S_S3x8000000 (constant S_ .f32 0x7FC00000#32))

/-- The [3, 8000000] table the launch reads: the offset means of the accumulated table, taken at the clipped group
    words. -/
def zbtOf (Z : IVec S8000000 32) (M : FVec F S8000000x3 .f32) (b3 b4 b5 : FVec F S1 .f32) : FVec F S3x8000000 .f32 :=
  takeOf (tableT (meansOf (sc4 Z M)) b3 b4 b5) (zclip Z)

/-! ## The host stretch, run in two halves

The first half (the clip, the accumulation, the means: 33 operations) leaves the clipped words and the means and keeps
the offsets; the second (the offsets added, the transpose, the take, the abscissa's reshape: 29 operations) reads those
five arrays. Each half is stated over any starting contents `W`; the whole stretch is the second half from what the
first leaves (`StableHlo.after_append`). -/

/-- The first half of the stretch. -/
abbrev hostA : List (HloOp τ sig (Elt F)) := hostOps0 ++ hostOps0_1 ++ hostOps0_2 ++ hostOps0_3
/-- The second half of the stretch. -/
abbrev hostB : List (HloOp τ sig (Elt F)) := hostOps0_4 ++ hostOps0_5 ++ hostOps0_6

theorem hostAll_eq : (List.flatten [hostOps0, hostOps0_1, hostOps0_2, hostOps0_3, hostOps0_4, hostOps0_5, hostOps0_6] : List (HloOp τ sig (Elt F)))
    = hostA ++ hostB := by
  simp only [hostA, hostB, List.flatten_cons, List.flatten_nil, List.append_nil, List.append_assoc]

/-- A three-operand operation leaves at its result buffer its function of the three operands' contents, each read at
    its own reference. -/
private theorem nary3_result_at {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

set_option maxRecDepth 8192 in
set_option maxHeartbeats 4000000 in
/-- After the first half the clipped words' buffer holds `zclip` of the group words. -/
theorem hostA_v0 (W : Valuation τ sig (Elt F)) :
    StableHlo.after hostA W (Proc.devRef .tc main_v0) = zclip (W (Proc.devRef .tc main_arg1)) := by
  simp only [hostA, hostOps0, hostOps0_1, hostOps0_2, hostOps0_3, List.cons_append, List.nil_append]
  after_results_simp
  simp only [TRef.ofBuf, TRef.toBuf, cast_eq]
  rfl

set_option maxRecDepth 8192 in
set_option maxHeartbeats 4000000 in
/-- After the first half the means' buffer holds the means of the accumulated table: the accumulation's two pieces
    are the measurements, which no operation before it writes, and the broadcast of the word for 1. -/
theorem hostA_v17 (W : Valuation τ sig (Elt F)) :
    StableHlo.after hostA W (Proc.devRef .tc main_v17)
      = meansOf (sc4 (W (Proc.devRef .tc main_arg1)) (W (Proc.devRef .tc main_arg2))) := by
  simp only [hostA, hostOps0, hostOps0_1, hostOps0_2, hostOps0_3, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [TRef.ofBuf, TRef.toBuf, cast_eq]
  rfl

set_option maxRecDepth 8192 in
set_option maxHeartbeats 4000000 in
/-- The first half writes none of the three offsets. -/
theorem hostA_arg3 (W : Valuation τ sig (Elt F)) :
    StableHlo.after hostA W (Proc.devRef .tc main_arg3) = W (Proc.devRef .tc main_arg3) := by
  simp only [hostA, hostOps0, hostOps0_1, hostOps0_2, hostOps0_3, List.cons_append, List.nil_append]
  after_results_simp

set_option maxRecDepth 8192 in
set_option maxHeartbeats 4000000 in
theorem hostA_arg4 (W : Valuation τ sig (Elt F)) :
    StableHlo.after hostA W (Proc.devRef .tc main_arg4) = W (Proc.devRef .tc main_arg4) := by
  simp only [hostA, hostOps0, hostOps0_1, hostOps0_2, hostOps0_3, List.cons_append, List.nil_append]
  after_results_simp

set_option maxRecDepth 8192 in
set_option maxHeartbeats 4000000 in
theorem hostA_arg5 (W : Valuation τ sig (Elt F)) :
    StableHlo.after hostA W (Proc.devRef .tc main_arg5) = W (Proc.devRef .tc main_arg5) := by
  simp only [hostA, hostOps0, hostOps0_1, hostOps0_2, hostOps0_3, List.cons_append, List.nil_append]
  after_results_simp

/-- The take's 23 operations spelt over plain references: a typed reference made of a literal one moves contents
    along an identity, so each operation is the plain builder's at the same function. -/
abbrev takeOps : List (HloOp τ sig (Elt F)) :=
  [ StableHlo.nullary main_call2_c (constantI S_ 32 0#32 : (⟨S_, .i32⟩ : BufTy).Contents (Elt F)),
    StableHlo.unary main_call2_c main_call2_v0 (broadcastInDim S8000000 ![] bcast_S_S8000000 : (⟨S_, .i32⟩ : BufTy).Contents (Elt F) → (⟨S8000000, .i32⟩ : BufTy).Contents (Elt F)),
    StableHlo.binary main_v0 main_call2_v0 main_call2_v1 (cmpi .slt : (⟨S8000000, .i32⟩ : BufTy).Contents (Elt F) → (⟨S8000000, .i32⟩ : BufTy).Contents (Elt F) → (⟨S8000000, .i1⟩ : BufTy).Contents (Elt F)),
    StableHlo.nullary main_call2_c_0 (constantI S_ 32 100000#32 : (⟨S_, .i32⟩ : BufTy).Contents (Elt F)),
    StableHlo.unary main_call2_c_0 main_call2_v2 (broadcastInDim S8000000 ![] bcast_S_S8000000 : (⟨S_, .i32⟩ : BufTy).Contents (Elt F) → (⟨S8000000, .i32⟩ : BufTy).Contents (Elt F)),
    StableHlo.binary main_v0 main_call2_v2 main_call2_v3 (addi : (⟨S8000000, .i32⟩ : BufTy).Contents (Elt F) → (⟨S8000000, .i32⟩ : BufTy).Contents (Elt F) → (⟨S8000000, .i32⟩ : BufTy).Contents (Elt F)),
    StableHlo.ternary main_call2_v1 main_call2_v3 main_v0 main_call2_v4 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_call2_v4 main_call2_v5 (broadcastInDim S8000000x1 ![0] bcast_S8000000_S8000000x1_0 : (⟨S8000000, .i32⟩ : BufTy).Contents (Elt F) → (⟨S8000000x1, .i32⟩ : BufTy).Contents (Elt F)),
    StableHlo.nullary main_call2_c_1 (constantI S1 32 99999#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 (broadcastInDim S8000000x1 ![] bcast_S_S8000000x1 : (⟨S_, .i32⟩ : BufTy).Contents (Elt F) → (⟨S8000000x1, .i32⟩ : BufTy).Contents (Elt F)),
    StableHlo.binary main_call2_v5 main_call2_v6 main_call2_v7 (cmpi .sge : (⟨S8000000x1, .i32⟩ : BufTy).Contents (Elt F) → (⟨S8000000x1, .i32⟩ : BufTy).Contents (Elt F) → (⟨S8000000x1, .i1⟩ : BufTy).Contents (Elt F)),
    StableHlo.unary main_call2_c_1 main_call2_v8 (broadcastInDim S1x1 ![1] bcast_S1_S1x1_1 : (⟨S1, .i32⟩ : BufTy).Contents (Elt F) → (⟨S1x1, .i32⟩ : BufTy).Contents (Elt F)),
    StableHlo.unary main_call2_v8 main_call2_v9 (broadcastInDim S8000000x1 ![0, 1] bcast_S1x1_S8000000x1_0_1 : (⟨S1x1, .i32⟩ : BufTy).Contents (Elt F) → (⟨S8000000x1, .i32⟩ : BufTy).Contents (Elt F)),
    StableHlo.binary main_call2_v5 main_call2_v9 main_call2_v10 (cmpi .sle : (⟨S8000000x1, .i32⟩ : BufTy).Contents (Elt F) → (⟨S8000000x1, .i32⟩ : BufTy).Contents (Elt F) → (⟨S8000000x1, .i1⟩ : BufTy).Contents (Elt F)),
    StableHlo.binary main_call2_v7 main_call2_v10 main_call2_v11 (andi : (⟨S8000000x1, .i1⟩ : BufTy).Contents (Elt F) → (⟨S8000000x1, .i1⟩ : BufTy).Contents (Elt F) → (⟨S8000000x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 (fun x v => Host.reduce IntOp.andi x v reducesTo_S8000000x1_S8000000_d1 h_S_ : (⟨S8000000x1, .i1⟩ : BufTy).Contents (Elt F) → (⟨S_, .i1⟩ : BufTy).Contents (Elt F) → (⟨S8000000, .i1⟩ : BufTy).Contents (Elt F)),
    StableHlo.binary main_v22 main_call2_v5 main_call2_v13 (fun x i => Host.gather gather_S3x100000_S8000000x1_S3x8000000_0_1_n_n_1_1_31 x i : (⟨S3x100000, .f32⟩ : BufTy).Contents (Elt F) → (⟨S8000000x1, .i32⟩ : BufTy).Contents (Elt F) → (⟨S3x8000000, .f32⟩ : BufTy).Contents (Elt F)),
    StableHlo.unary main_call2_v12 main_call2_v14 (broadcastInDim S3x8000000 ![1] bcast_S8000000_S3x8000000_1 : (⟨S8000000, .i1⟩ : BufTy).Contents (Elt F) → (⟨S3x8000000, .i1⟩ : BufTy).Contents (Elt F)),
    StableHlo.nullary main_call2_cst (constant S_ .f32 0x7FC00000#32 : (⟨S_, .f32⟩ : BufTy).Contents (Elt F)),
    StableHlo.unary main_call2_cst main_call2_v15 (broadcastInDim S3x8000000 ![] bcast_S_S3x8000000 : (⟨S_, .f32⟩ : BufTy).Contents (Elt F) → (⟨S3x8000000, .f32⟩ : BufTy).Contents (Elt F)),
    StableHlo.ternary main_call2_v14 main_call2_v13 main_call2_v15 main_v23 (select : (⟨S3x8000000, .i1⟩ : BufTy).Contents (Elt F) → (⟨S3x8000000, .f32⟩ : BufTy).Contents (Elt F) → (⟨S3x8000000, .f32⟩ : BufTy).Contents (Elt F) → (⟨S3x8000000, .f32⟩ : BufTy).Contents (Elt F)) ]

/-! Operation by operation the two spellings agree: contents moved along an identity are the contents (for the
    conjunction over the index component this holds of any function `g` in the fold's place). -/

private theorem take_op0 : (StableHlo.TRef.nullary (.of main_call2_c : StableHlo.TRef sig ⟨S_, .i32⟩) (constantI S_ 32 0#32) : HloOp τ sig (Elt F))
    = StableHlo.nullary main_call2_c (constantI S_ 32 0#32 : (⟨S_, .i32⟩ : BufTy).Contents (Elt F)) := rfl

private theorem take_op1 : (StableHlo.TRef.unary (.of main_call2_c : StableHlo.TRef sig ⟨S_, .i32⟩) (.of main_call2_v0 : StableHlo.TRef sig ⟨S8000000, .i32⟩) (broadcastInDim S8000000 ![] bcast_S_S8000000) : HloOp τ sig (Elt F))
    = StableHlo.unary main_call2_c main_call2_v0 (broadcastInDim S8000000 ![] bcast_S_S8000000 : (⟨S_, .i32⟩ : BufTy).Contents (Elt F) → (⟨S8000000, .i32⟩ : BufTy).Contents (Elt F)) := rfl

private theorem take_op2 : (StableHlo.TRef.binary (.of main_v0 : StableHlo.TRef sig ⟨S8000000, .i32⟩) (.of main_call2_v0 : StableHlo.TRef sig ⟨S8000000, .i32⟩) (.of main_call2_v1 : StableHlo.TRef sig ⟨S8000000, .i1⟩) (cmpi .slt) : HloOp τ sig (Elt F))
    = StableHlo.binary main_v0 main_call2_v0 main_call2_v1 (cmpi .slt : (⟨S8000000, .i32⟩ : BufTy).Contents (Elt F) → (⟨S8000000, .i32⟩ : BufTy).Contents (Elt F) → (⟨S8000000, .i1⟩ : BufTy).Contents (Elt F)) := rfl

private theorem take_op3 : (StableHlo.TRef.nullary (.of main_call2_c_0 : StableHlo.TRef sig ⟨S_, .i32⟩) (constantI S_ 32 100000#32) : HloOp τ sig (Elt F))
    = StableHlo.nullary main_call2_c_0 (constantI S_ 32 100000#32 : (⟨S_, .i32⟩ : BufTy).Contents (Elt F)) := rfl

private theorem take_op4 : (StableHlo.TRef.unary (.of main_call2_c_0 : StableHlo.TRef sig ⟨S_, .i32⟩) (.of main_call2_v2 : StableHlo.TRef sig ⟨S8000000, .i32⟩) (broadcastInDim S8000000 ![] bcast_S_S8000000) : HloOp τ sig (Elt F))
    = StableHlo.unary main_call2_c_0 main_call2_v2 (broadcastInDim S8000000 ![] bcast_S_S8000000 : (⟨S_, .i32⟩ : BufTy).Contents (Elt F) → (⟨S8000000, .i32⟩ : BufTy).Contents (Elt F)) := rfl

private theorem take_op5 : (StableHlo.TRef.binary (.of main_v0 : StableHlo.TRef sig ⟨S8000000, .i32⟩) (.of main_call2_v2 : StableHlo.TRef sig ⟨S8000000, .i32⟩) (.of main_call2_v3 : StableHlo.TRef sig ⟨S8000000, .i32⟩) addi : HloOp τ sig (Elt F))
    = StableHlo.binary main_v0 main_call2_v2 main_call2_v3 (addi : (⟨S8000000, .i32⟩ : BufTy).Contents (Elt F) → (⟨S8000000, .i32⟩ : BufTy).Contents (Elt F) → (⟨S8000000, .i32⟩ : BufTy).Contents (Elt F)) := rfl

private theorem take_op6 : (StableHlo.TRef.ternary (.of main_call2_v1 : StableHlo.TRef sig ⟨S8000000, .i1⟩) (.of main_call2_v3 : StableHlo.TRef sig ⟨S8000000, .i32⟩) (.of main_v0 : StableHlo.TRef sig ⟨S8000000, .i32⟩) (.of main_call2_v4 : StableHlo.TRef sig ⟨S8000000, .i32⟩) select : HloOp τ sig (Elt F))
    = StableHlo.ternary main_call2_v1 main_call2_v3 main_v0 main_call2_v4 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)) := rfl

private theorem take_op7 : (StableHlo.TRef.unary main_call2_call0.v0 (.of main_call2_v5 : StableHlo.TRef sig ⟨S8000000x1, .i32⟩) (broadcastInDim S8000000x1 ![0] bcast_S8000000_S8000000x1_0) : HloOp τ sig (Elt F))
    = StableHlo.unary main_call2_v4 main_call2_v5 (broadcastInDim S8000000x1 ![0] bcast_S8000000_S8000000x1_0 : (⟨S8000000, .i32⟩ : BufTy).Contents (Elt F) → (⟨S8000000x1, .i32⟩ : BufTy).Contents (Elt F)) := rfl

private theorem take_op8 : (StableHlo.TRef.nullary (.of main_call2_c_1 : StableHlo.TRef sig ⟨S1, .i32⟩) (constantI S1 32 99999#32) : HloOp τ sig (Elt F))
    = StableHlo.nullary main_call2_c_1 (constantI S1 32 99999#32 : (⟨S1, .i32⟩ : BufTy).Contents (Elt F)) := rfl

private theorem take_op9 : (StableHlo.TRef.nullary (.of main_call2_c_2 : StableHlo.TRef sig ⟨S_, .i32⟩) (constantI S_ 32 0#32) : HloOp τ sig (Elt F))
    = StableHlo.nullary main_call2_c_2 (constantI S_ 32 0#32 : (⟨S_, .i32⟩ : BufTy).Contents (Elt F)) := rfl

private theorem take_op10 : (StableHlo.TRef.unary (.of main_call2_c_2 : StableHlo.TRef sig ⟨S_, .i32⟩) (.of main_call2_v6 : StableHlo.TRef sig ⟨S8000000x1, .i32⟩) (broadcastInDim S8000000x1 ![] bcast_S_S8000000x1) : HloOp τ sig (Elt F))
    = StableHlo.unary main_call2_c_2 main_call2_v6 (broadcastInDim S8000000x1 ![] bcast_S_S8000000x1 : (⟨S_, .i32⟩ : BufTy).Contents (Elt F) → (⟨S8000000x1, .i32⟩ : BufTy).Contents (Elt F)) := rfl

private theorem take_op11 : (StableHlo.TRef.binary (.of main_call2_v5 : StableHlo.TRef sig ⟨S8000000x1, .i32⟩) (.of main_call2_v6 : StableHlo.TRef sig ⟨S8000000x1, .i32⟩) (.of main_call2_v7 : StableHlo.TRef sig ⟨S8000000x1, .i1⟩) (cmpi .sge) : HloOp τ sig (Elt F))
    = StableHlo.binary main_call2_v5 main_call2_v6 main_call2_v7 (cmpi .sge : (⟨S8000000x1, .i32⟩ : BufTy).Contents (Elt F) → (⟨S8000000x1, .i32⟩ : BufTy).Contents (Elt F) → (⟨S8000000x1, .i1⟩ : BufTy).Contents (Elt F)) := rfl

private theorem take_op12 : (StableHlo.TRef.unary (.of main_call2_c_1 : StableHlo.TRef sig ⟨S1, .i32⟩) (.of main_call2_v8 : StableHlo.TRef sig ⟨S1x1, .i32⟩) (broadcastInDim S1x1 ![1] bcast_S1_S1x1_1) : HloOp τ sig (Elt F))
    = StableHlo.unary main_call2_c_1 main_call2_v8 (broadcastInDim S1x1 ![1] bcast_S1_S1x1_1 : (⟨S1, .i32⟩ : BufTy).Contents (Elt F) → (⟨S1x1, .i32⟩ : BufTy).Contents (Elt F)) := rfl

private theorem take_op13 : (StableHlo.TRef.unary (.of main_call2_v8 : StableHlo.TRef sig ⟨S1x1, .i32⟩) (.of main_call2_v9 : StableHlo.TRef sig ⟨S8000000x1, .i32⟩) (broadcastInDim S8000000x1 ![0, 1] bcast_S1x1_S8000000x1_0_1) : HloOp τ sig (Elt F))
    = StableHlo.unary main_call2_v8 main_call2_v9 (broadcastInDim S8000000x1 ![0, 1] bcast_S1x1_S8000000x1_0_1 : (⟨S1x1, .i32⟩ : BufTy).Contents (Elt F) → (⟨S8000000x1, .i32⟩ : BufTy).Contents (Elt F)) := rfl

private theorem take_op14 : (StableHlo.TRef.binary (.of main_call2_v5 : StableHlo.TRef sig ⟨S8000000x1, .i32⟩) (.of main_call2_v9 : StableHlo.TRef sig ⟨S8000000x1, .i32⟩) (.of main_call2_v10 : StableHlo.TRef sig ⟨S8000000x1, .i1⟩) (cmpi .sle) : HloOp τ sig (Elt F))
    = StableHlo.binary main_call2_v5 main_call2_v9 main_call2_v10 (cmpi .sle : (⟨S8000000x1, .i32⟩ : BufTy).Contents (Elt F) → (⟨S8000000x1, .i32⟩ : BufTy).Contents (Elt F) → (⟨S8000000x1, .i1⟩ : BufTy).Contents (Elt F)) := rfl

private theorem take_op15 : (StableHlo.TRef.binary (.of main_call2_v7 : StableHlo.TRef sig ⟨S8000000x1, .i1⟩) (.of main_call2_v10 : StableHlo.TRef sig ⟨S8000000x1, .i1⟩) (.of main_call2_v11 : StableHlo.TRef sig ⟨S8000000x1, .i1⟩) andi : HloOp τ sig (Elt F))
    = StableHlo.binary main_call2_v7 main_call2_v10 main_call2_v11 (andi : (⟨S8000000x1, .i1⟩ : BufTy).Contents (Elt F) → (⟨S8000000x1, .i1⟩ : BufTy).Contents (Elt F) → (⟨S8000000x1, .i1⟩ : BufTy).Contents (Elt F)) := rfl

private theorem take_op16 : (StableHlo.TRef.nullary (.of main_call2_c_3 : StableHlo.TRef sig ⟨S_, .i1⟩) (constantI S_ 1 1#1) : HloOp τ sig (Elt F))
    = StableHlo.nullary main_call2_c_3 (constantI S_ 1 1#1 : (⟨S_, .i1⟩ : BufTy).Contents (Elt F)) := rfl

private theorem take_op17 : (StableHlo.TRef.binary (.of main_call2_v11 : StableHlo.TRef sig ⟨S8000000x1, .i1⟩) (.of main_call2_c_3 : StableHlo.TRef sig ⟨S_, .i1⟩) (.of main_call2_v12 : StableHlo.TRef sig ⟨S8000000, .i1⟩) (fun x v => Host.reduce IntOp.andi x v reducesTo_S8000000x1_S8000000_d1 h_S_) : HloOp τ sig (Elt F))
    = StableHlo.binary main_call2_v11 main_call2_c_3 main_call2_v12 (fun x v => Host.reduce IntOp.andi x v reducesTo_S8000000x1_S8000000_d1 h_S_ : (⟨S8000000x1, .i1⟩ : BufTy).Contents (Elt F) → (⟨S_, .i1⟩ : BufTy).Contents (Elt F) → (⟨S8000000, .i1⟩ : BufTy).Contents (Elt F)) := by
  generalize (fun (x : (⟨S8000000x1, .i1⟩ : BufTy).Contents (Elt F)) (v : (⟨S_, .i1⟩ : BufTy).Contents (Elt F)) => Host.reduce IntOp.andi x v reducesTo_S8000000x1_S8000000_d1 h_S_) = g
  rfl

private theorem take_op18 : (StableHlo.TRef.binary (.of main_v22 : StableHlo.TRef sig ⟨S3x100000, .f32⟩) (.of main_call2_v5 : StableHlo.TRef sig ⟨S8000000x1, .i32⟩) (.of main_call2_v13 : StableHlo.TRef sig ⟨S3x8000000, .f32⟩) (fun x i => Host.gather gather_S3x100000_S8000000x1_S3x8000000_0_1_n_n_1_1_31 x i) : HloOp τ sig (Elt F))
    = StableHlo.binary main_v22 main_call2_v5 main_call2_v13 (fun x i => Host.gather gather_S3x100000_S8000000x1_S3x8000000_0_1_n_n_1_1_31 x i : (⟨S3x100000, .f32⟩ : BufTy).Contents (Elt F) → (⟨S8000000x1, .i32⟩ : BufTy).Contents (Elt F) → (⟨S3x8000000, .f32⟩ : BufTy).Contents (Elt F)) := rfl

private theorem take_op19 : (StableHlo.TRef.unary (.of main_call2_v12 : StableHlo.TRef sig ⟨S8000000, .i1⟩) (.of main_call2_v14 : StableHlo.TRef sig ⟨S3x8000000, .i1⟩) (broadcastInDim S3x8000000 ![1] bcast_S8000000_S3x8000000_1) : HloOp τ sig (Elt F))
    = StableHlo.unary main_call2_v12 main_call2_v14 (broadcastInDim S3x8000000 ![1] bcast_S8000000_S3x8000000_1 : (⟨S8000000, .i1⟩ : BufTy).Contents (Elt F) → (⟨S3x8000000, .i1⟩ : BufTy).Contents (Elt F)) := rfl

private theorem take_op20 : (StableHlo.TRef.nullary (.of main_call2_cst : StableHlo.TRef sig ⟨S_, .f32⟩) (constant S_ .f32 0x7FC00000#32) : HloOp τ sig (Elt F))
    = StableHlo.nullary main_call2_cst (constant S_ .f32 0x7FC00000#32 : (⟨S_, .f32⟩ : BufTy).Contents (Elt F)) := rfl

private theorem take_op21 : (StableHlo.TRef.unary (.of main_call2_cst : StableHlo.TRef sig ⟨S_, .f32⟩) (.of main_call2_v15 : StableHlo.TRef sig ⟨S3x8000000, .f32⟩) (broadcastInDim S3x8000000 ![] bcast_S_S3x8000000) : HloOp τ sig (Elt F))
    = StableHlo.unary main_call2_cst main_call2_v15 (broadcastInDim S3x8000000 ![] bcast_S_S3x8000000 : (⟨S_, .f32⟩ : BufTy).Contents (Elt F) → (⟨S3x8000000, .f32⟩ : BufTy).Contents (Elt F)) := rfl

private theorem take_op22 : (StableHlo.TRef.ternary (.of main_call2_v14 : StableHlo.TRef sig ⟨S3x8000000, .i1⟩) (.of main_call2_v13 : StableHlo.TRef sig ⟨S3x8000000, .f32⟩) (.of main_call2_v15 : StableHlo.TRef sig ⟨S3x8000000, .f32⟩) (.of main_v23 : StableHlo.TRef sig ⟨S3x8000000, .f32⟩) select : HloOp τ sig (Elt F))
    = StableHlo.ternary main_call2_v14 main_call2_v13 main_call2_v15 main_v23 (select : (⟨S3x8000000, .i1⟩ : BufTy).Contents (Elt F) → (⟨S3x8000000, .f32⟩ : BufTy).Contents (Elt F) → (⟨S3x8000000, .f32⟩ : BufTy).Contents (Elt F) → (⟨S3x8000000, .f32⟩ : BufTy).Contents (Elt F)) := rfl

theorem hostOps0_5_eq : (hostOps0_5 : List (HloOp τ sig (Elt F))) = takeOps :=
  congrArg₂ List.cons take_op0 (congrArg₂ List.cons take_op1 (congrArg₂ List.cons take_op2 (congrArg₂ List.cons take_op3 (congrArg₂ List.cons take_op4 (congrArg₂ List.cons take_op5 (congrArg₂ List.cons take_op6 (congrArg₂ List.cons take_op7 (congrArg₂ List.cons take_op8 (congrArg₂ List.cons take_op9 (congrArg₂ List.cons take_op10 (congrArg₂ List.cons take_op11 (congrArg₂ List.cons take_op12 (congrArg₂ List.cons take_op13 (congrArg₂ List.cons take_op14 (congrArg₂ List.cons take_op15 (congrArg₂ List.cons take_op16 (congrArg₂ List.cons take_op17 (congrArg₂ List.cons take_op18 (congrArg₂ List.cons take_op19 (congrArg₂ List.cons take_op20 (congrArg₂ List.cons take_op21 (congrArg₂ List.cons take_op22 (rfl)))))))))))))))))))))))

set_option maxRecDepth 8192 in
set_option maxHeartbeats 4000000 in
/-- After the second half the launch's table holds the take, at the clipped words, of the offset means transposed. -/
theorem hostB_v23 (W : Valuation τ sig (Elt F)) :
    StableHlo.after hostB W (Proc.devRef .tc main_v23)
      = takeOf (tableT (W (Proc.devRef .tc main_v17)) (W (Proc.devRef .tc main_arg3)) (W (Proc.devRef .tc main_arg4))
          (W (Proc.devRef .tc main_arg5))) (W (Proc.devRef .tc main_v0)) := by
  rw [show (hostB : List (HloOp τ sig (Elt F))) = hostOps0_4 ++ takeOps ++ hostOps0_6 from
    congrArg (fun l => hostOps0_4 ++ l ++ hostOps0_6) hostOps0_5_eq]
  simp only [hostOps0_4, takeOps, hostOps0_6, List.cons_append, List.nil_append]
  simp (disch := decide) only [after_cons, after_nil,
      nullary_result', unary_result', binary_result', ternary_result', reshape_result', nary3_result_at,
      nullary_result_ne', unary_result_ne', binary_result_ne', ternary_result_ne', reshape_result_ne', nary_result_ne']
  rfl

/-- The table the launch reads, after the whole host stretch: `zbtOf` of the arguments. -/
theorem after_v23 (m : (ℓ : Loc nD τ sig) → Buf (Elt F) ℓ) (c : Dev nD) :
    StableHlo.after (List.flatten [hostOps0, hostOps0_1, hostOps0_2, hostOps0_3, hostOps0_4, hostOps0_5, hostOps0_6])
        (fun b => m (c, b)) (Proc.devRef .tc main_v23)
      = zbtOf (m ((c : Thread nD τ).loc main_arg1)) (m ((c : Thread nD τ).loc main_arg2))
          (m ((c : Thread nD τ).loc main_arg3)) (m ((c : Thread nD τ).loc main_arg4)) (m ((c : Thread nD τ).loc main_arg5)) := by
  rw [hostAll_eq, StableHlo.after_append, hostB_v23, hostA_v17, hostA_arg3, hostA_arg4, hostA_arg5, hostA_v0]
  rfl

set_option maxRecDepth 8192 in
set_option maxHeartbeats 4000000 in
/-- The abscissa vector: only the last operation (a reshape of the abscissa column) writes it. -/
theorem after_v24 (m : (ℓ : Loc nD τ sig) → Buf (Elt F) ℓ) (c : Dev nD) :
    StableHlo.after (List.flatten [hostOps0, hostOps0_1, hostOps0_2, hostOps0_3, hostOps0_4, hostOps0_5, hostOps0_6])
        (fun b => m (c, b)) (Proc.devRef .tc main_v24)
      = shapeCast S8000000 (m ((c : Thread nD τ).loc main_arg0)) shapeCasts_S8000000x1_S8000000 := by
  simp only [hostOps0, hostOps0_1, hostOps0_2, hostOps0_3, hostOps0_4, hostOps0_5, hostOps0_6,
    List.flatten_cons, List.flatten_nil, List.append_nil, List.cons_append, List.nil_append]
  after_results_simp
  rfl

end Cert.KernelIdeal.Hand

end
-- ==== Proof.KVal.lean ====
/-
  The two arrays the pallas_call consumes, as the region finds them after the host operations before it, are the
  functions of the arguments read back in Proof/HostValK.lean: the table of offset group means gathered per row, and
  the abscissae as a vector.
-/
import proofs.«424391_j71622874628175_3_alg».proof.Proof.FrameKit
import proofs.«424391_j71622874628175_3_alg».proof.Proof.HostValK

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The gathered table at the region's entry. -/
theorem V_v23 (c : Dev nD) :
    V m c main_v23 = zbtOf (m ((c : Thread nD τ).loc main_arg1)) (m ((c : Thread nD τ).loc main_arg2))
      (m ((c : Thread nD τ).loc main_arg3)) (m ((c : Thread nD τ).loc main_arg4)) (m ((c : Thread nD τ).loc main_arg5)) :=
  after_v23 m c

/-- The abscissa vector at the region's entry. -/
theorem V_v24 (c : Dev nD) :
    V m c main_v24 = shapeCast S8000000 (m ((c : Thread nD τ).loc main_arg0)) shapeCasts_S8000000x1_S8000000 :=
  after_v24 m c

end Cert.KernelIdeal.Hand

end
-- ==== Proof.ClipId.lean ====
/-
  Group words in range pass every index normalisation unchanged.

  A 32-bit word `w` whose signed reading lies in `[0, 100000)` is not negative, so the wrap of negative words by
  `+100000` keeps it; it lies between the bounds `0` and `99999`, so the clip `min 99999 (max 0 w)` keeps it; its
  reading as a natural number is below `100000`, so the clamp to the table's last row keeps it; and the mask
  `w ≥ 0 ∧ w ≤ 99999` is set. Each fact is argued through the signed reading `toInt` of the word and of the three
  literal bounds. The last statement lifts the clip to the whole vector of group words: on the domain `InRange` the
  clipped words are the words.
-/
import proofs.«424391_j71622874628175_3_alg».proof.Proof.KDefs
import Idealize.ShloMosaic.Lib.ValueIdx
import Idealize.ShloMosaic.Lib.Affine

noncomputable section

namespace Cert.Growth.Words

open Idealize.ShloMosaic

/-- The signed readings of the three literal bounds. -/
theorem toInt_lit_zero : (0#32 : BitVec 32).toInt = 0 := by decide
theorem toInt_lit_max : (99999#32 : BitVec 32).toInt = 99999 := by decide
theorem toInt_lit_q : (100000#32 : BitVec 32).toInt = 100000 := by decide

variable {w : BitVec 32}

/-- A word in range is not below zero, as a signed order fact. -/
theorem slt_zero_false (h : 0 ≤ w.toInt ∧ w.toInt < 100000) : w.slt 0#32 = false := by
  rw [Bool.eq_false_iff]
  intro hc
  rw [BitVec.slt_iff_toInt_lt, toInt_lit_zero] at hc
  omega

/-- The upper bound `99999` is not below a word in range, as a signed order fact. -/
theorem max_slt_false (h : 0 ≤ w.toInt ∧ w.toInt < 100000) : (99999#32 : BitVec 32).slt w = false := by
  rw [Bool.eq_false_iff]
  intro hc
  rw [BitVec.slt_iff_toInt_lt, toInt_lit_max] at hc
  omega

/-- `w < 0` (signed) is false. -/
theorem cmpi_slt_zero (h : 0 ≤ w.toInt ∧ w.toInt < 100000) : IntOp.cmpi .slt w 0#32 = 0#1 := by
  show BitVec.ofBool (w.slt 0#32) = 0#1
  rw [slt_zero_false h]
  rfl

/-- `w ≥ 0` (signed) is true. -/
theorem cmpi_sge_zero (h : 0 ≤ w.toInt ∧ w.toInt < 100000) : IntOp.cmpi .sge w 0#32 = 1#1 :=
  IntOp.cmpi_sge.mpr (by rw [toInt_lit_zero]; exact h.1)

/-- `w ≤ 99999` (signed) is true. -/
theorem cmpi_sle_max (h : 0 ≤ w.toInt ∧ w.toInt < 100000) : IntOp.cmpi .sle w 99999#32 = 1#1 :=
  IntOp.cmpi_sle.mpr (by rw [toInt_lit_max]; omega)

/-- `w < 100000` (signed) is true. -/
theorem cmpi_slt_q (h : 0 ≤ w.toInt ∧ w.toInt < 100000) : IntOp.cmpi .slt w 100000#32 = 1#1 :=
  IntOp.cmpi_slt.mpr (by rw [toInt_lit_q]; exact h.2)

/-- The wrap of negative words by `+100000` keeps a word in range: the select takes its second branch. -/
theorem wrap_keep (h : 0 ≤ w.toInt ∧ w.toInt < 100000) :
    Scalar.select (IntOp.cmpi .slt w 0#32) (IntOp.addi w 100000#32) w = w := by
  rw [cmpi_slt_zero h]
  unfold Scalar.select
  rw [if_neg (by decide)]

/-- The clip into `[0, 99999]` keeps a word in range: the maximum with `0` is the word, and so is the minimum of
    `99999` with it. -/
theorem clip_keep (h : 0 ≤ w.toInt ∧ w.toInt < 100000) : IntOp.minsi 99999#32 (IntOp.maxsi 0#32 w) = w := by
  have hmax : IntOp.maxsi 0#32 w = w := by
    unfold IntOp.maxsi
    rw [slt_zero_false h]
    rfl
  rw [hmax]
  unfold IntOp.minsi
  rw [max_slt_false h]
  rfl

/-- The clamp of the word's natural reading to the last table row keeps it, and the reading is a table row. -/
theorem clamp_keep (h : 0 ≤ w.toInt ∧ w.toInt < 100000) :
    min w.toInt.toNat (100000 - 1) = w.toInt.toNat ∧ w.toInt.toNat < 100000 := by
  omega

/-- The in-range mask `w ≥ 0 ∧ w ≤ 99999` is set. -/
theorem inrange_mask (h : 0 ≤ w.toInt ∧ w.toInt < 100000) :
    IntOp.andi (IntOp.cmpi .sge w 0#32) (IntOp.cmpi .sle w 99999#32) = 1#1 :=
  IntOp.andi_eq_one.mpr ⟨cmpi_sge_zero h, cmpi_sle_max h⟩

end Cert.Growth.Words

namespace Cert.KernelIdeal.Hand

open Cert.KernelIdeal Cert.KernelIdeal.Facts₀ Idealize.ShloMosaic Idealize.ShloMosaic.ValueIdx

variable [Facts]

/-- On the domain where every group word is in range the clipped words are the words: at row `n` both broadcast
    bounds read their literal, and the clip keeps the row's word. -/
theorem zclip_eq (Z : IVec S8000000 32) (hZ : Cert.Growth.InRange Z) : zclip Z = Z := by
  funext j
  obtain ⟨n, rfl⟩ : ∃ n : Fin 8000000, j = ix1 n := ⟨j 0, eq_ix1 j⟩
  show IntOp.minsi 99999#32 (IntOp.maxsi 0#32 (Z (ix1 n))) = Z (ix1 n)
  exact Cert.Growth.Words.clip_keep (hZ n)

end Cert.KernelIdeal.Hand

end
-- ==== Proof.HostValIdx.lean ====
/-
  The table the launch reads, at an index.

  Every operation between the accumulated table `sc4 Z M` ([100000, 4]: three sums and a count per group) and the
  [3, 8000000] table `zbtOf Z M β₁ β₂ β₃` is a layout operation, an elementwise one, or a take of columns at the group
  words. So on the domain where every group word lies in `[0, 100000)` an entry of `zbtOf` is one expression in two
  entries of `sc4` and one offset: at row `k`, column `n`, with `q` the group of row `n`,

      zbtOf Z M β₁ β₂ β₃ (k, n) = gmean (sc4 Z M (q, k)) (sc4 Z M (q, 3)) + β_k.

  The reads below are stated over literal row and column numbers and go operation by operation: the counts' vector,
  the means' table, the offsets' row and the transposed table; the column index (the wrap keeps a word in range), its
  in-range mask (set at every row), the take's operand index (the clamp keeps a word in range); then the assembly.
-/
import proofs.«424391_j71622874628175_3_alg».proof.Proof.HostValK
import proofs.«424391_j71622874628175_3_alg».proof.Proof.ClipId
import Idealize.ShloMosaic.PureOps.Reduce
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Facts₀ Idealize.ShloMosaic Idealize.ShloMosaic.TcCoe
open Idealize.ShloMosaic.ValueIdx

variable {F : FTy → Type} [FloatOps F]

/-! ## The means' table at an index -/

/-- The counts' vector at group `q`: column 3 of the table's row `q`. -/
theorem cntOf_apply (T : FVec F S100000x4 .f32) (q : Fin 100000) :
    cntOf T (ix1 q) = T (ix2 (n0 := 100000) (n1 := 4) q 3) := by
  unfold cntOf
  refine (shapeCast_apply _ shapeCasts_S100000x1_S100000 (ix1 q) (ix2 (n0 := 100000) (n1 := 1) q 0) ?_).trans ?_
  · rw [Shape.rowMajor_val_one, Shape.rowMajor_val_two]
    show q.val * 1 + 0 = q.val
    omega
  · exact extractStridedSlice_apply ![0, 3] T slices_S100000x4_S100000x1_0_3 _ (ix2 (n0 := 100000) (n1 := 4) q 3)
      (fun a => match a with
        | ⟨0, _⟩ => by show q.val = 0 + q.val; omega
        | ⟨1, _⟩ => by show 3 = 3 + 0; rfl)

/-- A [100000, 1] column spread over three columns, read at `(q, k)`: the column at `(q, 0)`. -/
theorem spread3_apply {α : Type} (x : S100000x1.Idx → α) (q : Fin 100000) (k : Fin 3) :
    broadcastInDim S100000x3 ![0, 1] bcast_S100000x1_S100000x3_0_1 x (ix2 (n0 := 100000) (n1 := 3) q k)
      = x (ix2 (n0 := 100000) (n1 := 1) q 0) :=
  broadcastInDim_apply ![0, 1] bcast_S100000x1_S100000x3_0_1 x _ (ix2 (n0 := 100000) (n1 := 1) q 0)
    (fun a => match a with
      | ⟨0, _⟩ => rfl
      | ⟨1, _⟩ => rfl)

/-- A vector of length 100000 stood up as a [100000, 1] column, read at `(q, c)`: the vector at `q`. -/
theorem column_apply {α : Type} (x : S100000.Idx → α) (q : Fin 100000) (c : Fin 1) :
    broadcastInDim S100000x1 ![0] bcast_S100000_S100000x1_0 x (ix2 (n0 := 100000) (n1 := 1) q c) = x (ix1 q) :=
  broadcastInDim_apply ![0] bcast_S100000_S100000x1_0 x _ (ix1 q)
    (fun a => match a with
      | ⟨0, _⟩ => rfl)

/-- The means' table at `(q, k)`: `gmean` of the group's k-th sum and its count. -/
theorem meansOf_apply (T : FVec F S100000x4 .f32) (q : Fin 100000) (k : Fin 3) :
    meansOf T (ix2 (n0 := 100000) (n1 := 3) q k)
      = Cert.Growth.gmean (T (ix2 (n0 := 100000) (n1 := 4) q ⟨k.val, by omega⟩)) (T (ix2 (n0 := 100000) (n1 := 4) q 3)) := by
  have hs : extractStridedSlice S100000x3 ![0, 0] T slices_S100000x4_S100000x3_0_0 (ix2 (n0 := 100000) (n1 := 3) q k)
      = T (ix2 (n0 := 100000) (n1 := 4) q ⟨k.val, by omega⟩) :=
    extractStridedSlice_apply ![0, 0] T slices_S100000x4_S100000x3_0_0 _ _
      (fun a => match a with
        | ⟨0, _⟩ => by show q.val = 0 + q.val; omega
        | ⟨1, _⟩ => by show k.val = 0 + k.val; omega)
  unfold meansOf Cert.Growth.gmean
  show Scalar.select
      (broadcastInDim (s := S100000x1) S100000x3 ![0, 1] bcast_S100000x1_S100000x3_0_1 _ (ix2 (n0 := 100000) (n1 := 3) q k))
      (FloatOps.hostDivf
        (extractStridedSlice S100000x3 ![0, 0] T slices_S100000x4_S100000x3_0_0 (ix2 (n0 := 100000) (n1 := 3) q k))
        (broadcastInDim (s := S100000x1) S100000x3 ![0, 1] bcast_S100000x1_S100000x3_0_1 _ (ix2 (n0 := 100000) (n1 := 3) q k)))
      (FloatOps.ofBits .f32 0x00000000#32) = _
  rw [hs, spread3_apply, spread3_apply, column_apply]
  show Scalar.select
      (FloatOps.cmpf .ogt (broadcastInDim S100000x1 ![0] bcast_S100000_S100000x1_0 (cntOf T) (ix2 (n0 := 100000) (n1 := 1) q 0))
        (FloatOps.ofBits .f32 0x00000000#32))
      (FloatOps.hostDivf _ (FloatOps.maximumf (cntOf T (ix1 q)) (FloatOps.ofBits .f32 0x3F800000#32)))
      _ = _
  rw [column_apply, cntOf_apply]

/-! ## The offset means' table at an index -/

/-- The three offsets set end to end, read at `k`: the one entry of the k-th offset. Piece `k` spans position `k`
    alone, the pieces before it one position each. -/
theorem offsets_apply (b3 b4 b5 : FVec F S1 .f32) (k : Fin 3) :
    concatenate S3 0 [⟨S1, b3⟩, ⟨S1, b4⟩, ⟨S1, b5⟩] concatenates_S1_S1_S1_S3_d0 (ix1 k)
      = (![b3, b4, b5] k) (ix1 0) := by
  match k with
  | ⟨0, _⟩ =>
    exact concatenate_apply_piece (t := S3) 0 [⟨S1, b3⟩, ⟨S1, b4⟩, ⟨S1, b5⟩] concatenates_S1_S1_S1_S3_d0 _ 0 (show (0 : Nat) < 3 by decide) S1 b3 rfl rfl 0 rfl (ix1 0)
      (fun b hb => absurd (Subsingleton.elim _ _) hb) rfl
  | ⟨1, _⟩ =>
    exact concatenate_apply_piece (t := S3) 0 [⟨S1, b3⟩, ⟨S1, b4⟩, ⟨S1, b5⟩] concatenates_S1_S1_S1_S3_d0 _ 1 (show (1 : Nat) < 3 by decide) S1 b4 rfl rfl 1 rfl (ix1 0)
      (fun b hb => absurd (Subsingleton.elim _ _) hb) rfl
  | ⟨2, _⟩ =>
    exact concatenate_apply_piece (t := S3) 0 [⟨S1, b3⟩, ⟨S1, b4⟩, ⟨S1, b5⟩] concatenates_S1_S1_S1_S3_d0 _ 2 (show (2 : Nat) < 3 by decide) S1 b5 rfl rfl 2 rfl (ix1 0)
      (fun b hb => absurd (Subsingleton.elim _ _) hb) rfl

/-- The offset means' table, transposed, at `(k, q)`: the mean at `(q, k)` plus the k-th offset. The transpose swaps
    the two coordinates; the offsets' [1, 3] row is read at `(0, k)` for every `q`, which is position `k` of the three
    offsets set end to end. -/
theorem tableT_apply (B : FVec F S100000x3 .f32) (b3 b4 b5 : FVec F S1 .f32) (k : Fin 3) (q : Fin 100000) :
    tableT B b3 b4 b5 (ix2 (n0 := 3) (n1 := 100000) k q)
      = FloatOps.addf (B (ix2 (n0 := 100000) (n1 := 3) q k)) ((![b3, b4, b5] k) (ix1 0)) := by
  unfold tableT
  refine (transpose_apply [1, 0] _ transposes_S100000x3_S3x100000_1_0 (ix2 (n0 := 3) (n1 := 100000) k q)
    (ix2 (n0 := 100000) (n1 := 3) q k) (fun b => match b with
      | ⟨0, _⟩ => rfl
      | ⟨1, _⟩ => rfl)).trans ?_
  show FloatOps.addf (B (ix2 (n0 := 100000) (n1 := 3) q k))
      (broadcastInDim (s := S1x3) S100000x3 ![0, 1] bcast_S1x3_S100000x3_0_1 _ (ix2 (n0 := 100000) (n1 := 3) q k)) = _
  congr 1
  refine (broadcastInDim_apply ![0, 1] bcast_S1x3_S100000x3_0_1 _ (ix2 (n0 := 100000) (n1 := 3) q k)
    (ix2 (n0 := 1) (n1 := 3) 0 k) (fun a => match a with
      | ⟨0, _⟩ => rfl
      | ⟨1, _⟩ => rfl)).trans ?_
  refine (shapeCast_apply _ shapeCasts_S3_S1x3 (ix2 (n0 := 1) (n1 := 3) 0 k) (ix1 k) ?_).trans (offsets_apply b3 b4 b5 k)
  rw [Shape.rowMajor_val_one, Shape.rowMajor_val_two]
  show k.val = 0 * 3 + k.val
  omega

/-! ## The column index and its mask -/

/-- The column index at row `n`: the wrap of the row's word. -/
theorem gidx_apply (z : IVec S8000000 32) (n : Fin 8000000) (c : Fin 1) :
    gidx z (ix2 (n0 := 8000000) (n1 := 1) n c)
      = Scalar.select (IntOp.cmpi .slt (z (ix1 n)) 0#32) (IntOp.addi (z (ix1 n)) 100000#32) (z (ix1 n)) := by
  unfold gidx
  exact (broadcastInDim_apply ![0] bcast_S8000000_S8000000x1_0 _ (ix2 (n0 := 8000000) (n1 := 1) n c) (ix1 n)
    (fun a => match a with
      | ⟨0, _⟩ => rfl)).trans rfl

/-- On a word in range the column index is the word. -/
theorem gidx_keep (z : IVec S8000000 32) (n : Fin 8000000) (c : Fin 1)
    (h : 0 ≤ (z (ix1 n)).toInt ∧ (z (ix1 n)).toInt < 100000) :
    gidx z (ix2 (n0 := 8000000) (n1 := 1) n c) = z (ix1 n) :=
  (gidx_apply z n c).trans (Cert.Growth.Words.wrap_keep h)

/-- A fold by `and` from 1 over entries that are all 1 is 1. -/
private theorem foldl_andi_one {ι : Type} (x : ι → BitVec 1) :
    ∀ (l : List ι) (init : BitVec 1), init = 1#1 → (∀ i ∈ l, x i = 1#1) → l.foldl (fun r i => IntOp.andi r (x i)) init = 1#1
  | [], _, h0, _ => h0
  | a :: l, init, h0, hl => by
    rw [List.foldl_cons]
    refine foldl_andi_one x l _ ?_ (fun i hi => hl i (List.mem_cons_of_mem _ hi))
    rw [h0, hl a List.mem_cons_self]
    rfl

/-- Where every word is in range the in-range mask is set at every row. -/
theorem inMask_one (z : IVec S8000000 32) (hz : ∀ n : Fin 8000000, 0 ≤ (z (ix1 n)).toInt ∧ (z (ix1 n)).toInt < 100000)
    (n : Fin 8000000) : inMask z (ix1 n) = 1#1 := by
  unfold inMask
  rw [Host.reduce_eq_foldl]
  refine foldl_andi_one _ _ _ rfl (fun i _ => ?_)
  rw [eq_ix2 i]
  show IntOp.andi (IntOp.cmpi .sge (gidx z (ix2 (i 0) (i 1))) 0#32) (IntOp.cmpi .sle (gidx z (ix2 (i 0) (i 1))) 99999#32) = 1#1
  rw [gidx_keep z (i 0) (i 1) (hz (i 0))]
  exact Cert.Growth.Words.inrange_mask (hz (i 0))

/-! ## The take at an index -/

/-- A vector of length 8000000 laid along each of three rows, read at `(k, n)`: the vector at `n`. -/
theorem rows3_apply {α : Type} (x : S8000000.Idx → α) (k : Fin 3) (n : Fin 8000000) :
    broadcastInDim S3x8000000 ![1] bcast_S8000000_S3x8000000_1 x (ix2 (n0 := 3) (n1 := 8000000) k n) = x (ix1 n) :=
  broadcastInDim_apply ![1] bcast_S8000000_S3x8000000_1 x _ (ix1 n)
    (fun a => match a with
      | ⟨0, _⟩ => rfl)

local notation "takeCols" => gather_S3x100000_S8000000x1_S3x8000000_0_1_n_n_1_1_31

/-- The take of columns read at `(k, n)`: the table at row `k` and at the column that entry `(n, 0)` of the index
    array names, read signed and clamped to the table's last column. Row `k` is the offset coordinate on the table's
    axis 0 (the one axis neither collapsed nor batching, the start there 0); on the collapsed axis 1 the start is the
    clamped index and the offset coordinate 0; no axis is a batching one. -/
theorem gather_apply {α : Type} (T : S3x100000.Idx → α) (idx : IVec S8000000x1 32) (k : Fin 3) (n : Fin 8000000) :
    Host.gather takeCols T idx (ix2 (n0 := 3) (n1 := 8000000) k n)
      = T (ix2 (n0 := 3) (n1 := 100000) k
          ⟨min (idx (ix2 (n0 := 8000000) (n1 := 1) n 0)).toInt.toNat (100000 - 1), by omega⟩) := by
  unfold Host.gather
  congr 1
  funext a
  refine Fin.ext ?_
  match a with
  | ⟨0, _⟩ =>
    show GatherDims.start takeCols (ix2 (n0 := 3) (n1 := 8000000) k n) idx 0
        + GatherDims.batchCoord takeCols (ix2 (n0 := 3) (n1 := 8000000) k n) 0
        + GatherDims.offCoord takeCols (ix2 (n0 := 3) (n1 := 8000000) k n) 0 = k.val
    rw [GatherDims.batchCoord_eq_zero _ _ _ List.not_mem_nil, Nat.add_zero]
    have hs : GatherDims.start takeCols (ix2 (n0 := 3) (n1 := 8000000) k n) idx 0 = 0 := by
      unfold GatherDims.start
      rw [dif_neg (show (0 : Fin S3x100000.rank) ∉ GatherDims.startIndexMap takeCols by decide)]
    rw [hs, Nat.zero_add]
    unfold GatherDims.offCoord
    rw [dif_pos (show (0 : Fin S3x100000.rank) ∈ GatherDims.sKept takeCols from List.mem_singleton.mpr rfl)]
    rfl
  | ⟨1, _⟩ =>
    show GatherDims.start takeCols (ix2 (n0 := 3) (n1 := 8000000) k n) idx 1
        + GatherDims.batchCoord takeCols (ix2 (n0 := 3) (n1 := 8000000) k n) 1
        + GatherDims.offCoord takeCols (ix2 (n0 := 3) (n1 := 8000000) k n) 1
      = min (idx (ix2 (n0 := 8000000) (n1 := 1) n 0)).toInt.toNat (100000 - 1)
    have h1 : (1 : Fin S3x100000.rank) ∈ GatherDims.startIndexMap takeCols := List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h1]
    have hsi : GatherDims.siIdx takeCols (ix2 (n0 := 3) (n1 := 8000000) k n)
        ⟨List.idxOf (1 : Fin S3x100000.rank) (GatherDims.startIndexMap takeCols), List.idxOf_lt_length_iff.2 h1⟩
        = ix2 (n0 := 8000000) (n1 := 1) n 0 := by
      funext b
      refine Fin.ext ?_
      match b with
      | ⟨0, _⟩ => rfl
      | ⟨1, _⟩ => rfl
    rw [hsi]
    rfl

/-! ## The launch's table at an index -/

/-- The take at `(k, n)` where every word is in range: the table at row `k` and at the column the row's word names.
    The mask is set, so the select takes the gathered entry; the column index is the word itself, and the clamp to
    the last column keeps its reading. -/
theorem takeOf_apply (T : FVec F S3x100000 .f32) (z : IVec S8000000 32) (hz : Cert.Growth.InRange z)
    (k : Fin 3) (n : Fin 8000000) :
    takeOf T z (ix2 (n0 := 3) (n1 := 8000000) k n)
      = T (ix2 (n0 := 3) (n1 := 100000) k (Cert.Growth.groupOf z hz n)) := by
  unfold takeOf
  show Scalar.select
      (broadcastInDim (s := S8000000) S3x8000000 ![1] bcast_S8000000_S3x8000000_1 (inMask z) (ix2 (n0 := 3) (n1 := 8000000) k n))
      (Host.gather takeCols T (gidx z) (ix2 (n0 := 3) (n1 := 8000000) k n)) _ = _
  rw [rows3_apply, inMask_one z hz n, select_one]
  refine (gather_apply T (gidx z) k n).trans
    (congrArg (fun c : Fin 100000 => T (ix2 (n0 := 3) (n1 := 100000) k c)) (Fin.ext ?_))
  show min (gidx z (ix2 (n0 := 8000000) (n1 := 1) n 0)).toInt.toNat (100000 - 1) = (z (ix1 n)).toInt.toNat
  rw [gidx_keep z n 0 (hz n)]
  exact (Cert.Growth.Words.clamp_keep (hz n)).1

/-- **The launch's table at `(k, n)`**, every group word in range: with `q` the group of row `n`, the mean of the
    group's k-th sum and its count, plus the k-th offset. -/
theorem zbtOf_apply (Z : IVec S8000000 32) (M : FVec F S8000000x3 .f32) (b3 b4 b5 : FVec F S1 .f32)
    (hZ : Cert.Growth.InRange Z) (k : Fin 3) (n : Fin 8000000) :
    zbtOf Z M b3 b4 b5 (ix2 (n0 := 3) (n1 := 8000000) k n)
      = FloatOps.addf
          (Cert.Growth.gmean (sc4 Z M (ix2 (n0 := 100000) (n1 := 4) (Cert.Growth.groupOf Z hZ n) ⟨k.val, by omega⟩))
            (sc4 Z M (ix2 (n0 := 100000) (n1 := 4) (Cert.Growth.groupOf Z hZ n) 3)))
          ((![b3, b4, b5] k) (ix1 0)) := by
  unfold zbtOf
  rw [zclip_eq Z hZ, takeOf_apply _ Z hZ k n, tableT_apply, meansOf_apply]

/-- Row 0 of the launch's table: the first mean plus the first offset. -/
theorem zbtOf_apply0 (Z : IVec S8000000 32) (M : FVec F S8000000x3 .f32) (b3 b4 b5 : FVec F S1 .f32)
    (hZ : Cert.Growth.InRange Z) (n : Fin 8000000) :
    zbtOf Z M b3 b4 b5 (ix2 (n0 := 3) (n1 := 8000000) 0 n)
      = FloatOps.addf
          (Cert.Growth.gmean (sc4 Z M (ix2 (n0 := 100000) (n1 := 4) (Cert.Growth.groupOf Z hZ n) 0))
            (sc4 Z M (ix2 (n0 := 100000) (n1 := 4) (Cert.Growth.groupOf Z hZ n) 3)))
          (b3 (ix1 0)) :=
  zbtOf_apply Z M b3 b4 b5 hZ 0 n

/-- Row 1 of the launch's table: the second mean plus the second offset. -/
theorem zbtOf_apply1 (Z : IVec S8000000 32) (M : FVec F S8000000x3 .f32) (b3 b4 b5 : FVec F S1 .f32)
    (hZ : Cert.Growth.InRange Z) (n : Fin 8000000) :
    zbtOf Z M b3 b4 b5 (ix2 (n0 := 3) (n1 := 8000000) 1 n)
      = FloatOps.addf
          (Cert.Growth.gmean (sc4 Z M (ix2 (n0 := 100000) (n1 := 4) (Cert.Growth.groupOf Z hZ n) 1))
            (sc4 Z M (ix2 (n0 := 100000) (n1 := 4) (Cert.Growth.groupOf Z hZ n) 3)))
          (b4 (ix1 0)) :=
  zbtOf_apply Z M b3 b4 b5 hZ 1 n

/-- Row 2 of the launch's table: the third mean plus the third offset. -/
theorem zbtOf_apply2 (Z : IVec S8000000 32) (M : FVec F S8000000x3 .f32) (b3 b4 b5 : FVec F S1 .f32)
    (hZ : Cert.Growth.InRange Z) (n : Fin 8000000) :
    zbtOf Z M b3 b4 b5 (ix2 (n0 := 3) (n1 := 8000000) 2 n)
      = FloatOps.addf
          (Cert.Growth.gmean (sc4 Z M (ix2 (n0 := 100000) (n1 := 4) (Cert.Growth.groupOf Z hZ n) 2))
            (sc4 Z M (ix2 (n0 := 100000) (n1 := 4) (Cert.Growth.groupOf Z hZ n) 3)))
          (b5 (ix1 0)) :=
  zbtOf_apply Z M b3 b4 b5 hZ 2 n

end Cert.KernelIdeal.Hand

end
-- ==== Proof.LibScatterSet.lean ====
/-
  A scatter whose body returns the update (an overwrite), read at one index of its result: the fold over the
  update indices leaves at operand index `i` the update element of an update index landing on `i` when all such
  update indices carry the same element there, and the operand's own element when no update index lands on `i`.
  Where an update index lands is start plus window coordinate on every axis.
-/
import Idealize.ShloMosaic.Lib.StableHlo.Run

namespace Cert.Halo.ScatterSet

open Idealize.ShloMosaic

section Fold

variable {ι κ α : Type}

/-- A step function that overwrites: entry `n` lands on `g n` (if anywhere), puts `v n` there and keeps every
    other place. -/
structure Overwrites (g : ι → Option κ) (v : ι → α) (stp : (κ → α) → ι → κ → α) : Prop where
  of_ne : ∀ r n i', g n ≠ some i' → stp r n i' = r i'
  of_eq : ∀ r n i', g n = some i' → stp r n i' = v n

variable {g : ι → Option κ} {v : ι → α} {stp : (κ → α) → ι → κ → α}

/-- Where no entry of the list lands, the fold keeps what was there. -/
theorem foldl_miss (hs : Overwrites g v stp) (i' : κ) :
    ∀ (L : List ι) (r : κ → α), (∀ n ∈ L, g n ≠ some i') → L.foldl stp r i' = r i'
  | [], _, _ => rfl
  | a :: t, r, h => by
    rw [List.foldl_cons, foldl_miss hs i' t _ fun n hn => h n (List.mem_cons_of_mem _ hn),
      hs.of_ne r a i' (h a List.mem_cons_self)]

/-- Where some entry of the list lands and every entry landing there carries the value `c`, the fold leaves `c`. -/
theorem foldl_hit (hs : Overwrites g v stp) (i' : κ) (c : α) (hv : ∀ n, g n = some i' → v n = c) :
    ∀ (L : List ι) (r : κ → α), (∃ n ∈ L, g n = some i') → L.foldl stp r i' = c
  | [], _, h => by obtain ⟨n, hn, _⟩ := h; exact absurd hn List.not_mem_nil
  | a :: t, r, h => by
    rw [List.foldl_cons]
    by_cases ht : ∃ n ∈ t, g n = some i'
    · exact foldl_hit hs i' c hv t _ ht
    · have hmiss : ∀ n ∈ t, g n ≠ some i' := fun n hn e => ht ⟨n, hn, e⟩
      rw [foldl_miss hs i' t _ hmiss]
      obtain ⟨n, hn, hg⟩ := h
      rcases List.mem_cons.mp hn with rfl | hn'
      · rw [hs.of_eq r n i' hg]; exact hv n hg
      · exact absurd hg (hmiss n hn')

end Fold

section Scatter

variable {s si u : Shape} {α : Type} {w : Nat}

/-- The overwriting scatter's step: update position `n` in row-major order, put where it lands. -/
def scatStep (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The overwriting scatter is the fold of that step over the update positions. -/
theorem scatter_eq_foldl (d : ScatterDims s si u) (x : s.Idx → α) (idx : IVec si w) (upd : u.Idx → α) :
    Host.scatter d (fun _ b => b) x idx upd = (List.finRange u.numel).foldl (scatStep d idx upd) x := rfl

theorem scatStep_overwrites (d : ScatterDims s si u) (idx : IVec si w) (upd : u.Idx → α) :
    Overwrites (fun n => d.resultIdx? (u.rowMajor.symm n) idx) (fun n => upd (u.rowMajor.symm n)) (scatStep d idx upd) where
  of_ne r n i' h := by
    unfold scatStep
    cases hg : d.resultIdx? (u.rowMajor.symm n) idx with
    | none => rfl
    | some i =>
      have hne : i' ≠ i := fun e => h (by rw [hg, e])
      exact if_neg hne
  of_eq r n i' h := by
    unfold scatStep
    have h' : d.resultIdx? (u.rowMajor.symm n) idx = some i' := h
    rw [h']
    exact if_pos rfl

/-- An operand index no update index lands on keeps the operand's element. -/
theorem scatter_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_miss (scatStep_overwrites d idx upd) i _ x fun n _ => h _

/-- An operand index update index `j₀` lands on, every update index landing there carrying `j₀`'s element, takes it. -/
theorem scatter_hit (d : ScatterDims s si u) (x : s.Idx → α) (idx : IVec si w) (upd : u.Idx → α) (i : s.Idx)
    (j₀ : u.Idx) (h₀ : d.resultIdx? j₀ idx = some i) (hu : ∀ j : u.Idx, d.resultIdx? j idx = some i → upd j = upd j₀) :
    Host.scatter d (fun _ b => b) x idx upd i = upd j₀ := by
  rw [scatter_eq_foldl]
  refine foldl_hit (scatStep_overwrites d idx upd) i (upd j₀) (fun n hn => hu _ hn) _ x
    ⟨u.rowMajor j₀, List.mem_finRange _, ?_⟩
  show d.resultIdx? (u.rowMajor.symm (u.rowMajor j₀)) idx = some i
  rw [Equiv.symm_apply_apply]; exact h₀

/-- Update index `j` lands on operand index `i` exactly when, on every axis, start plus window coordinate is `i`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => (f a).val) e'
      simp only at this
      have h0 := (h a).1
      omega
    · intro e
      refine congrArg some (funext fun a => Fin.ext ?_)
      have := e a
      show (d.start j idx a + (d.window j a : Int)).toNat = (i a).val
      omega
  · rename_i h
    constructor
    · intro e; exact absurd e (by simp)
    · intro e
      exact absurd (fun a => by have := e a; have := (i a).isLt; constructor <;> omega) h

end Scatter

end Cert.Halo.ScatterSet
-- ==== Proof.SegSum.lean ====
/-
  Accumulation by groups, entry by entry.

  Both programs add per-row quantities into a table of zeros at the row's group word: one of them the three
  measurements together with a column of ones into a table of four columns, the other the three measurements into a
  table of three columns and a vector of ones into a vector. Over the extended reals every such accumulation leaves,
  at an entry, the zero word's value plus the sum of the updates landing on the entry. An update lands on the entry of
  row `q` and column `c` exactly when its row's group word, read signed, is `q` and its own column is `c` (an
  update whose word is out of range lands nowhere). So each entry is the sum over the rows of one group
  (`segsum`): of measurement `k` at column `k`, of ones at the count column or count vector.
-/
import proofs.«424391_j71622874628175_3_alg».proof.Proof.KDefs
import proofs.«424391_j71622874628175_3_alg».proof.Proof.RefReadP
import proofs.«424391_j71622874628175_3_alg».proof.Proof.LibScatterSet
import Idealize.ShloMosaic.PureOps.Ideal
import Idealize.ShloMosaic.Lib.ValueIdx
import Idealize.ShloMosaic.Lib.Pipeline.Value

noncomputable section

namespace Cert.Growth.SegSum

open Idealize.ShloMosaic Idealize.ShloMosaic.ValueIdx

/-! ## Where an update lands: a table accumulated by rows -/

/-- A table accumulated by rows: operand [N, C], one index word per update row (scatter indices [R, 1]) naming the
    operand row, updates [R, C] whose column axis is the window. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Row
variable {N R C w : Nat} (wf : ScatterDims.WF ⟨2, ![N, C]⟩ ⟨2, ![R, 1]⟩ ⟨2, ![R, C]⟩ [1] [0] [0] 1)
  (j : (⟨2, ![R, C]⟩ : Shape).Idx) (idx : IVec ⟨2, ![R, 1]⟩ w)

/-- On the row axis the window starts at the index word of the update's row, read signed. -/
theorem rowDims_start0 :
    (rowDims N R C wf).start j idx 0 = (idx (ix2 ⟨(j 0).val, idx2_lt0 j⟩ ⟨0, Nat.one_pos⟩)).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 ⟨(j 0).val, idx2_lt0 j⟩ ⟨0, Nat.one_pos⟩ := by
    funext b; refine Fin.ext ?_
    match b with
    | ⟨0, _⟩ => rfl
    | ⟨1, _⟩ => rfl
  rw [hsi]

/-- On the column axis, which no index word names, it starts at `0`. -/
theorem rowDims_start1 : (rowDims N R C wf).start j idx 1 = 0 := by
  unfold ScatterDims.start
  rw [dif_neg (show (1 : Fin 2) ∉ ([0] : List (Fin 2)) by decide)]

/-- The row axis is inserted: no window coordinate there. -/
theorem rowDims_window0 : (rowDims N R C wf).window j 0 = 0 := by
  unfold ScatterDims.window
  have h : (0 : Fin 2) ∉ (rowDims N R C wf).sKept :=
    (by decide : (0 : Fin 2) ∉ (List.finRange 2).filter (fun a => a ∉ ([0] : List (Fin 2))))
  rw [dif_neg h]

/-- On the column axis the window coordinate is the update's column. -/
theorem rowDims_window1 : (rowDims N R C wf).window j 1 = (j 1).val := by
  unfold ScatterDims.window
  have h : (1 : Fin 2) ∈ (rowDims N R C wf).sKept :=
    (by decide : (1 : Fin 2) ∈ (List.finRange 2).filter (fun a => a ∉ ([0] : List (Fin 2))))
  rw [dif_pos h]
  rfl

/-- An update lands on operand index `i` exactly when its row's index word, read signed, is `i`'s row and its
    column is `i`'s column. -/
theorem rowDims_lands (i : (⟨2, ![N, C]⟩ : Shape).Idx) :
    (rowDims N R C wf).resultIdx? j idx = some i ↔
      (idx (ix2 ⟨(j 0).val, idx2_lt0 j⟩ ⟨0, Nat.one_pos⟩)).toInt = ((i 0).val : Int) ∧ (j 1).val = (i 1).val := by
  rw [Cert.Halo.ScatterSet.resultIdx?_eq_some_iff]
  constructor
  · intro h
    have h0 := h 0
    have h1 := h 1
    rw [rowDims_start0, rowDims_window0] at h0
    rw [rowDims_start1, rowDims_window1] at h1
    refine ⟨?_, ?_⟩
    · simpa using h0
    · have : ((j 1).val : Int) = ((i 1).val : Int) := by simpa using h1
      exact_mod_cast this
  · rintro ⟨h0, h1⟩ a
    match a with
    | ⟨0, _⟩ =>
      show (rowDims N R C wf).start j idx 0 + ((rowDims N R C wf).window j 0 : Int) = ((i 0).val : Int)
      rw [rowDims_start0, rowDims_window0, h0]; simp
    | ⟨1, _⟩ =>
      show (rowDims N R C wf).start j idx 1 + ((rowDims N R C wf).window j 1 : Int) = ((i 1).val : Int)
      rw [rowDims_start1, rowDims_window1, h1]; simp

end Row

/-! ## Where an update lands: a vector accumulated by rows -/

/-- A vector accumulated by rows: operand [N], one index word per update (scatter indices [R, 1]), updates [R], no
    window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)
  (j : (⟨1, ![R]⟩ : Shape).Idx) (idx : IVec ⟨2, ![R, 1]⟩ w)

/-- The window starts at the update's index word, read signed. -/
theorem vecDims_start0 :
    (vecDims N R wf).start j idx 0 = (idx (ix2 ⟨(j 0).val, (j 0).isLt⟩ ⟨0, Nat.one_pos⟩)).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 ⟨(j 0).val, (j 0).isLt⟩ ⟨0, Nat.one_pos⟩ := by
    funext b; refine Fin.ext ?_
    match b with
    | ⟨0, _⟩ => rfl
    | ⟨1, _⟩ => rfl
  rw [hsi]
  rfl

/-- The one operand axis is inserted: no window coordinate. -/
theorem vecDims_window0 : (vecDims N R wf).window j 0 = 0 := by
  unfold ScatterDims.window
  have h : (0 : Fin 1) ∉ (vecDims N R wf).sKept :=
    (by decide : (0 : Fin 1) ∉ (List.finRange 1).filter (fun a => a ∉ ([0] : List (Fin 1))))
  rw [dif_neg h]

/-- An update lands on operand index `i` exactly when its index word, read signed, is `i`. -/
theorem vecDims_lands (i : (⟨1, ![N]⟩ : Shape).Idx) :
    (vecDims N R wf).resultIdx? j idx = some i ↔
      (idx (ix2 ⟨(j 0).val, (j 0).isLt⟩ ⟨0, Nat.one_pos⟩)).toInt = ((i 0).val : Int) := by
  rw [Cert.Halo.ScatterSet.resultIdx?_eq_some_iff]
  constructor
  · intro h
    have h0 := h 0
    rw [vecDims_start0, vecDims_window0] at h0
    simpa using h0
  · intro h0 a
    obtain rfl : a = 0 := Subsingleton.elim _ _
    rw [vecDims_start0, vecDims_window0, h0]; simp

end Vec

/-! ## A sum over one column of a two-axis index set, over the rows of a set -/

section Reindex

/-- A set `S` of indices of a two-axis index set that consists of the indices in column `c` whose row is in `T`: a sum
    over `S` is the sum over `T` of the summand at `(row, c)`. -/
theorem sum_col {R C : Nat} (S : Finset (⟨2, ![R, C]⟩ : Shape).Idx) (T : Finset (Fin R)) (c : Fin C)
    (hS : ∀ j, j ∈ S ↔ (⟨(j 0).val, idx2_lt0 j⟩ : Fin R) ∈ T ∧ (j 1).val = c.val)
    (f : (⟨2, ![R, C]⟩ : Shape).Idx → EReal) :
    ∑ j ∈ S, f j = ∑ n ∈ T, f (ix2 n c) := by
  have key : ∀ j ∈ S, ix2 (⟨(j 0).val, idx2_lt0 j⟩ : Fin R) c = j := by
    intro j hj
    have h1 := ((hS j).1 hj).2
    funext a
    match a with
    | ⟨0, _⟩ => rfl
    | ⟨1, _⟩ => exact Fin.ext h1.symm
  refine Finset.sum_nbij' (fun j => (⟨(j 0).val, idx2_lt0 j⟩ : Fin R)) (fun n => ix2 n c) ?_ ?_ ?_ ?_ ?_
  · intro j hj
    exact ((hS j).1 hj).1
  · intro n hn
    exact (hS _).2 ⟨hn, rfl⟩
  · intro j hj
    exact key j hj
  · intro n _
    rfl
  · intro j hj
    exact congrArg f (key j hj).symm

/-- The one-axis case: a set `S` of indices that consists of the indices whose coordinate is in `T`. -/
theorem sum_vec {R : Nat} (S : Finset (⟨1, ![R]⟩ : Shape).Idx) (T : Finset (Fin R))
    (hS : ∀ j, j ∈ S ↔ (⟨(j 0).val, (j 0).isLt⟩ : Fin R) ∈ T) (f : (⟨1, ![R]⟩ : Shape).Idx → EReal) :
    ∑ j ∈ S, f j = ∑ n ∈ T, f (ix1 n) := by
  have key : ∀ j : (⟨1, ![R]⟩ : Shape).Idx, ix1 (⟨(j 0).val, (j 0).isLt⟩ : Fin R) = j := by
    intro j
    funext a
    match a with
    | ⟨0, _⟩ => rfl
  refine Finset.sum_nbij' (fun j => (⟨(j 0).val, (j 0).isLt⟩ : Fin R)) (fun n => ix1 n) ?_ ?_ ?_ ?_ ?_
  · intro j hj
    exact (hS j).1 hj
  · intro n hn
    exact (hS _).2 hn
  · intro j _
    exact key j
  · intro n _
    rfl
  · intro j _
    exact congrArg f (key j).symm

end Reindex

/-! ## An accumulation read at one entry; the index words as a column -/

/-- An accumulation read at one entry: the operand's entry plus the sum of the updates landing there. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-- A vector of `R` words laid out as a column [R, 1], read at row `n`. -/
theorem col_apply {R w : Nat} (hR : R ≠ 1)
    (h : (⟨1, ![R]⟩ : Shape).BroadcastsInDim ⟨2, ![R, 1]⟩ (![0] : Fin 1 → Fin 2)) (Z : IVec ⟨1, ![R]⟩ w)
    (n : Fin R) :
    broadcastInDim ⟨2, ![R, 1]⟩ ![0] h Z (ix2 n ⟨0, Nat.one_pos⟩) = Z (ix1 n) := by
  refine broadcastInDim_apply _ h Z _ (ix1 n) (fun a => ?_)
  match a with
  | ⟨0, _⟩ =>
    show n.val = if R = 1 then 0 else n.val
    rw [if_neg hR]

/-- Row `n` is a row of group `q` exactly when its group word, read signed, is `q`. -/
theorem mem_rowsOf (Z : IVec ⟨1, ![8000000]⟩ 32) (q : Fin 100000) (n : Fin 8000000) :
    n ∈ rowsOf Z q ↔ (Z (ix1 n)).toInt = (q.val : Int) := by
  unfold rowsOf
  rw [Finset.mem_filter]
  exact and_iff_right (Finset.mem_univ n)

/-! ## The table of four columns: measurements and ones together -/

section Kernel

open Cert.KernelIdeal Cert.KernelIdeal.Hand Cert.KernelIdeal.Facts₀

variable [Cert.KernelIdeal.Facts]

/-- Entry `(q, c)` of the accumulated table, the group words already in range: the zero word's value plus the sum
    over the rows of group `q` of column `c` of the measurements with the ones appended. -/
theorem sc4_col (Z : IVec S8000000 32) (M : FVec Ideal S8000000x3 .f32) (hclip : zclip Z = Z) (q : Fin 100000)
    (c : Fin 4) :
    sc4 (F := Ideal) Z M (ix2 (n0 := 100000) (n1 := 4) q c) =
      Ideal.ofBits .f32 0x00000000#32 + ∑ n ∈ rowsOf Z q, aug (F := Ideal) M (ix2 n c) := by
  refine (scatterAdd_apply _ _ _ _ _).trans ?_
  rw [hclip]
  refine congrArg₂ (· + ·) ?_ ?_
  · exact broadcastInDim_apply _ bcast_S_S100000x4 _ _ ix0 (fun a => a.elim0)
  · refine sum_col _ (rowsOf Z q) c (fun j => ?_) _
    rw [Finset.mem_filter, mem_rowsOf]
    refine (and_iff_right (Finset.mem_univ j)).trans ?_
    refine (rowDims_lands (N := 100000) (R := 8000000) (C := 4)
      scatter_S100000x4_S8000000x1_S8000000x4_1_0_0_1_wf j _ (ix2 q c)).trans ?_
    rw [col_apply (by decide) bcast_S8000000_S8000000x1_0]

/-- A column below 3 of the measurements with the ones appended is the measurements' column. -/
theorem aug_left (M : FVec Ideal S8000000x3 .f32) (n : Fin 8000000) (k : Fin 3) :
    aug (F := Ideal) M (ix2 (n0 := 8000000) (n1 := 4) n ⟨k.val, by omega⟩) = M (ix2 n k) := by
  refine concatenate_pair_apply_left (t := S8000000x4) (s₁ := S8000000x3) (s₂ := S8000000x1) (1 : Fin 2) M _
    concatenates_S8000000x3_S8000000x1_S8000000x4_d1 _ rfl (ix2 n k) (fun b => ?_)
  match b with
  | ⟨0, _⟩ => rfl
  | ⟨1, _⟩ => rfl

/-- Column 3 is the ones. -/
theorem aug_right (M : FVec Ideal S8000000x3 .f32) (n : Fin 8000000) :
    aug (F := Ideal) M (ix2 (n0 := 8000000) (n1 := 4) n 3) = Ideal.ofBits .f32 0x3F800000#32 := by
  refine (concatenate_pair_apply_right (t := S8000000x4) (s₁ := S8000000x3) (s₂ := S8000000x1) (1 : Fin 2) M _
    concatenates_S8000000x3_S8000000x1_S8000000x4_d1 _ rfl rfl (ix2 n ⟨0, Nat.one_pos⟩) (fun b hb => ?_) rfl).trans ?_
  · match b, hb with
    | ⟨0, _⟩, _ => rfl
    | ⟨1, _⟩, hb => exact absurd rfl hb
  · exact broadcastInDim_apply _ bcast_S_S8000000x1 _ _ ix0 (fun a => a.elim0)

end Kernel

/-! ## The table of three columns and the vector of counts -/

section Reference

open Cert.ReferenceIdeal Cert.ReferenceIdeal.ReadP Cert.ReferenceIdeal.Facts₀

/-- Entry `(q, k)` of the measurements' accumulated table. -/
theorem ref_col (Z : IVec S8000000 32) (M : FVec Ideal S8000000x3 .f32) (q : Fin 100000) (k : Fin 3) :
    val_main_v2 (F := Ideal) Z M (ix2 (n0 := 100000) (n1 := 3) q k) =
      Ideal.ofBits .f32 0x00000000#32 + ∑ n ∈ rowsOf Z q, M (ix2 n k) := by
  refine (scatterAdd_apply _ _ _ _ _).trans ?_
  refine congrArg₂ (· + ·) ?_ ?_
  · exact broadcastInDim_apply _ bcast_S_S100000x3 _ _ ix0 (fun a => a.elim0)
  · refine sum_col _ (rowsOf Z q) k (fun j => ?_) _
    rw [Finset.mem_filter, mem_rowsOf]
    refine (and_iff_right (Finset.mem_univ j)).trans ?_
    refine (rowDims_lands (N := 100000) (R := 8000000) (C := 3)
      scatter_S100000x3_S8000000x1_S8000000x3_1_0_0_1_wf j _ (ix2 q k)).trans ?_
    refine Iff.of_eq (congrArg (fun z : BitVec 32 => z.toInt = (q.val : Int) ∧ (j 1).val = k.val) ?_)
    exact col_apply (by decide) bcast_S8000000_S8000000x1_0 Z _

/-- Entry `q` of the accumulated vector of ones. -/
theorem ref_vec (Z : IVec S8000000 32) (q : Fin 100000) :
    val_main_v6 (F := Ideal) Z (ix1 q) =
      Ideal.ofBits .f32 0x00000000#32 + ∑ _n ∈ rowsOf Z q, Ideal.ofBits .f32 0x3F800000#32 := by
  refine (scatterAdd_apply _ _ _ _ _).trans ?_
  refine congrArg₂ (· + ·) ?_ ?_
  · exact broadcastInDim_apply _ bcast_S_S100000 _ _ ix0 (fun a => a.elim0)
  · refine (sum_vec _ (rowsOf Z q) (fun j => ?_) _).trans (Finset.sum_congr rfl (fun n _ => ?_))
    · rw [Finset.mem_filter, mem_rowsOf]
      refine (and_iff_right (Finset.mem_univ j)).trans ?_
      refine (vecDims_lands (N := 100000) (R := 8000000)
        scatter_S100000_S8000000x1_S8000000_n_0_0_1_wf j _ (ix1 q)).trans ?_
      refine Iff.of_eq (congrArg (fun z : BitVec 32 => z.toInt = (q.val : Int)) ?_)
      exact col_apply (by decide) bcast_S8000000_S8000000x1_0 Z _
    · exact broadcastInDim_apply _ bcast_S_S8000000 _ _ ix0 (fun a => a.elim0)

end Reference

end Cert.Growth.SegSum

/-! ## The four entries as sums over one group -/

namespace Cert.Growth

open Idealize.ShloMosaic Idealize.ShloMosaic.ValueIdx

/-- Column `k` of the four-column table at group `q` is the group's sum of measurement `k`. -/
theorem sc4_sum [Cert.KernelIdeal.Facts] (M : FVec Ideal ⟨2, ![8000000, 3]⟩ .f32) (Z : IVec ⟨1, ![8000000]⟩ 32)
    (q : Fin 100000) (k : Fin 3) (hclip : Cert.KernelIdeal.Hand.zclip Z = Z) :
    Cert.KernelIdeal.Hand.sc4 (F := Ideal) Z M (ix2 (n0 := 100000) (n1 := 4) q ⟨k.val, by omega⟩) =
      segsum Z (fun n => M (ix2 n k)) q :=
  (SegSum.sc4_col Z M hclip q ⟨k.val, by omega⟩).trans
    (congrArg (Ideal.ofBits .f32 0x00000000#32 + ·) (Finset.sum_congr rfl fun n _ => SegSum.aug_left M n k))

/-- Column 3 of the four-column table at group `q` is the group's sum of ones. -/
theorem sc4_cnt [Cert.KernelIdeal.Facts] (M : FVec Ideal ⟨2, ![8000000, 3]⟩ .f32) (Z : IVec ⟨1, ![8000000]⟩ 32)
    (q : Fin 100000) (hclip : Cert.KernelIdeal.Hand.zclip Z = Z) :
    Cert.KernelIdeal.Hand.sc4 (F := Ideal) Z M (ix2 (n0 := 100000) (n1 := 4) q 3) =
      segsum Z (fun _ => Ideal.ofBits .f32 0x3F800000#32) q :=
  (SegSum.sc4_col Z M hclip q 3).trans
    (congrArg (Ideal.ofBits .f32 0x00000000#32 + ·) (Finset.sum_congr rfl fun n _ => SegSum.aug_right M n))

/-- Column `k` of the three-column table at group `q` is the group's sum of measurement `k`. -/
theorem ref_sum (M : FVec Ideal ⟨2, ![8000000, 3]⟩ .f32) (Z : IVec ⟨1, ![8000000]⟩ 32) (q : Fin 100000) (k : Fin 3) :
    Cert.ReferenceIdeal.ReadP.val_main_v2 (F := Ideal) Z M (ix2 (n0 := 100000) (n1 := 3) q k) =
      segsum Z (fun n => M (ix2 n k)) q :=
  SegSum.ref_col Z M q k

/-- Entry `q` of the count vector is the group's sum of ones. -/
theorem ref_cnt (Z : IVec ⟨1, ![8000000]⟩ 32) (q : Fin 100000) :
    Cert.ReferenceIdeal.ReadP.val_main_v6 (F := Ideal) Z (ix1 q) =
      segsum Z (fun _ => Ideal.ofBits .f32 0x3F800000#32) q :=
  SegSum.ref_vec Z q

end Cert.Growth

end
-- ==== Proof.RefVal.lean ====
/-
  The reference's result read at a row.

  The reference forms, per group `q < 100000` and column `k < 3`, the table entry `B (q, k)`: the accumulated sum of
  measurement `k` over the group's rows divided by the accumulated count taken at least one, where the count is
  positive, else zero. It then gathers, for every row `n`, the table's row at the row's group word — a negative word
  first wrapped by adding 100000, the start index then clamped into `[0, 99999]` — and evaluates the curve from the row's
  abscissa, the three gathered entries and the three offsets.

  On the domain where every group word lies in `[0, 100000)` read signed, the wrap and the clamp keep the word, so the
  gathered row of `n` is the table's row at the row's own group (`gathered`), and the result at row `n` is the curve
  of the abscissa `X (n, 0)` and the three means of that group with the offsets added (`ref_apply`). The two
  accumulations (the sums and the counts) stay as their own terms here. Everything holds for any float instance: only
  the shape of the operations is used, no law of the arithmetic.
-/
import proofs.«424391_j71622874628175_3_alg».proof.Proof.RefReadP
import proofs.«424391_j71622874628175_3_alg».proof.Proof.Spec
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx

variable {F : FTy → Type} [FloatOps F]

/-- The table's row gather read at row `n`, column `k`: the operand at the row the start index names, read signed and
    clamped into `[0, 99999]`, same column. Axis 0 of the operand is collapsed and start-indexed (its offset coordinate
    is 0), axis 1 is the one offset axis (start 0, offset coordinate the result's column). -/
theorem gather_row {α : Type} {w : Nat} (x : S100000x3.Idx → α) (idx : IVec S8000000x1 w) (n : Fin 8000000) (k : Fin 3) :
    Host.gather gather_S100000x3_S8000000x1_S8000000x3_1_0_n_n_0_1_13 x idx (ix2 (n0 := 8000000) (n1 := 3) n k)
      = x (ix2 (n0 := 100000) (n1 := 3) ⟨min (idx (ix2 (n0 := 8000000) (n1 := 1) n 0)).toInt.toNat (100000 - 1), by omega⟩ k) := by
  unfold Host.gather
  congr 1
  funext a
  refine Fin.ext ?_
  match a with
  | ⟨0, _⟩ =>
    show GatherDims.start gather_S100000x3_S8000000x1_S8000000x3_1_0_n_n_0_1_13 _ idx 0
      + GatherDims.batchCoord gather_S100000x3_S8000000x1_S8000000x3_1_0_n_n_0_1_13 _ 0
      + GatherDims.offCoord gather_S100000x3_S8000000x1_S8000000x3_1_0_n_n_0_1_13 _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x3_S8000000x1_S8000000x3_1_0_n_n_0_1_13.startIndexMap from
      List.mem_singleton.mpr rfl)]
    have hsi : gather_S100000x3_S8000000x1_S8000000x3_1_0_n_n_0_1_13.siIdx (ix2 (n0 := 8000000) (n1 := 3) n k)
        ⟨List.idxOf (0 : Fin 2) gather_S100000x3_S8000000x1_S8000000x3_1_0_n_n_0_1_13.startIndexMap,
          List.idxOf_lt_length_iff.2 (List.mem_singleton.mpr rfl)⟩ = ix2 (n0 := 8000000) (n1 := 1) n 0 := by
      funext b; refine Fin.ext ?_
      match b with
      | ⟨0, _⟩ => rfl
      | ⟨1, _⟩ => rfl
    rw [hsi]
    rfl
  | ⟨1, _⟩ =>
    show GatherDims.start gather_S100000x3_S8000000x1_S8000000x3_1_0_n_n_0_1_13 _ idx 1
      + GatherDims.batchCoord gather_S100000x3_S8000000x1_S8000000x3_1_0_n_n_0_1_13 _ 1
      + GatherDims.offCoord gather_S100000x3_S8000000x1_S8000000x3_1_0_n_n_0_1_13 _ 1 = k.val
    rw [GatherDims.batchCoord_eq_zero _ _ _ List.not_mem_nil]
    have hst : GatherDims.start gather_S100000x3_S8000000x1_S8000000x3_1_0_n_n_0_1_13
        (ix2 (n0 := 8000000) (n1 := 3) n k) idx 1 = 0 := by
      unfold GatherDims.start
      rw [dif_neg (show (1 : Fin 2) ∉ gather_S100000x3_S8000000x1_S8000000x3_1_0_n_n_0_1_13.startIndexMap from by
        intro h; exact absurd (List.mem_singleton.mp h) (by decide))]
    rw [hst]
    simp only [Nat.add_zero, Nat.zero_add]
    unfold GatherDims.offCoord
    rw [dif_pos ((GatherDims.mem_sKept _ _).2 ⟨by intro h; exact absurd (List.mem_singleton.mp h) (by decide), List.not_mem_nil⟩)]
    rfl

/-! ## Words: a group word in range survives the wrap and the clamp -/

/-- A word that is nonnegative read signed is not below the zero word. -/
theorem slt_zero_of_nonneg (w : BitVec 32) (h : 0 ≤ w.toInt) : IntOp.cmpi .slt w 0#32 = 0#1 := by
  have hs : w.slt 0#32 = false := by
    unfold BitVec.slt
    exact decide_eq_false (by rw [BitVec.toInt_zero]; omega)
  show BitVec.ofBool (w.slt 0#32) = 0#1
  rw [hs]; rfl

/-! ## The start-index column and the table's stages at a row -/

theorem idx21_at (n : Fin 8000000) : ReadP.idx_main_v21 (ix2 (n0 := 8000000) (n1 := 1) n 0) = ix1 n :=
  funext fun a => Fin.ext (by match a with | ⟨0, _⟩ => rfl)

/-- The start-index column at row `n` is the group word itself: the wrap adds 100000 to a negative word only. -/
theorem start_word (Z : IVec ⟨1, ![8000000]⟩ 32) (hZ : Cert.Growth.InRange Z) (n : Fin 8000000) :
    ReadP.val_main_v21 (F := F) Z (ix2 (n0 := 8000000) (n1 := 1) n 0) = Z (ix1 n) := by
  rw [ReadP.val_main_v21_apply, idx21_at, ReadP.val_main_v20_apply, ReadP.val_main_v17_apply, ReadP.val_main_v16_apply,
    ReadP.val_main_c_apply, slt_zero_of_nonneg _ (hZ n).1, select_zero]

theorem idx_call0_v1_at (q : Fin 100000) (k : Fin 3) :
    ReadP.idx_main_call0_v1 (ix2 (n0 := 100000) (n1 := 3) q k) = ix2 (n0 := 100000) (n1 := 1) q 0 :=
  funext fun a => Fin.ext (by match a with | ⟨0, _⟩ => rfl | ⟨1, _⟩ => rfl)

theorem idx13_at (q : Fin 100000) (k : Fin 3) :
    ReadP.idx_main_v13 (ix2 (n0 := 100000) (n1 := 3) q k) = ix2 (n0 := 100000) (n1 := 1) q 0 :=
  funext fun a => Fin.ext (by match a with | ⟨0, _⟩ => rfl | ⟨1, _⟩ => rfl)

theorem idx7_at (q : Fin 100000) : ReadP.idx_main_v7 (ix2 (n0 := 100000) (n1 := 1) q 0) = ix1 q :=
  funext fun a => Fin.ext (by match a with | ⟨0, _⟩ => rfl)

theorem idx12_at (q : Fin 100000) : ReadP.idx_main_v12 (ix2 (n0 := 100000) (n1 := 1) q 0) = ix1 q :=
  funext fun a => Fin.ext (by match a with | ⟨0, _⟩ => rfl)

/-- The table of means at row `q`, column `k`: the group's mean from the accumulated sum and the accumulated count. -/
theorem table_at (Z : IVec ⟨1, ![8000000]⟩ 32) (M : FVec F ⟨2, ![8000000, 3]⟩ .f32) (q : Fin 100000) (k : Fin 3) :
    ReadP.val_main_v15 Z M (ix2 (n0 := 100000) (n1 := 3) q k)
      = Cert.Growth.gmean (ReadP.val_main_v2 Z M (ix2 (n0 := 100000) (n1 := 3) q k)) (ReadP.val_main_v6 Z (ix1 q)) := by
  rw [ReadP.val_main_v15_apply, ReadP.val_main_call0_v1_apply, idx_call0_v1_at, ReadP.val_main_v9_apply,
    ReadP.val_main_v7_apply, idx7_at, ReadP.val_main_v8_apply, ReadP.val_main_cst_2_apply,
    ReadP.val_main_v14_apply, ReadP.val_main_v13_apply, idx13_at, ReadP.val_main_v12_apply, idx12_at,
    ReadP.val_main_v11_apply, ReadP.val_main_v10_apply, ReadP.val_main_cst_3_apply,
    ReadP.val_main_call0_v2_apply, ReadP.val_main_call0_v0_apply, ReadP.val_main_cst_4_apply]
  rfl

/-! ## The gathered row -/

/-- Row `n`, column `k` of the gathered table is the mean of the row's own group: the start index is the group word
    (the wrap keeps a nonnegative word), the clamp into `[0, 99999]` keeps a word below 100000. -/
theorem gathered (Z : IVec ⟨1, ![8000000]⟩ 32) (M : FVec F ⟨2, ![8000000, 3]⟩ .f32) (hZ : Cert.Growth.InRange Z)
    (n : Fin 8000000) (k : Fin 3) :
    ReadP.val_main_v22 Z M (ix2 (n0 := 8000000) (n1 := 3) n k)
      = Cert.Growth.gmean (ReadP.val_main_v2 Z M (ix2 (n0 := 100000) (n1 := 3) (Cert.Growth.groupOf Z hZ n) k))
          (ReadP.val_main_v6 Z (ix1 (Cert.Growth.groupOf Z hZ n))) := by
  unfold ReadP.val_main_v22
  refine (gather_row _ _ n k).trans ?_
  refine Eq.trans (congrArg (fun r => ReadP.val_main_v15 Z M (ix2 (n0 := 100000) (n1 := 3) r k))
    (Fin.ext ?_ : _ = Cert.Growth.groupOf Z hZ n)) (table_at Z M _ k)
  show min (ReadP.val_main_v21 (F := F) Z (ix2 (n0 := 8000000) (n1 := 1) n 0)).toInt.toNat (100000 - 1)
    = (Z (ix1 n)).toInt.toNat
  rw [start_word Z hZ n]
  have := hZ n
  omega

/-! ## The reference's result at a row -/

theorem idx23_at (n : Fin 8000000) :
    ReadP.idx_main_v23 (ix2 (n0 := 8000000) (n1 := 1) n 0) = ix2 (n0 := 8000000) (n1 := 3) n 0 :=
  funext fun a => Fin.ext (by match a with | ⟨0, _⟩ => rfl | ⟨1, _⟩ => rfl)

theorem idx24_at (n : Fin 8000000) :
    ReadP.idx_main_v24 (ix2 (n0 := 8000000) (n1 := 1) n 0) = ix2 (n0 := 8000000) (n1 := 3) n 1 :=
  funext fun a => Fin.ext (by match a with | ⟨0, _⟩ => rfl | ⟨1, _⟩ => rfl)

theorem idx25_at (n : Fin 8000000) :
    ReadP.idx_main_v25 (ix2 (n0 := 8000000) (n1 := 1) n 0) = ix2 (n0 := 8000000) (n1 := 3) n 2 :=
  funext fun a => Fin.ext (by match a with | ⟨0, _⟩ => rfl | ⟨1, _⟩ => rfl)

theorem idx26_any (j : S1x1.Idx) : ReadP.idx_main_v26 j = ix1 (0 : Fin 1) :=
  funext fun a => Fin.ext (by match a with | ⟨0, _⟩ => rfl)

theorem idx29_any (j : S1x1.Idx) : ReadP.idx_main_v29 j = ix1 (0 : Fin 1) :=
  funext fun a => Fin.ext (by match a with | ⟨0, _⟩ => rfl)

theorem idx34_any (j : S1x1.Idx) : ReadP.idx_main_v34 j = ix1 (0 : Fin 1) :=
  funext fun a => Fin.ext (by match a with | ⟨0, _⟩ => rfl)

/-- The reference's result at row `n`: the curve of the row's abscissa and its group's three means with the offsets
    added, the quotients, the negation and the exponential the host's. -/
theorem ref_apply (X : FVec F ⟨2, ![8000000, 1]⟩ .f32) (Z : IVec ⟨1, ![8000000]⟩ 32) (M : FVec F ⟨2, ![8000000, 3]⟩ .f32)
    (b3 b4 b5 : FVec F ⟨1, ![1]⟩ .f32) (hZ : Cert.Growth.InRange Z) (n : Fin 8000000) :
    ReadP.val_main_v44 X Z M b3 b4 b5 (ix2 (n0 := 8000000) (n1 := 1) n 0)
      = FloatOps.hostDivf
          (FloatOps.addf (b3 (ix1 0))
            (Cert.Growth.gmean (ReadP.val_main_v2 Z M (ix2 (n0 := 100000) (n1 := 3) (Cert.Growth.groupOf Z hZ n) 0))
              (ReadP.val_main_v6 Z (ix1 (Cert.Growth.groupOf Z hZ n)))))
          (FloatOps.addf (FloatOps.ofBits .f32 0x3F800000#32)
            (FloatOps.hostUnary .exp
              (FloatOps.minimumf (FloatOps.ofBits .f32 0x42480000#32)
                (FloatOps.maximumf (FloatOps.ofBits .f32 0xC2480000#32)
                  (FloatOps.hostNegf
                    (FloatOps.hostDivf
                      (FloatOps.subf (X (ix2 (n0 := 8000000) (n1 := 1) n 0))
                        (FloatOps.addf (b4 (ix1 0))
                          (Cert.Growth.gmean
                            (ReadP.val_main_v2 Z M (ix2 (n0 := 100000) (n1 := 3) (Cert.Growth.groupOf Z hZ n) 1))
                            (ReadP.val_main_v6 Z (ix1 (Cert.Growth.groupOf Z hZ n))))))
                      (FloatOps.maximumf
                        (FloatOps.addf (b5 (ix1 0))
                          (Cert.Growth.gmean
                            (ReadP.val_main_v2 Z M (ix2 (n0 := 100000) (n1 := 3) (Cert.Growth.groupOf Z hZ n) 2))
                            (ReadP.val_main_v6 Z (ix1 (Cert.Growth.groupOf Z hZ n)))))
                        (FloatOps.ofBits .f32 0x3DCCCCCD#32)))))))) := by
  rw [ReadP.val_main_v44_apply, ReadP.val_main_v28_apply, ReadP.val_main_v27_apply, ReadP.val_main_v26_apply, idx26_any,
    ReadP.val_main_v23_apply, idx23_at,
    ReadP.val_main_v43_apply, ReadP.val_main_v42_apply, ReadP.val_main_cst_9_apply, ReadP.val_main_v41_apply,
    ReadP.val_main_v40_apply, ReadP.val_main_call1_v4_apply, ReadP.val_main_call1_v3_apply, ReadP.val_main_cst_8_apply,
    ReadP.val_main_call1_v2_apply, ReadP.val_main_call1_v1_apply, ReadP.val_main_call1_v0_apply, ReadP.val_main_cst_7_apply,
    ReadP.val_main_v39_apply, ReadP.val_main_v38_apply, ReadP.val_main_v37_apply, ReadP.val_main_v36_apply,
    ReadP.val_main_v35_apply, ReadP.val_main_v34_apply, idx34_any, ReadP.val_main_v24_apply, idx24_at,
    ReadP.val_main_v33_apply, ReadP.val_main_v31_apply, ReadP.val_main_v30_apply, ReadP.val_main_v29_apply, idx29_any,
    ReadP.val_main_v25_apply, idx25_at, ReadP.val_main_v32_apply, ReadP.val_main_cst_6_apply,
    gathered Z M hZ n 0, gathered Z M hZ n 1, gathered Z M hZ n 2]

end Cert.ReferenceIdeal.Hand
end
-- ==== Proof.Casts.lean ====
/-
  A vector of length 8000000 and the one-column array [8000000, 1] hold the same entries in the same row-major
  order: a reshape between the two reads entry `n` of the one at `(n, 0)` of the other.
-/
import Idealize.ShloMosaic.Lib.Pipeline.Value
import Idealize.ShloMosaic.Lib.ValueIdx

namespace Cert.Growth

open Idealize.ShloMosaic Idealize.ShloMosaic.ValueIdx

/-- The column made of a vector: its entry `(n, z)` (`z` can only be `0`) is the vector's entry `n`. -/
theorem cast_col_apply {α : Type} (v : (⟨1, ![8000000]⟩ : Shape).Idx → α)
    (h : (⟨1, ![8000000]⟩ : Shape).ShapeCasts ⟨2, ![8000000, 1]⟩) (n : Fin 8000000) (z : Fin 1) :
    shapeCast ⟨2, ![8000000, 1]⟩ v h (ix2 n z) = v (ix1 n) := by
  refine shapeCast_apply v h (ix2 n z) (ix1 n) ?_
  rw [Shape.rowMajor_val_one, Shape.rowMajor_val_two]
  show n.val = n.val * 1 + z.val
  have := z.isLt
  omega

/-- The vector made of a column: its entry `n` is the column's entry `(n, 0)`. -/
theorem cast_vec_apply {α : Type} (X : (⟨2, ![8000000, 1]⟩ : Shape).Idx → α)
    (h : (⟨2, ![8000000, 1]⟩ : Shape).ShapeCasts ⟨1, ![8000000]⟩) (n : Fin 8000000) :
    shapeCast ⟨1, ![8000000]⟩ X h (ix1 n) = X (ix2 n (0 : Fin 1)) := by
  refine shapeCast_apply X h (ix1 n) (ix2 n (0 : Fin 1)) ?_
  rw [Shape.rowMajor_val_one, Shape.rowMajor_val_two]
  show n.val * 1 + 0 = n.val
  omega

end Cert.Growth
-- ==== Proof.Algebra.lean ====
/-
  The two programs compute one function. Over the extended reals, for group words in `[0, 100000)`:

  * the kernel's table of four columns — the measurements and a column of ones accumulated together — holds in
    columns 0 to 2 the sums of the groups' measurements and in column 3 the groups' sizes, and the reference's two
    separate accumulations hold the same sums and sizes (each entry is the sum over the rows of one group);
  * so both programs form the same group means, the kernel adding each offset on the right of its mean (`B + β`)
    and the reference on the left (`β + B`): addition commutes;
  * the kernel negates the ratio as `0 − r` and the reference as `−r`: the same extended real; clip, `exp`, `1 + ·`
    and both quotients are the same operations on both sides.

  Hence row `n` of the kernel's result — the curve at column `n` of the gathered table and entry `n` of the
  abscissae — is entry `(n, 0)` of the reference's result.
-/
import proofs.«424391_j71622874628175_3_alg».proof.Proof.HostValIdx
import proofs.«424391_j71622874628175_3_alg».proof.Proof.SegSum
import proofs.«424391_j71622874628175_3_alg».proof.Proof.RefVal
import proofs.«424391_j71622874628175_3_alg».proof.Proof.ClipId
import proofs.«424391_j71622874628175_3_alg».proof.Proof.Casts
import Idealize.ShloMosaic.PureOps.Ideal.Laws

noncomputable section

namespace Cert.Growth

open Idealize.ShloMosaic Idealize.ShloMosaic.ValueIdx Cert.KernelIdeal.Hand

/-- One row of the curve with the offsets added on the right of the three means is the reference's expression with
    them added on the left, the negation written `−r` for `0 − r`, and the host's quotient and exponential: over the
    extended reals the same number. -/
theorem lane_ref (x g0 g1 g2 β1 β2 β3 : Ideal .f32) :
    lane (F := Ideal) x (FloatOps.addf g0 β1) (FloatOps.addf g1 β2) (FloatOps.addf g2 β3)
      = FloatOps.hostDivf (FloatOps.addf β1 g0)
          (FloatOps.addf (FloatOps.ofBits .f32 0x3F800000#32)
            (FloatOps.hostUnary .exp (FloatOps.minimumf (FloatOps.ofBits .f32 0x42480000#32)
              (FloatOps.maximumf (FloatOps.ofBits .f32 0xC2480000#32)
                (FloatOps.hostNegf (FloatOps.hostDivf (FloatOps.subf x (FloatOps.addf β2 g1))
                  (FloatOps.maximumf (FloatOps.addf β3 g2) (FloatOps.ofBits .f32 0x3DCCCCCD#32)))))))) := by
  unfold lane
  simp only [Ideal.divf_def, Ideal.hostDivf_def, Ideal.exp_def, Ideal.hostUnary_exp_def, Ideal.subf_def, Ideal.addf_def,
    Ideal.hostNegf_def, Ideal.ofBits_def, Ideal.ofBits_zero_f32]
  rw [add_comm g0 β1, add_comm g1 β2, add_comm g2 β3]
  simp only [Ideal.negf_def, zero_sub]

/-- The kernel's result as a function of the arguments — the curve of the gathered table of offset group means and of
    the abscissa vector, as one column — is the reference's result, entry by entry, for group words in range. -/
theorem value_eq (X : FVec Ideal ⟨2, ![8000000, 1]⟩ .f32) (Z : IVec ⟨1, ![8000000]⟩ 32) (M : FVec Ideal ⟨2, ![8000000, 3]⟩ .f32)
    (b3 b4 b5 : FVec Ideal ⟨1, ![1]⟩ .f32) (hZ : InRange Z)
    (h1 : (⟨2, ![8000000, 1]⟩ : Shape).ShapeCasts ⟨1, ![8000000]⟩) (h2 : (⟨1, ![8000000]⟩ : Shape).ShapeCasts ⟨2, ![8000000, 1]⟩) :
    shapeCast ⟨2, ![8000000, 1]⟩ (curve (zbtOf (F := Ideal) Z M b3 b4 b5) (shapeCast ⟨1, ![8000000]⟩ X h1)) h2
      = Cert.ReferenceIdeal.ReadP.val_main_v44 (F := Ideal) X Z M b3 b4 b5 := by
  funext i
  obtain ⟨n, z, rfl⟩ : ∃ (n : Fin 8000000) (z : Fin 1), i = ix2 n z := ⟨i 0, i 1, eq_ix2 i⟩
  obtain rfl : z = 0 := Subsingleton.elim _ _
  have hclip := zclip_eq Z hZ
  -- the reference's entry (n, 0), and the kernel's: the curve's row n
  rw [cast_col_apply, Cert.ReferenceIdeal.Hand.ref_apply X Z M b3 b4 b5 hZ n]
  show lane (shapeCast ⟨1, ![8000000]⟩ X h1 (ix1 n)) (zbtOf (F := Ideal) Z M b3 b4 b5 (ix2 (n0 := 3) (n1 := 8000000) 0 n))
      (zbtOf (F := Ideal) Z M b3 b4 b5 (ix2 (n0 := 3) (n1 := 8000000) 1 n)) (zbtOf (F := Ideal) Z M b3 b4 b5 (ix2 (n0 := 3) (n1 := 8000000) 2 n)) = _
  rw [cast_vec_apply, zbtOf_apply0 Z M b3 b4 b5 hZ n, zbtOf_apply1 Z M b3 b4 b5 hZ n, zbtOf_apply2 Z M b3 b4 b5 hZ n]
  -- the kernel's table entries and the reference's are the same sums over the group's rows
  have s0 := sc4_sum M Z (groupOf Z hZ n) 0 hclip
  have s1 := sc4_sum M Z (groupOf Z hZ n) 1 hclip
  have s2 := sc4_sum M Z (groupOf Z hZ n) 2 hclip
  have s3 := sc4_cnt M Z (groupOf Z hZ n) hclip
  rw [show (ix2 (n0 := 100000) (n1 := 4) (groupOf Z hZ n) 0) = ix2 (n0 := 100000) (n1 := 4) (groupOf Z hZ n) ⟨(0 : Fin 3).val, by omega⟩ from rfl,
    show (ix2 (n0 := 100000) (n1 := 4) (groupOf Z hZ n) 1) = ix2 (n0 := 100000) (n1 := 4) (groupOf Z hZ n) ⟨(1 : Fin 3).val, by omega⟩ from rfl,
    show (ix2 (n0 := 100000) (n1 := 4) (groupOf Z hZ n) 2) = ix2 (n0 := 100000) (n1 := 4) (groupOf Z hZ n) ⟨(2 : Fin 3).val, by omega⟩ from rfl,
    s0, s1, s2, s3, ← ref_sum M Z (groupOf Z hZ n) 0, ← ref_sum M Z (groupOf Z hZ n) 1, ← ref_sum M Z (groupOf Z hZ n) 2,
    ← ref_cnt Z (groupOf Z hZ n)]
  exact lane_ref _ _ _ _ _ _ _

end Cert.Growth

end
-- ==== Proof.PreDecode.lean ====
/-
  The precondition read back: every group word lies in `[0, 100000)`.

  The printed precondition is a conjunction of seven reductions by `and` over one-bit arrays. Its last two conjuncts
  reduce, over all rows, the signed comparisons `Z n ≥ 0` and `Z n < 100000` of the group words against two
  broadcast literals. When the whole conjunction is the word `1`, each conjunct is; a reduction by `and` to a single
  result that is `1` met a `1` at every row; and a signed comparison that is `1` orders the signed readings of its
  operands. Row by row this is the domain `InRange` of the group words. Nothing is asked of the float inputs, so the
  statement holds for every float instance.
-/
import proofs.«424391_j71622874628175_3_alg».proof.Pre_finite_inputs
import proofs.«424391_j71622874628175_3_alg».proof.Proof.Gen.Pre_finite_inputs
import proofs.«424391_j71622874628175_3_alg».proof.Proof.Spec
import Idealize.ShloMosaic.Lib.ReduceAll
import Idealize.ShloMosaic.Lib.StableHlo.Predicate

noncomputable section

namespace Cert.Pre_finite_inputs.Decode

open Cert.Pre_finite_inputs Cert.Pre_finite_inputs.Facts Idealize.ShloMosaic Idealize.ShloMosaic.ValueIdx

variable {F : FTy → Type} [FloatOps F] [Facts]

/-- The tail of the precondition alone: whatever the earlier conjuncts carry in, its last two conjuncts are the
    reductions of `Z ≥ 0` and `Z < 100000`, and each gives its comparison at every row. -/
theorem inRange_of_part1 (a1 : IVec S8000000 32) (a5 : FVec F S1 .f32) (v13 : IVec S_ 1) (v16 : IVec S1 1)
    (h : fn_part1 (F := F) a1 a5 v13 v16 ix0 = 1#1) : Cert.Growth.InRange a1 := by
  -- the scalar shape has one index
  haveI : Subsingleton S_.Idx := ⟨fun a b => funext fun d => d.elim0⟩
  dsimp only [fn_part1] at h
  obtain ⟨h27, h30⟩ := IntOp.andi_eq_one.mp h
  obtain ⟨_, h26⟩ := IntOp.andi_eq_one.mp h27
  intro n
  have hge : IntOp.cmpi .sge (a1 (ix1 n)) 0#32 = 1#1 :=
    Host.reduce_andi_all _ _ reducesTo_S8000000_S_d0 h_S_ ix0 h26 (ix1 n)
  have hlt : IntOp.cmpi .slt (a1 (ix1 n)) 100000#32 = 1#1 :=
    Host.reduce_andi_all _ _ reducesTo_S8000000_S_d0 h_S_ ix0 h30 (ix1 n)
  have h0 : (0#32 : BitVec 32).toInt = 0 := by decide
  have hq : (100000#32 : BitVec 32).toInt = 100000 := by decide
  have hge' := IntOp.cmpi_sge.mp hge
  have hlt' := IntOp.cmpi_slt.mp hlt
  rw [h0] at hge'
  rw [hq] at hlt'
  exact ⟨hge', hlt'⟩

/-- The precondition's word being `1` puts every group word in `[0, 100000)`, read signed. -/
theorem inRange_of_pre (a0 : FVec F S8000000x1 .f32) (a1 : IVec S8000000 32) (a2 : FVec F S8000000x3 .f32)
    (a3 a4 a5 : FVec F S1 .f32) (h : Cert.Pre_finite_inputs.fn (F := F) a0 a1 a2 a3 a4 a5 = fun _ => 1#1) :
    Cert.Growth.InRange a1 := by
  have h0 : Cert.Pre_finite_inputs.fn (F := F) a0 a1 a2 a3 a4 a5 ix0 = 1#1 := congrFun h ix0
  dsimp only [Cert.Pre_finite_inputs.fn] at h0
  exact inRange_of_part1 a1 a5 _ _ h0

end Cert.Pre_finite_inputs.Decode

end
-- ==== Proof.lean ====
/-
  The kernel — a logistic growth curve over per-group means, the means gathered per row on the host and the curve
  evaluated lanewise in one pallas_call over 31 blocks of 262144 rows, the last block overhanging the arrays — computes
  what the reference computes, over the extended reals, for finite float inputs and group words in `[0, 100000)`
  (outside that range the reference itself indexes its table out of range).

  * Frames. Each kernel program's entry function is host operations, the one region, one reshape; its run
    (Proof/RunK.lean for the idealized program, the same text in the word-level program's namespace for the other)
    ends with the arguments as launched. The reference's frame is its run (the host operations in order) with the
    result dropped.
  * `preserves`: the idealization rewrote nothing.
  * `algebraic`: the kernel's run leaves in the result the curve of the two arrays the pallas_call consumes; read
    back through the host operations those arrays are functions of the arguments (Proof/HostValK.lean), and entry by
    entry the curve of them is the reference's result (Proof/Algebra.lean): the kernel's one accumulation of the
    measurements with a column of ones holds the same group sums and sizes as the reference's two, clipping the group
    words changes nothing in range, and the two programs differ otherwise only in the order of two summands and in
    how they write a negation.
-/
import proofs.«424391_j71622874628175_3_alg».proof.Defs
import proofs.«424391_j71622874628175_3_alg».proof.Proof.Gen.Kernel
import proofs.«424391_j71622874628175_3_alg».proof.Proof.Gen.KernelIdeal
import proofs.«424391_j71622874628175_3_alg».proof.Proof.Gen.ReferenceIdeal
import proofs.«424391_j71622874628175_3_alg».proof.Proof.Gen.Pre_finite_inputs
import proofs.«424391_j71622874628175_3_alg».proof.Proof.RunK
import proofs.«424391_j71622874628175_3_alg».proof.Proof.RunKB
import proofs.«424391_j71622874628175_3_alg».proof.Proof.RefRunP
import proofs.«424391_j71622874628175_3_alg».proof.Proof.KVal
import proofs.«424391_j71622874628175_3_alg».proof.Proof.Algebra
import proofs.«424391_j71622874628175_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_value (F := Bits) m ρ)

theorem frame_ki : Cert.frame_KernelIdeal := fun m ρ _ =>
  (θ_run Cert.KernelIdeal.defs _ _).mono (fun _ h c => (h c).2) (Cert.KernelIdeal.Hand.run_value (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs run, and the reference's result is the kernel's: the
    kernel's run leaves the curve of the two arrays its pallas_call consumes; those arrays are the gathered table and the
    abscissa vector of the arguments; and that curve is the reference's result entry by entry, the group words being in
    range by the precondition. -/
theorem algebraic : Cert.algebraic_KernelIdeal_ReferenceIdeal := by
  intro m ρ m' ρ' hpre hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  have hZ : Cert.Growth.InRange (m ((c.tc : Thread Cert.KernelIdeal.nD Cert.KernelIdeal.τ).loc Cert.KernelIdeal.main_arg1)) :=
    Cert.Pre_finite_inputs.Decode.inRange_of_pre _ _ _ _ _ _ (hpre c)
  rw [Cert.ReferenceIdeal.ReadP.val_main_v44_eq, (hagree c).1, (hagree c).2.1, (hagree c).2.2.1, (hagree c).2.2.2.1,
    (hagree c).2.2.2.2.1, (hagree c).2.2.2.2.2, Cert.KernelIdeal.Hand.V_v23, Cert.KernelIdeal.Hand.V_v24]
  exact (Cert.Growth.value_eq _ _ _ _ _ _ hZ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
